-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000x128 : Shape := ⟨2, ![600000, 128]⟩
abbrev S600000 : Shape := ⟨1, ![600000]⟩
abbrev S128x128 : Shape := ⟨2, ![128, 128]⟩
abbrev S128 : Shape := ⟨1, ![128]⟩
abbrev S_ : Shape := ⟨0, ![]⟩
abbrev S1x128 : Shape := ⟨2, ![1, 128]⟩
abbrev S600000x1 : Shape := ⟨2, ![600000, 1]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S600000 : S_.BroadcastsInDim S600000 (![] : Fin 0 → Fin S600000.rank)
  reducesTo_S600000_S_d0 : S600000.ReducesTo [0] S_
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S600000_S600000x1_0 : S600000.BroadcastsInDim S600000x1 (![0] : Fin 1 → Fin S600000x1.rank)
  bcast_S1x128_S600000x128_0_1 : S1x128.BroadcastsInDim S600000x128 (![0, 1] : Fin 2 → Fin S600000x128.rank)
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  dot_S600000x128_S128x128_S600000x128_1_0_0_1_n_n_wf : DotDims.WF S600000x128 S128x128 S600000x128 [1] [0] [0] [1] [] []
  scatter_S100000x128_S600000x1_S600000x128_1_0_0_1_wf : ScatterDims.WF S100000x128 S600000x1 S600000x128 [1] [0] [0] 1

variable [Facts]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def fn_part7 {F : FTy → Type} [FloatOps F] (main_arg3 : IVec S600000 32) (main_v92 : IVec S_ 1) (main_v120 : FVec F S600000x128 .f32) (main_v124 : FVec F S600000x128 .f32) : IVec S_ 1 :=
  let main_cst_41 : FVec F S_ .f32 := constant S_ .f32 0x3F800000#32
  let main_v125 : FVec F S600000x128 .f32 := broadcastInDim S600000x128 ![] bcast_S_S600000x128 main_cst_41
  let main_v126 : FVec F S600000x128 .f32 := Host.divf main_v125 main_v124
  let main_v127 : FVec F S600000x128 .f32 := mulf main_v120 main_v126
  let main_cst_42 : FVec F S_ .f32 := constant S_ .f32 0x00000000#32
  let main_v128 : FVec F S100000x128 .f32 := broadcastInDim S100000x128 ![] bcast_S_S100000x128 main_cst_42
  let main_v129 : IVec S600000x1 32 := broadcastInDim S600000x1 ![0] bcast_S600000_S600000x1_0 main_arg3
  let main_v130 : FVec F S100000x128 .f32 := (fun x i u => Host.scatterAdd scatter_S100000x128_S600000x1_S600000x128_1_0_0_1 x i u) main_v128 main_v129 main_v127
  let main_cst_43 : FVec F S_ .f32 := constant S_ .f32 0x358637BD#32
  let main_v131 : FVec F S100000x128 .f32 := broadcastInDim S100000x128 ![] bcast_S_S100000x128 main_cst_43
  let main_v132 : FVec F S100000x128 .f32 := addf main_v130 main_v131
  let main_cst_44 : FVec F S_ .f32 := constant S_ .f32 0x00000000#32
  let main_v133 : FVec F S100000x128 .f32 := broadcastInDim S100000x128 ![] bcast_S_S100000x128 main_cst_44
  let main_v134 : IVec S100000x128 1 := cmpf .une main_v132 main_v133
  let main_c_45 : IVec S_ 1 := constantI S_ 1 1#1
  let main_v135 : IVec S_ 1 := (fun x v => Host.reduce IntOp.andi x v reducesTo_S100000x128_S_d0_1 h_S_) main_v134 main_c_45
  let main_v136 : IVec S_ 1 := andi main_v92 main_v135
  main_v136

def fn_part6 {F : FTy → Type} [FloatOps F] (main_arg1 : FVec F S600000x128 .f32) (main_arg2 : IVec S600000 32) (main_arg3 : IVec S600000 32) (main_arg8 : FVec F S128x128 .f32) (main_arg9 : FVec F S128 .f32) (main_v92 : IVec S_ 1) (main_v96 : FVec F S100000x128 .f32) (main_v100 : FVec F S100000x128 .f32) (main_v102 : IVec S600000 1) (main_v103 : IVec S600000 32) : IVec S_ 1 :=
  let main_v104 : IVec S600000 32 := addi main_arg2 main_v103
  let main_v105 : IVec S600000 32 := select main_v102 main_v104 main_arg2
  let main_v106 : IVec S600000x1 32 := broadcastInDim S600000x1 ![0] bcast_S600000_S600000x1_0 main_v105
  let main_v107 : FVec F S600000x128 .f32 := (fun x i => Host.gather gather_S100000x128_S600000x1_S600000x128_1_0_n_n_0_1_1128 x i) main_v96 main_v106
  let main_c_38 : IVec S_ 32 := constantI S_ 32 0#32
  let main_v108 : IVec S600000 32 := broadcastInDim S600000 ![] bcast_S_S600000 main_c_38
  let main_v109 : IVec S600000 1 := cmpi .slt main_arg3 main_v108
  let main_c_39 : IVec S_ 32 := constantI S_ 32 100000#32
  let main_v110 : IVec S600000 32 := broadcastInDim S600000 ![] bcast_S_S600000 main_c_39
  let main_v111 : IVec S600000 32 := addi main_arg3 main_v110
  let main_v112 : IVec S600000 32 := select main_v109 main_v111 main_arg3
  let main_v113 : IVec S600000x1 32 := broadcastInDim S600000x1 ![0] bcast_S600000_S600000x1_0 main_v112
  let main_v114 : FVec F S600000x128 .f32 := (fun x i => Host.gather gather_S100000x128_S600000x1_S600000x128_1_0_n_n_0_1_1128 x i) main_v100 main_v113
  let main_v115 : FVec F S600000x128 .f32 := addf main_v107 main_v114
  let main_v116 : FVec F S600000x128 .f32 := (fun l r => Host.dotGeneral dot_S600000x128_S128x128_S600000x128_1_0_0_1_n_n none l r) main_arg1 main_arg8
  let main_v117 : FVec F S1x128 .f32 := broadcastInDim S1x128 ![1] bcast_S128_S1x128_1 main_arg9
  let main_v118 : FVec F S600000x128 .f32 := broadcastInDim S600000x128 ![0, 1] bcast_S1x128_S600000x128_0_1 main_v117
  let main_v119 : FVec F S600000x128 .f32 := addf main_v116 main_v118
  let main_v120 : FVec F S600000x128 .f32 := addf main_v119 main_v115
  let main_v121 : FVec F S600000x128 .f32 := Host.negf main_v120
  let main_v122 : FVec F S600000x128 .f32 := Host.exp main_v121
  let main_cst_40 : FVec F S_ .f32 := constant S_ .f32 0x3F800000#32
  let main_v123 : FVec F S600000x128 .f32 := broadcastInDim S600000x128 ![] bcast_S_S600000x128 main_cst_40
  let main_v124 : FVec F S600000x128 .f32 := addf main_v123 main_v122
  fn_part7 (F := F) main_arg3 main_v92 main_v120 main_v124

def fn_part5 {F : FTy → Type} [FloatOps F] (main_arg0 : FVec F S100000x128 .f32) (main_arg1 : FVec F S600000x128 .f32) (main_arg2 : IVec S600000 32) (main_arg3 : IVec S600000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_v78 : IVec S_ 1) (main_v84 : IVec S_ 1) : IVec S_ 1 :=
  let main_v85 : IVec S_ 1 := andi main_v78 main_v84
  let main_c_33 : IVec S_ 32 := constantI S_ 32 0#32
  let main_v86 : IVec S600000 32 := broadcastInDim S600000 ![] bcast_S_S600000 main_c_33
  let main_v87 : IVec S600000 1 := cmpi .sge main_arg3 main_v86
  let main_c_34 : IVec S_ 32 := constantI S_ 32 100000#32
  let main_v88 : IVec S600000 32 := broadcastInDim S600000 ![] bcast_S_S600000 main_c_34
  let main_v89 : IVec S600000 1 := cmpi .slt main_arg3 main_v88
  let main_v90 : IVec S600000 1 := andi main_v87 main_v89
  let main_c_35 : IVec S_ 1 := constantI S_ 1 1#1
  let main_v91 : IVec S_ 1 := (fun x v => Host.reduce IntOp.andi x v reducesTo_S600000_S_d0 h_S_) main_v90 main_c_35
  let main_v92 : IVec S_ 1 := andi main_v85 main_v91
  let main_v93 : FVec F S100000x128 .f32 := (fun l r => Host.dotGeneral dot_S100000x128_S128x128_S100000x128_1_0_0_1_n_n none l r) main_arg0 main_arg4
  let main_v94 : FVec F S1x128 .f32 := broadcastInDim S1x128 ![1] bcast_S128_S1x128_1 main_arg5
  let main_v95 : FVec F S100000x128 .f32 := broadcastInDim S100000x128 ![0, 1] bcast_S1x128_S100000x128_0_1 main_v94
  let main_v96 : FVec F S100000x128 .f32 := addf main_v93 main_v95
  let main_v97 : FVec F S100000x128 .f32 := (fun l r => Host.dotGeneral dot_S100000x128_S128x128_S100000x128_1_0_0_1_n_n none l r) main_arg0 main_arg6
  let main_v98 : FVec F S1x128 .f32 := broadcastInDim S1x128 ![1] bcast_S128_S1x128_1 main_arg7
  let main_v99 : FVec F S100000x128 .f32 := broadcastInDim S100000x128 ![0, 1] bcast_S1x128_S100000x128_0_1 main_v98
  let main_v100 : FVec F S100000x128 .f32 := addf main_v97 main_v99
  let main_c_36 : IVec S_ 32 := constantI S_ 32 0#32
  let main_v101 : IVec S600000 32 := broadcastInDim S600000 ![] bcast_S_S600000 main_c_36
  let main_v102 : IVec S600000 1 := cmpi .slt main_arg2 main_v101
  let main_c_37 : IVec S_ 32 := constantI S_ 32 100000#32
  let main_v103 : IVec S600000 32 := broadcastInDim S600000 ![] bcast_S_S600000 main_c_37
  fn_part6 (F := F) main_arg1 main_arg2 main_arg3 main_arg8 main_arg9 main_v92 main_v96 main_v100 main_v102 main_v103

def fn_part4 {F : FTy → Type} [FloatOps F] (main_arg0 : FVec F S100000x128 .f32) (main_arg1 : FVec F S600000x128 .f32) (main_arg2 : IVec S600000 32) (main_arg3 : IVec S600000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg16 : FVec F S128 .f32) (main_arg17 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_c_30 : IVec S_ 32 := constantI S_ 32 0#32
  let main_v79 : IVec S600000 32 := broadcastInDim S600000 ![] bcast_S_S600000 main_c_30
  let main_v80 : IVec S600000 1 := cmpi .sge main_arg2 main_v79
  let main_c_31 : IVec S_ 32 := constantI S_ 32 100000#32
  let main_v81 : IVec S600000 32 := broadcastInDim S600000 ![] bcast_S_S600000 main_c_31
  let main_v82 : IVec S600000 1 := cmpi .slt main_arg2 main_v81
  let main_v83 : IVec S600000 1 := andi main_v80 main_v82
  let main_c_32 : IVec S_ 1 := constantI S_ 1 1#1
  let main_v84 : IVec S_ 1 := (fun x v => Host.reduce IntOp.andi x v reducesTo_S600000_S_d0 h_S_) main_v83 main_c_32
  fn_part5 (F := F) main_arg0 main_arg1 main_arg2 main_arg3 main_arg4 main_arg5 main_arg6 main_arg7 main_arg8 main_arg9 main_v78 main_v84

def fn_part3 {F : FTy → Type} [FloatOps F] (main_arg0 : FVec F S100000x128 .f32) (main_arg1 : FVec F S600000x128 .f32) (main_arg2 : IVec S600000 32) (main_arg3 : IVec S600000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg13 : FVec F S128 .f32) (main_arg14 : FVec F S128 .f32) (main_arg15 : FVec F S128 .f32) (main_arg16 : FVec F S128 .f32) (main_arg17 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg0 main_arg1 main_arg2 main_arg3 main_arg4 main_arg5 main_arg6 main_arg7 main_arg8 main_arg9 main_arg16 main_arg17 main_v63 main_v67

def fn_part2 {F : FTy → Type} [FloatOps F] (main_arg0 : FVec F S100000x128 .f32) (main_arg1 : FVec F S600000x128 .f32) (main_arg2 : IVec S600000 32) (main_arg3 : IVec S600000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg0 main_arg1 main_arg2 main_arg3 main_arg4 main_arg5 main_arg6 main_arg7 main_arg8 main_arg9 main_arg13 main_arg14 main_arg15 main_arg16 main_arg17 main_v48 main_v49 main_v50

def fn_part1 {F : FTy → Type} [FloatOps F] (main_arg0 : FVec F S100000x128 .f32) (main_arg1 : FVec F S600000x128 .f32) (main_arg2 : IVec S600000 32) (main_arg3 : IVec S600000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg0 main_arg1 main_arg2 main_arg3 main_arg4 main_arg5 main_arg6 main_arg7 main_arg8 main_arg9 main_arg10 main_arg11 main_arg12 main_arg13 main_arg14 main_arg15 main_arg16 main_arg17 main_v33

def fn {F : FTy → Type} [FloatOps F] (main_arg0 : FVec F S100000x128 .f32) (main_arg1 : FVec F S600000x128 .f32) (main_arg2 : IVec S600000 32) (main_arg3 : IVec S600000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg1 main_arg2 main_arg3 main_arg4 main_arg5 main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S600000x128 : Shape := ⟨2, ![600000, 128]⟩
abbrev S600000 : Shape := ⟨1, ![600000]⟩
abbrev S128x128 : Shape := ⟨2, ![128, 128]⟩
abbrev S128 : Shape := ⟨1, ![128]⟩
abbrev S100000x256 : Shape := ⟨2, ![100000, 256]⟩
abbrev S2000x128 : Shape := ⟨2, ![2000, 128]⟩
abbrev S2000x256 : Shape := ⟨2, ![2000, 256]⟩
abbrev S1x128 : Shape := ⟨2, ![1, 128]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S600000x256 : Shape := ⟨2, ![600000, 256]⟩
abbrev S250x8x128 : Shape := ⟨3, ![250, 8, 128]⟩
abbrev S2400x128 : Shape := ⟨2, ![2400, 128]⟩
abbrev S2400x256 : Shape := ⟨2, ![2400, 256]⟩
abbrev S1x8x128 : Shape := ⟨3, ![1, 8, 128]⟩
abbrev S8x128 : Shape := ⟨2, ![8, 128]⟩
abbrev S50x8x128 : Shape := ⟨3, ![50, 8, 128]⟩

abbrev nBuf : Space → Nat
  | .hbm => 110
  | .vmem => 62
  | .smem => 0
  | _ => 0

abbrev bufTy : (tb : Table) → Fin (tcTables nBuf tb) → BufTy
  | .hbm, ⟨0, _⟩ => ⟨S100000x128, .f32⟩
  | .hbm, ⟨1, _⟩ => ⟨S600000x128, .f32⟩
  | .hbm, ⟨2, _⟩ => ⟨S600000, .i32⟩
  | .hbm, ⟨3, _⟩ => ⟨S600000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S100000x128, .f32⟩
  | .hbm, ⟨19, _⟩ => ⟨S100000x256, .f32⟩
  | .hbm, ⟨20, _⟩ => ⟨S100000x128, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S1, .i32⟩
  | .hbm, ⟨30, _⟩ => ⟨S_, .i32⟩
  | .hbm, ⟨31, _⟩ => ⟨S600000x1, .i32⟩
  | .hbm, ⟨32, _⟩ => ⟨S600000x1, .i1⟩
  | .hbm, ⟨33, _⟩ => ⟨S1x1, .i32⟩
  | .hbm, ⟨34, _⟩ => ⟨S600000x1, .i32⟩
  | .hbm, ⟨35, _⟩ => ⟨S600000x1, .i1⟩
  | .hbm, ⟨36, _⟩ => ⟨S600000x1, .i1⟩
  | .hbm, ⟨37, _⟩ => ⟨S_, .i1⟩
  | .hbm, ⟨38, _⟩ => ⟨S600000, .i1⟩
  | .hbm, ⟨39, _⟩ => ⟨S600000x128, .f32⟩
  | .hbm, ⟨40, _⟩ => ⟨S600000x128, .i1⟩
  | .hbm, ⟨41, _⟩ => ⟨S_, .f32⟩
  | .hbm, ⟨42, _⟩ => ⟨S600000x128, .f32⟩
  | .hbm, ⟨43, _⟩ => ⟨S600000x128, .f32⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S1, .i32⟩
  | .hbm, ⟨53, _⟩ => ⟨S_, .i32⟩
  | .hbm, ⟨54, _⟩ => ⟨S600000x1, .i32⟩
  | .hbm, ⟨55, _⟩ => ⟨S600000x1, .i1⟩
  | .hbm, ⟨56, _⟩ => ⟨S1x1, .i32⟩
  | .hbm, ⟨57, _⟩ => ⟨S600000x1, .i32⟩
  | .hbm, ⟨58, _⟩ => ⟨S600000x1, .i1⟩
  | .hbm, ⟨59, _⟩ => ⟨S600000x1, .i1⟩
  | .hbm, ⟨60, _⟩ => ⟨S_, .i1⟩
  | .hbm, ⟨61, _⟩ => ⟨S600000, .i1⟩
  | .hbm, ⟨62, _⟩ => ⟨S600000x256, .f32⟩
  | .hbm, ⟨63, _⟩ => ⟨S600000x256, .i1⟩
  | .hbm, ⟨64, _⟩ => ⟨S_, .f32⟩
  | .hbm, ⟨65, _⟩ => ⟨S600000x256, .f32⟩
  | .hbm, ⟨66, _⟩ => ⟨S600000x256, .f32⟩
  | .hbm, ⟨67, _⟩ => ⟨S600000x128, .bf16⟩
  | .hbm, ⟨68, _⟩ => ⟨S600000x256, .f32⟩
  | .hbm, ⟨69, _⟩ => ⟨S250x8x128, .f32⟩
  | .hbm, ⟨70, _⟩ => ⟨S250x8x128, .f32⟩
  | .hbm, ⟨71, _⟩ => ⟨S_, .f32⟩
  | .hbm, ⟨72, _⟩ => ⟨S100000x256, .f32⟩
  | .hbm, ⟨73, _⟩ => ⟨S600000x1, .i32⟩
  | .hbm, ⟨74, _⟩ => ⟨S100000x256, .f32⟩
  | .hbm, ⟨75, _⟩ => ⟨S100000x128, .f32⟩
  | .hbm, ⟨76, _⟩ => ⟨S50x8x128, .f32⟩
  | .hbm, ⟨77, _⟩ => ⟨S50x8x128, .f32⟩
  | .hbm, ⟨78, _⟩ => ⟨S_, .f32⟩
  | .hbm, ⟨79, _⟩ => ⟨S128, .f32⟩
  | .hbm, ⟨80, _⟩ => ⟨S_, .f32⟩
  | .hbm, ⟨81, _⟩ => ⟨S128, .f32⟩
  | .hbm, ⟨82, _⟩ => ⟨S128, .f32⟩
  | .hbm, ⟨83, _⟩ => ⟨S_, .f32⟩
  | .hbm, ⟨84, _⟩ => ⟨S128, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S128, .f32⟩
  | .hbm, ⟨89, _⟩ => ⟨S128, .f32⟩
  | .hbm, ⟨90, _⟩ => ⟨S_, .f32⟩
  | .hbm, ⟨91, _⟩ => ⟨S128, .f32⟩
  | .hbm, ⟨92, _⟩ => ⟨S128, .f32⟩
  | .hbm, ⟨93, _⟩ => ⟨S_, .f32⟩
  | .hbm, ⟨94, _⟩ => ⟨S128, .f32⟩
  | .hbm, ⟨95, _⟩ => ⟨S_, .f32⟩
  | .hbm, ⟨96, _⟩ => ⟨S128, .f32⟩
  | .hbm, ⟨97, _⟩ => ⟨S128, .f32⟩
  | .hbm, ⟨98, _⟩ => ⟨S_, .f32⟩
  | .hbm, ⟨99, _⟩ => ⟨S128, .f32⟩
  | .hbm, ⟨100, _⟩ => ⟨S_, .f32⟩
  | .hbm, ⟨101, _⟩ => ⟨S128, .f32⟩
  | .hbm, ⟨102, _⟩ => ⟨S128, .f32⟩
  | .hbm, ⟨103, _⟩ => ⟨S128, .f32⟩
  | .hbm, ⟨104, _⟩ => ⟨S128, .f32⟩
  | .hbm, ⟨105, _⟩ => ⟨S_, .f32⟩
  | .hbm, ⟨106, _⟩ => ⟨S128, .f32⟩
  | .hbm, ⟨107, _⟩ => ⟨S128, .f32⟩
  | .hbm, ⟨108, _⟩ => ⟨S600000x128, .f32⟩
  | .hbm, ⟨109, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S2000x128, .f32⟩
  | .local _ .vmem, ⟨11, _⟩ => ⟨S2000x128, .f32⟩
  | .local _ .vmem, ⟨12, _⟩ => ⟨S2000x256, .f32⟩
  | .local _ .vmem, ⟨13, _⟩ => ⟨S2000x256, .f32⟩
  | .local _ .vmem, ⟨14, _⟩ => ⟨S2000x128, .f32⟩
  | .local _ .vmem, ⟨15, _⟩ => ⟨S2000x128, .f32⟩
  | .local _ .vmem, ⟨16, _⟩ => ⟨S2400x128, .f32⟩
  | .local _ .vmem, ⟨17, _⟩ => ⟨S2400x128, .f32⟩
  | .local _ .vmem, ⟨18, _⟩ => ⟨S128x128, .f32⟩
  | .local _ .vmem, ⟨19, _⟩ => ⟨S128, .f32⟩
  | .local _ .vmem, ⟨20, _⟩ => ⟨S2400x128, .f32⟩
  | .local _ .vmem, ⟨21, _⟩ => ⟨S2400x128, .f32⟩
  | .local _ .vmem, ⟨22, _⟩ => ⟨S2400x256, .f32⟩
  | .local _ .vmem, ⟨23, _⟩ => ⟨S2400x256, .f32⟩
  | .local _ .vmem, ⟨24, _⟩ => ⟨S2400x128, .bf16⟩
  | .local _ .vmem, ⟨25, _⟩ => ⟨S2400x128, .bf16⟩
  | .local _ .vmem, ⟨26, _⟩ => ⟨S2400x256, .f32⟩
  | .local _ .vmem, ⟨27, _⟩ => ⟨S2400x256, .f32⟩
  | .local _ .vmem, ⟨28, _⟩ => ⟨S1x8x128, .f32⟩
  | .local _ .vmem, ⟨29, _⟩ => ⟨S1x8x128, .f32⟩
  | .local _ .vmem, ⟨30, _⟩ => ⟨S1x8x128, .f32⟩
  | .local _ .vmem, ⟨31, _⟩ => ⟨S1x8x128, .f32⟩
  | .local _ .vmem, ⟨32, _⟩ => ⟨S2000x256, .f32⟩
  | .local _ .vmem, ⟨33, _⟩ => ⟨S2000x256, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S1x8x128, .f32⟩
  | .local _ .vmem, ⟨39, _⟩ => ⟨S1x8x128, .f32⟩
  | .local _ .vmem, ⟨40, _⟩ => ⟨S1x8x128, .f32⟩
  | .local _ .vmem, ⟨41, _⟩ => ⟨S1x8x128, .f32⟩
  | .local _ .vmem, ⟨42, _⟩ => ⟨S2400x128, .bf16⟩
  | .local _ .vmem, ⟨43, _⟩ => ⟨S2400x128, .bf16⟩
  | .local _ .vmem, ⟨44, _⟩ => ⟨S2400x128, .f32⟩
  | .local _ .vmem, ⟨45, _⟩ => ⟨S2400x128, .f32⟩
  | .local _ .vmem, ⟨46, _⟩ => ⟨S128, .f32⟩
  | .local _ .vmem, ⟨47, _⟩ => ⟨S128, .f32⟩
  | .local _ .vmem, ⟨48, _⟩ => ⟨S128, .f32⟩
  | .local _ .vmem, ⟨49, _⟩ => ⟨S128, .f32⟩
  | .local _ .vmem, ⟨50, _⟩ => ⟨S2400x128, .f32⟩
  | .local _ .vmem, ⟨51, _⟩ => ⟨S2400x128, .f32⟩
  | .local _ .vmem, ⟨52, _⟩ => ⟨S2000x128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | .local _ .vmem, ⟨56, _⟩ => ⟨S128, .f32⟩
  | .local _ .vmem, ⟨57, _⟩ => ⟨S128, .f32⟩
  | .local _ .vmem, ⟨58, _⟩ => ⟨S128, .f32⟩
  | .local _ .vmem, ⟨59, _⟩ => ⟨S128, .f32⟩
  | .local _ .vmem, ⟨60, _⟩ => ⟨S2000x128, .f32⟩
  | .local _ .vmem, ⟨61, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0_0 : Ref sig .tc := ⟨.hbm, 18, rfl⟩
abbrev main_v0_1 : Ref sig .tc := ⟨.hbm, 19, rfl⟩
abbrev main_v0_2 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v1 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v2 : Ref sig .tc := ⟨.hbm, 66, rfl⟩
abbrev main_v3_0 : Ref sig .tc := ⟨.hbm, 67, rfl⟩
abbrev main_v3_1 : Ref sig .tc := ⟨.hbm, 68, rfl⟩
abbrev main_v3_2 : Ref sig .tc := ⟨.hbm, 69, rfl⟩
abbrev main_v3_3 : Ref sig .tc := ⟨.hbm, 70, rfl⟩
abbrev main_cst : Ref sig .tc := ⟨.hbm, 71, rfl⟩
abbrev main_v4 : Ref sig .tc := ⟨.hbm, 72, rfl⟩
abbrev main_v5 : Ref sig .tc := ⟨.hbm, 73, rfl⟩
abbrev main_v6 : Ref sig .tc := ⟨.hbm, 74, rfl⟩
abbrev main_v7_0 : Ref sig .tc := ⟨.hbm, 75, rfl⟩
abbrev main_v7_1 : Ref sig .tc := ⟨.hbm, 76, rfl⟩
abbrev main_v7_2 : Ref sig .tc := ⟨.hbm, 77, rfl⟩
abbrev main_cst_0 : Ref sig .tc := ⟨.hbm, 78, rfl⟩
abbrev main_v8 : Ref sig .tc := ⟨.hbm, 79, rfl⟩
abbrev main_cst_1 : Ref sig .tc := ⟨.hbm, 80, rfl⟩
abbrev main_v9 : Ref sig .tc := ⟨.hbm, 81, rfl⟩
abbrev main_v10 : Ref sig .tc := ⟨.hbm, 82, rfl⟩
abbrev main_cst_2 : Ref sig .tc := ⟨.hbm, 83, rfl⟩
abbrev main_v11 : Ref sig .tc := ⟨.hbm, 84, rfl⟩
abbrev main_cst_3 : Ref sig .tc := ⟨.hbm, 85, rfl⟩
abbrev main_v12 : Ref sig .tc := ⟨.hbm, 86, rfl⟩
abbrev main_v13 : Ref sig .tc := ⟨.hbm, 87, rfl⟩
abbrev main_v14 : Ref sig .tc := ⟨.hbm, 88, rfl⟩
abbrev main_v15 : Ref sig .tc := ⟨.hbm, 89, rfl⟩
abbrev main_cst_4 : Ref sig .tc := ⟨.hbm, 90, rfl⟩
abbrev main_v16 : Ref sig .tc := ⟨.hbm, 91, rfl⟩
abbrev main_v17 : Ref sig .tc := ⟨.hbm, 92, rfl⟩
abbrev main_cst_5 : Ref sig .tc := ⟨.hbm, 93, rfl⟩
abbrev main_v18 : Ref sig .tc := ⟨.hbm, 94, rfl⟩
abbrev main_cst_6 : Ref sig .tc := ⟨.hbm, 95, rfl⟩
abbrev main_v19 : Ref sig .tc := ⟨.hbm, 96, rfl⟩
abbrev main_v20 : Ref sig .tc := ⟨.hbm, 97, rfl⟩
abbrev main_cst_7 : Ref sig .tc := ⟨.hbm, 98, rfl⟩
abbrev main_v21 : Ref sig .tc := ⟨.hbm, 99, rfl⟩
abbrev main_cst_8 : Ref sig .tc := ⟨.hbm, 100, rfl⟩
abbrev main_v22 : Ref sig .tc := ⟨.hbm, 101, rfl⟩
abbrev main_v23 : Ref sig .tc := ⟨.hbm, 102, rfl⟩
abbrev main_v24 : Ref sig .tc := ⟨.hbm, 103, rfl⟩
abbrev main_v25 : Ref sig .tc := ⟨.hbm, 104, rfl⟩
abbrev main_cst_9 : Ref sig .tc := ⟨.hbm, 105, rfl⟩
abbrev main_v26 : Ref sig .tc := ⟨.hbm, 106, rfl⟩
abbrev main_v27 : Ref sig .tc := ⟨.hbm, 107, rfl⟩
abbrev main_v28 : Ref sig .tc := ⟨.hbm, 108, rfl⟩
abbrev main_v29 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg3_0 : Ref sig .tc := ⟨.vmem, 47, rfl⟩
abbrev cc3_stg4_0 : Ref sig .tc := ⟨.vmem, 48, rfl⟩
abbrev cc3_stg5_0 : Ref sig .tc := ⟨.vmem, 49, rfl⟩
abbrev cc3_stg6_0 : Ref sig .tc := ⟨.vmem, 50, rfl⟩
abbrev cc3_stg6_1 : Ref sig .tc := ⟨.vmem, 51, rfl⟩
abbrev cc4_stg0_0 : Ref sig .tc := ⟨.vmem, 52, rfl⟩
abbrev cc4_stg0_1 : Ref sig .tc := ⟨.vmem, 53, rfl⟩
abbrev cc4_stg1_0 : Ref sig .tc := ⟨.vmem, 54, rfl⟩
abbrev cc4_stg1_1 : Ref sig .tc := ⟨.vmem, 55, rfl⟩
abbrev cc4_stg2_0 : Ref sig .tc := ⟨.vmem, 56, rfl⟩
abbrev cc4_stg3_0 : Ref sig .tc := ⟨.vmem, 57, rfl⟩
abbrev cc4_stg4_0 : Ref sig .tc := ⟨.vmem, 58, rfl⟩
abbrev cc4_stg5_0 : Ref sig .tc := ⟨.vmem, 59, rfl⟩
abbrev cc4_stg6_0 : Ref sig .tc := ⟨.vmem, 60, rfl⟩
abbrev cc4_stg6_1 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem3_0 : DmaSem sig := 47
abbrev cc3_sem4_0 : DmaSem sig := 48
abbrev cc3_sem5_0 : DmaSem sig := 49
abbrev cc3_sem6_0 : DmaSem sig := 50
abbrev cc3_sem6_1 : DmaSem sig := 51
abbrev cc4_sem0_0 : DmaSem sig := 52
abbrev cc4_sem0_1 : DmaSem sig := 53
abbrev cc4_sem1_0 : DmaSem sig := 54
abbrev cc4_sem1_1 : DmaSem sig := 55
abbrev cc4_sem2_0 : DmaSem sig := 56
abbrev cc4_sem3_0 : DmaSem sig := 57
abbrev cc4_sem4_0 : DmaSem sig := 58
abbrev cc4_sem5_0 : DmaSem sig := 59
abbrev cc4_sem6_0 : DmaSem sig := 60
abbrev cc4_sem6_1 : DmaSem sig := 61

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2400x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2400x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2400x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2400x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2400x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x8x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x8x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x8x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x8x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![250], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2400x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2400x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2400x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x256_S2000x128_0_0 : ∀ a, (![0, 0] : Fin 2 → Nat) a + S2000x128.size a ≤ S2000x256.size a
  inb_S2000x256_S2000x128_0_128 : ∀ a, (![0, 128] : Fin 2 → Nat) a + S2000x128.size a ≤ S2000x256.size a
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S600000_S600000x256_0 : S600000.BroadcastsInDim S600000x256 (![0] : Fin 1 → Fin S600000x256.rank)
  bcast_S_S600000x256 : S_.BroadcastsInDim S600000x256 (![] : Fin 0 → Fin S600000x256.rank)
  inb_S2400x128_S2400x128_0_0 : ∀ a, (![0, 0] : Fin 2 → Nat) a + S2400x128.size a ≤ S2400x128.size a
  h_S2400x128 : 0 < S2400x128.numel
  inb_S2400x256_S2400x128_0_0 : ∀ a, (![0, 0] : Fin 2 → Nat) a + S2400x128.size a ≤ S2400x256.size a
  shapeCasts_S2400x128_S2400x128 : S2400x128.ShapeCasts S2400x128
  inb_S2400x256_S2400x128_0_128 : ∀ a, (![0, 128] : Fin 2 → Nat) a + S2400x128.size a ≤ S2400x256.size a
  broadcasts_S1x128_S2400x128 : S1x128.Broadcasts S2400x128
  packedbf16_S2400x128_S2400x128_0_0 : (Rect.unit (s := S2400x128) ![0, 0] S2400x128.size inb_S2400x128_S2400x128_0_0).PackedRows (EltTy.packing .bf16)
  reduces_S2400x128_S128 : S2400x128.Reduces [0] S128
  iota_S8x128_d0_w32 : S8x128.Iotas .tc 32 [0]
  shapeCasts_S1x128_S1x128 : S1x128.ShapeCasts S1x128
  broadcasts_S1x128_S8x128 : S1x128.Broadcasts S8x128
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  bcast_S_S100000x256 : S_.BroadcastsInDim S100000x256 (![] : Fin 0 → Fin S100000x256.rank)
  shapeCasts_S2000x128_S2000x128 : S2000x128.ShapeCasts S2000x128
  reduces_S2000x128_S128 : S2000x128.Reduces [0] S128
  reducesTo_S250x8x128_S128_d0_1 : S250x8x128.ReducesTo [0, 1] S128
  bcast_S_S128 : S_.BroadcastsInDim S128 (![] : Fin 0 → Fin S128.rank)
  reducesTo_S50x8x128_S128_d0_1 : S50x8x128.ReducesTo [0, 1] S128
  shapeCasts_S128_S128 : S128.ShapeCasts S128
  dot_S2000x128_S128x128_S2000x128_1_0_0_1_n_n_wf : DotDims.WF S2000x128 S128x128 S2000x128 [1] [0] [0] [1] [] []
  gather_S100000x128_S600000x1_S600000x128_1_0_n_n_0_1_1128_wf : GatherDims.WF S100000x128 S600000x1 S600000x128 [1] [0] [] [0] [] 1 ![1, 128]
  gather_S100000x256_S600000x1_S600000x256_1_0_n_n_0_1_1256_wf : GatherDims.WF S100000x256 S600000x1 S600000x256 [1] [0] [] [0] [] 1 ![1, 256]
  dot_S2400x128_S128x128_S2400x128_1_0_0_1_n_n_wf : DotDims.WF S2400x128 S128x128 S2400x128 [1] [0] [0] [1] [] []
  scatter_S100000x256_S600000x1_S600000x256_1_0_0_1_wf : ScatterDims.WF S100000x256 S600000x1 S600000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S100000x128.size a
  hwx0_9 : ∀ i : grid0.Coords, EltTy.bits .f32 = 32 ∨ (Rect.block (s := S100000x128) S2000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x256.size a ≤ S100000x256.size a
  hwx0_10 : ∀ i : grid0.Coords, EltTy.bits .f32 = 32 ∨ (Rect.block (s := S100000x256) S2000x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x128.size a ≤ S100000x128.size a
  hwx0_11 : ∀ i : grid0.Coords, EltTy.bits .f32 = 32 ∨ (Rect.block (s := S100000x128) S2000x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2400x128.size a ≤ S600000x128.size a
  hwx1_0 : ∀ i : grid1.Coords, EltTy.bits .f32 = 32 ∨ (Rect.block (s := S600000x128) S2400x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2400x128.size a ≤ S600000x128.size a
  hwx1_3 : ∀ i : grid1.Coords, EltTy.bits .f32 = 32 ∨ (Rect.block (s := S600000x128) S2400x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2400x256.size a ≤ S600000x256.size a
  hwx1_4 : ∀ i : grid1.Coords, EltTy.bits .f32 = 32 ∨ (Rect.block (s := S600000x256) S2400x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2400x128.size a ≤ S600000x128.size a
  hwx1_5 : ∀ i : grid1.Coords, EltTy.bits .bf16 = 32 ∨ (Rect.block (s := S600000x128) S2400x128.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2400x256.size a ≤ S600000x256.size a
  hwx1_6 : ∀ i : grid1.Coords, EltTy.bits .f32 = 32 ∨ (Rect.block (s := S600000x256) S2400x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x8x128.size a ≤ S250x8x128.size a
  hwx1_7 : ∀ i : grid1.Coords, EltTy.bits .f32 = 32 ∨ (Rect.block (s := S250x8x128) S1x8x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x8x128.size a ≤ S250x8x128.size a
  hwx1_8 : ∀ i : grid1.Coords, EltTy.bits .f32 = 32 ∨ (Rect.block (s := S250x8x128) S1x8x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x8x128.size a ≤ S50x8x128.size a
  hwx2_3 : ∀ i : grid2.Coords, EltTy.bits .f32 = 32 ∨ (Rect.block (s := S50x8x128) S1x8x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x8x128.size a ≤ S50x8x128.size a
  hwx2_4 : ∀ i : grid2.Coords, EltTy.bits .f32 = 32 ∨ (Rect.block (s := S50x8x128) S1x8x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2400x128.size a ≤ S600000x128.size a
  hwx3_0 : ∀ i : grid3.Coords, EltTy.bits .bf16 = 32 ∨ (Rect.block (s := S600000x128) S2400x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2400x128.size a ≤ S600000x128.size a
  hwx3_1 : ∀ i : grid3.Coords, EltTy.bits .f32 = 32 ∨ (Rect.block (s := S600000x128) S2400x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2400x128.size a ≤ S600000x128.size a
  hwx3_6 : ∀ i : grid3.Coords, EltTy.bits .f32 = 32 ∨ (Rect.block (s := S600000x128) S2400x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128.size a ≤ S128.size a
  hwx4_5 : ∀ i : grid4.Coords, EltTy.bits .f32 = 32 ∨ (Rect.block (s := S128) S128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S100000x128.size a
  hwx4_6 : ∀ i : grid4.Coords, EltTy.bits .f32 = 32 ∨ (Rect.block (s := S100000x128) S2000x128.size (cc4_transform_6 i) (hinb4_6 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def gather_S100000x256_S600000x1_S600000x256_1_0_n_n_0_1_1256 : GatherDims S100000x256 S600000x1 S600000x256 where
  offsetDims := [1]
  collapsedSliceDims := [0]
  operandBatchingDims := []
  startIndicesBatchingDims := []
  startIndexMap := [0]
  indexVectorDim := 1
  sliceSizes := ![1, 256]
  wf := gather_S100000x256_S600000x1_S600000x256_1_0_n_n_0_1_1256_wf
def dot_S2400x128_S128x128_S2400x128_1_0_0_1_n_n : DotDims S2400x128 S128x128 S2400x128 where
  lhsContracting := [1]
  rhsContracting := [0]
  lhsNonContracting := [0]
  rhsNonContracting := [1]
  lhsBatch := []
  rhsBatch := []
  wf := dot_S2400x128_S128x128_S2400x128_1_0_0_1_n_n_wf
def scatter_S100000x256_S600000x1_S600000x256_1_0_0_1 : ScatterDims S100000x256 S600000x1 S600000x256 where
  updateWindowDims := [1]
  insertedWindowDims := [0]
  scatterDimsToOperandDims := [0]
  indexVectorDim := 1
  wf := scatter_S100000x256_S600000x1_S600000x256_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg10) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg11) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg12) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg13) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_0) S2000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_1) S2000x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_2) S2000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg1) S2400x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S2400x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S2400x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3_0) S2400x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v3_1) S2400x256.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v3_2) S1x8x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v3_3) S1x8x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v6) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_2) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7_0) S2000x128.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7_1) S1x8x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v7_2) S1x8x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v3_0) S2400x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S2400x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v10) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v17) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg15) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v28) S2400x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v7_0) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg0) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v20) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v27) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg16) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg17) S128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v29) S2000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S100000x128 : Shape := ⟨2, ![100000, 128]⟩
abbrev S600000x128 : Shape := ⟨2, ![600000, 128]⟩
abbrev S600000 : Shape := ⟨1, ![600000]⟩
abbrev S128x128 : Shape := ⟨2, ![128, 128]⟩
abbrev S128 : Shape := ⟨1, ![128]⟩
abbrev S1x128 : Shape := ⟨2, ![1, 128]⟩
abbrev S_ : Shape := ⟨0, ![]⟩
abbrev S600000x1 : Shape := ⟨2, ![600000, 1]⟩

abbrev nBuf : Space → Nat
  | .hbm => 170
  | .vmem => 0
  | .smem => 0
  | _ => 0

abbrev hbmTy0_0 (i : Nat) : BufTy := match i % 128 with
  | 0 => ⟨S100000x128, .f32⟩
  | 1 => ⟨S600000x128, .f32⟩
  | 2 => ⟨S600000, .i32⟩
  | 3 => ⟨S600000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128, .f32⟩
  | 15 => ⟨S128, .f32⟩
  | 16 => ⟨S128, .f32⟩
  | 17 => ⟨S128, .f32⟩
  | 18 => ⟨S100000x128, .f32⟩
  | 19 => ⟨S1x128, .f32⟩
  | 20 => ⟨S100000x128, .f32⟩
  | 21 => ⟨S100000x128, .f32⟩
  | 22 => ⟨S100000x128, .f32⟩
  | 23 => ⟨S1x128, .f32⟩
  | 24 => ⟨S100000x128, .f32⟩
  | 25 => ⟨S100000x128, .f32⟩
  | 26 => ⟨S_, .i32⟩
  | 27 => ⟨S600000, .i32⟩
  | 28 => ⟨S600000, .i1⟩
  | 29 => ⟨S_, .i32⟩
  | 30 => ⟨S600000, .i32⟩
  | 31 => ⟨S600000, .i32⟩
  | 32 => ⟨S600000, .i32⟩
  | 33 => ⟨S600000x1, .i32⟩
  | 34 => ⟨S600000x128, .f32⟩
  | 35 => ⟨S_, .i32⟩
  | 36 => ⟨S600000, .i32⟩
  | 37 => ⟨S600000, .i1⟩
  | 38 => ⟨S_, .i32⟩
  | 39 => ⟨S600000, .i32⟩
  | 40 => ⟨S600000, .i32⟩
  | 41 => ⟨S600000, .i32⟩
  | 42 => ⟨S600000x1, .i32⟩
  | 43 => ⟨S600000x128, .f32⟩
  | 44 => ⟨S600000x128, .f32⟩
  | 45 => ⟨S600000x128, .f32⟩
  | 46 => ⟨S1x128, .f32⟩
  | 47 => ⟨S600000x128, .f32⟩
  | 48 => ⟨S600000x128, .f32⟩
  | 49 => ⟨S600000x128, .f32⟩
  | 50 => ⟨S600000x128, .f32⟩
  | 51 => ⟨S600000x128, .f32⟩
  | 52 => ⟨S_, .f32⟩
  | 53 => ⟨S600000x128, .f32⟩
  | 54 => ⟨S600000x128, .f32⟩
  | 55 => ⟨S_, .f32⟩
  | 56 => ⟨S600000x128, .f32⟩
  | 57 => ⟨S600000x128, .f32⟩
  | 58 => ⟨S600000x128, .f32⟩
  | 59 => ⟨S100000x128, .f32⟩
  | 60 => ⟨S1x128, .f32⟩
  | 61 => ⟨S100000x128, .f32⟩
  | 62 => ⟨S100000x128, .f32⟩
  | 63 => ⟨S_, .i32⟩
  | 64 => ⟨S600000, .i32⟩
  | 65 => ⟨S600000, .i1⟩
  | 66 => ⟨S_, .i32⟩
  | 67 => ⟨S600000, .i32⟩
  | 68 => ⟨S600000, .i32⟩
  | 69 => ⟨S600000, .i32⟩
  | 70 => ⟨S600000x1, .i32⟩
  | 71 => ⟨S600000x128, .f32⟩
  | 72 => ⟨S600000x128, .f32⟩
  | 73 => ⟨S_, .f32⟩
  | 74 => ⟨S100000x128, .f32⟩
  | 75 => ⟨S600000x1, .i32⟩
  | 76 => ⟨S100000x128, .f32⟩
  | 77 => ⟨S_, .f32⟩
  | 78 => ⟨S100000x128, .f32⟩
  | 79 => ⟨S600000x1, .i32⟩
  | 80 => ⟨S100000x128, .f32⟩
  | 81 => ⟨S_, .f32⟩
  | 82 => ⟨S100000x128, .f32⟩
  | 83 => ⟨S100000x128, .f32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S100000x128, .f32⟩
  | 90 => ⟨S_, .f32⟩
  | 91 => ⟨S128, .f32⟩
  | 92 => ⟨S_, .f32⟩
  | 93 => ⟨S128, .f32⟩
  | 94 => ⟨S128, .f32⟩
  | 95 => ⟨S1x128, .f32⟩
  | 96 => ⟨S600000x128, .f32⟩
  | 97 => ⟨S600000x128, .f32⟩
  | 98 => ⟨S600000x128, .f32⟩
  | 99 => ⟨S_, .f32⟩
  | 100 => ⟨S128, .f32⟩
  | 101 => ⟨S_, .f32⟩
  | 102 => ⟨S128, .f32⟩
  | 103 => ⟨S128, .f32⟩
  | 104 => ⟨S1x128, .f32⟩
  | 105 => ⟨S600000x128, .f32⟩
  | 106 => ⟨S600000x128, .f32⟩
  | 107 => ⟨S_, .f32⟩
  | 108 => ⟨S128, .f32⟩
  | 109 => ⟨S128, .f32⟩
  | 110 => ⟨S128, .f32⟩
  | 111 => ⟨S1x128, .f32⟩
  | 112 => ⟨S600000x128, .f32⟩
  | 113 => ⟨S600000x128, .f32⟩
  | 114 => ⟨S1x128, .f32⟩
  | 115 => ⟨S600000x128, .f32⟩
  | 116 => ⟨S600000x128, .f32⟩
  | 117 => ⟨S1x128, .f32⟩
  | 118 => ⟨S600000x128, .f32⟩
  | 119 => ⟨S600000x128, .f32⟩
  | 120 => ⟨S600000x128, .f32⟩
  | 121 => ⟨S600000x128, .f32⟩
  | 122 => ⟨S_, .f32⟩
  | 123 => ⟨S600000x128, .f32⟩
  | 124 => ⟨S600000x128, .f32⟩
  | 125 => ⟨S_, .f32⟩
  | 126 => ⟨S600000x128, .f32⟩
  | 127 => ⟨S600000x128, .f32⟩
  | _ => ⟨S100000x128, .f32⟩

abbrev hbmTy0_1 (i : Nat) : BufTy := match i % 128 with
  | 0 => ⟨S600000x128, .f32⟩
  | 1 => ⟨S600000x128, .f32⟩
  | 2 => ⟨S_, .f32⟩
  | 3 => ⟨S128, .f32⟩
  | 4 => ⟨S_, .f32⟩
  | 5 => ⟨S128, .f32⟩
  | 6 => ⟨S128, .f32⟩
  | 7 => ⟨S1x128, .f32⟩
  | 8 => ⟨S100000x128, .f32⟩
  | 9 => ⟨S100000x128, .f32⟩
  | 10 => ⟨S100000x128, .f32⟩
  | 11 => ⟨S_, .f32⟩
  | 12 => ⟨S128, .f32⟩
  | 13 => ⟨S_, .f32⟩
  | 14 => ⟨S128, .f32⟩
  | 15 => ⟨S128, .f32⟩
  | 16 => ⟨S1x128, .f32⟩
  | 17 => ⟨S100000x128, .f32⟩
  | 18 => ⟨S100000x128, .f32⟩
  | 19 => ⟨S_, .f32⟩
  | 20 => ⟨S128, .f32⟩
  | 21 => ⟨S128, .f32⟩
  | 22 => ⟨S128, .f32⟩
  | 23 => ⟨S1x128, .f32⟩
  | 24 => ⟨S100000x128, .f32⟩
  | 25 => ⟨S100000x128, .f32⟩
  | 26 => ⟨S1x128, .f32⟩
  | 27 => ⟨S100000x128, .f32⟩
  | 28 => ⟨S100000x128, .f32⟩
  | 29 => ⟨S1x128, .f32⟩
  | 30 => ⟨S100000x128, .f32⟩
  | 31 => ⟨S100000x128, .f32⟩
  | 32 => ⟨S100000x128, .f32⟩
  | 33 => ⟨S100000x128, .f32⟩
  | 34 => ⟨S_, .f32⟩
  | 35 => ⟨S100000x128, .f32⟩
  | 36 => ⟨S100000x128, .f32⟩
  | 37 => ⟨S_, .f32⟩
  | 38 => ⟨S100000x128, .f32⟩
  | 39 => ⟨S100000x128, .f32⟩
  | 40 => ⟨S100000x128, .f32⟩
  | 41 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c : Ref sig .tc := ⟨.hbm, 26, rfl⟩
abbrev main_v8 : Ref sig .tc := ⟨.hbm, 27, rfl⟩
abbrev main_v9 : Ref sig .tc := ⟨.hbm, 28, rfl⟩
abbrev main_c_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c_1 : Ref sig .tc := ⟨.hbm, 35, rfl⟩
abbrev main_v15 : Ref sig .tc := ⟨.hbm, 36, rfl⟩
abbrev main_v16 : Ref sig .tc := ⟨.hbm, 37, rfl⟩
abbrev main_c_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c_3 : Ref sig .tc := ⟨.hbm, 63, rfl⟩
abbrev main_v33 : Ref sig .tc := ⟨.hbm, 64, rfl⟩
abbrev main_v34 : Ref sig .tc := ⟨.hbm, 65, rfl⟩
abbrev main_c_4 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_5 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_6 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_7 : Ref sig .tc := ⟨.hbm, 90, rfl⟩
abbrev main_v55 : Ref sig .tc := ⟨.hbm, 91, rfl⟩
abbrev main_cst_8 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_9 : Ref sig .tc := ⟨.hbm, 99, rfl⟩
abbrev main_v62 : Ref sig .tc := ⟨.hbm, 100, rfl⟩
abbrev main_cst_10 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_11 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_call1_v0 : Ref sig .tc := ⟨.hbm, 120, rfl⟩
abbrev main_call1_v1 : Ref sig .tc := ⟨.hbm, 121, rfl⟩
abbrev main_call1_cst : Ref sig .tc := ⟨.hbm, 122, rfl⟩
abbrev main_call1_v2 : Ref sig .tc := ⟨.hbm, 123, rfl⟩
abbrev main_call1_v3 : Ref sig .tc := ⟨.hbm, 124, rfl⟩
abbrev main_call1_cst_0 : Ref sig .tc := ⟨.hbm, 125, rfl⟩
abbrev main_call1_v4 : Ref sig .tc := ⟨.hbm, 126, rfl⟩
abbrev main_call1_v5 : Ref sig .tc := ⟨.hbm, 127, rfl⟩
abbrev main_v80 : Ref sig .tc := ⟨.hbm, 128, rfl⟩
abbrev main_v81 : Ref sig .tc := ⟨.hbm, 129, rfl⟩
abbrev main_cst_12 : Ref sig .tc := ⟨.hbm, 130, rfl⟩
abbrev main_v82 : Ref sig .tc := ⟨.hbm, 131, rfl⟩
abbrev main_cst_13 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_cst_14 : Ref sig .tc := ⟨.hbm, 139, rfl⟩
abbrev main_v89 : Ref sig .tc := ⟨.hbm, 140, rfl⟩
abbrev main_cst_15 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_cst_16 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_call2_v0 : Ref sig .tc := ⟨.hbm, 160, rfl⟩
abbrev main_call2_v1 : Ref sig .tc := ⟨.hbm, 161, rfl⟩
abbrev main_call2_cst : Ref sig .tc := ⟨.hbm, 162, rfl⟩
abbrev main_call2_v2 : Ref sig .tc := ⟨.hbm, 163, rfl⟩
abbrev main_call2_v3 : Ref sig .tc := ⟨.hbm, 164, rfl⟩
abbrev main_call2_cst_0 : Ref sig .tc := ⟨.hbm, 165, rfl⟩
abbrev main_call2_v4 : Ref sig .tc := ⟨.hbm, 166, rfl⟩
abbrev main_call2_v5 : Ref sig .tc := ⟨.hbm, 167, rfl⟩
abbrev main_v107 : Ref sig .tc := ⟨.hbm, 168, rfl⟩
abbrev main_v108 : Ref sig .tc := ⟨.hbm, 169, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S_S100000x128 : S_.BroadcastsInDim S100000x128 (![] : Fin 0 → Fin S100000x128.rank)
  reducesTo_S600000x128_S128_d0 : S600000x128.ReducesTo [0] S128
  h_S_ : 0 < S_.numel
  bcast_S_S128 : S_.BroadcastsInDim S128 (![] : Fin 0 → Fin S128.rank)
  reducesTo_S100000x128_S128_d0 : S100000x128.ReducesTo [0] S128
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  dot_S600000x128_S128x128_S600000x128_1_0_0_1_n_n_wf : DotDims.WF S600000x128 S128x128 S600000x128 [1] [0] [0] [1] [] []
  scatter_S100000x128_S600000x1_S600000x128_1_0_0_1_wf : ScatterDims.WF S100000x128 S600000x1 S600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

class Facts : Prop extends Facts₀ where

variable [Facts]
-- ==== Proof.Spec.lean ====
/-
  The mathematics of the two programs, over the extended reals, index by index.

  A graph layer over N = 100000 nodes and E = 600000 edges with F = 128 features: four linear maps of the node
  features, an edge update eu = edge_feats·W_ee + b_ee + (e_src at the edge's source + e_dst at its destination), the gate
  silu(eu), per destination node the sums num = Σ n_dst·gate and den = Σ gate over its incoming edges, the node update
  nfu = n_ns + num / (den + ε₆), and for each of eu and nfu a batch normalisation over the rows followed by silu and the
  residual.  Everything here is a function of coordinates typed by the literal extents.
-/
import Idealize.ShloMosaic.PureOps.Ideal
import Idealize.ShloMosaic.Lib.ValueIdx

noncomputable section

open scoped BigOperators

namespace Cert.Spec

open Idealize.ShloMosaic Idealize.ShloMosaic.ValueIdx

/-! ## Shapes and array types -/

abbrev SNF : Shape := ⟨2, ![100000, 128]⟩
abbrev SN2F : Shape := ⟨2, ![100000, 256]⟩
abbrev SEF : Shape := ⟨2, ![600000, 128]⟩
abbrev SE2F : Shape := ⟨2, ![600000, 256]⟩
abbrev SE : Shape := ⟨1, ![600000]⟩
abbrev SFF : Shape := ⟨2, ![128, 128]⟩
abbrev SF : Shape := ⟨1, ![128]⟩
abbrev SPE : Shape := ⟨3, ![250, 8, 128]⟩
abbrev SPN : Shape := ⟨3, ![50, 8, 128]⟩

/-- An array of extended reals over a shape. -/
abbrev Arr (s : Shape) : Type := s.Idx → EReal
/-- An array of 32-bit integers over a shape. -/
abbrev IArr (s : Shape) : Type := s.Idx → BitVec 32

/-- An extended real that is a real number. -/
def IsReal (x : EReal) : Prop := ∃ r : ℝ, x = (r : EReal)

/-- Every entry of an array is a real number. -/
def AllReal {s : Shape} (A : Arr s) : Prop := ∀ i, IsReal (A i)

/-! ## Scalars -/

/-- The node update's ε: the f32 nearest 1e-6. -/
def eps6 : EReal := Ideal.ofBits .f32 0x358637BD#32
/-- The batch normalisation's ε: the f32 nearest 1e-5. -/
def eps5 : EReal := Ideal.ofBits .f32 0x3727C5AC#32
/-- The number of edges, 600000, as the programs' f32 literal. -/
def cntE : EReal := Ideal.ofBits .f32 0x49127C00#32
/-- The number of nodes, 100000, as the programs' f32 literal. -/
def cntN : EReal := Ideal.ofBits .f32 0x47C35000#32

/-- silu x = x · 1/(1 + e^{-x}). -/
def silu (x : EReal) : EReal := x * Ideal.div 1 (1 + Ideal.exp (-x))

/-! ## Indices -/

/-- The node an edge's index word names: read signed, clamped into the node axis. For a word in range it is the word. -/
def node (ix : IArr SE) (e : Fin 600000) : Fin 100000 := ⟨min (ix (ix1 e)).toInt.toNat 99999, by omega⟩

/-- Every index word is a node index. -/
def InRange (ix : IArr SE) : Prop := ∀ e : Fin 600000, 0 ≤ (ix (ix1 e)).toInt ∧ (ix (ix1 e)).toInt < 100000

/-- Column q of the left half of a 256-wide row. -/
def colL (q : Fin 128) : Fin 256 := ⟨q.val, by omega⟩
/-- Column q of the right half of a 256-wide row. -/
def colR (q : Fin 128) : Fin 256 := ⟨128 + q.val, by omega⟩
/-- Row t of block b of 2400 edge rows. -/
def rowE (b : Fin 250) (t : Fin 2400) : Fin 600000 := ⟨2400 * b.val + t.val, by omega⟩
/-- Row t of block b of 2000 node rows. -/
def rowN (b : Fin 50) (t : Fin 2000) : Fin 100000 := ⟨2000 * b.val + t.val, by omega⟩

/-! ## The linear maps -/

/-- (X·W + b) at node row p, feature q. -/
def linN (X : Arr SNF) (W : Arr SFF) (b : Arr SF) (p : Fin 100000) (q : Fin 128) : EReal :=
  (∑ k : Fin 128, X (ix2 p k) * W (ix2 k q)) + b (ix1 q)

/-- (X·W + b) at edge row e, feature q. -/
def linE (X : Arr SEF) (W : Arr SFF) (b : Arr SF) (e : Fin 600000) (q : Fin 128) : EReal :=
  (∑ k : Fin 128, X (ix2 e k) * W (ix2 k q)) + b (ix1 q)

/-! ## The edge update and the node update, from the arguments -/

section FromArguments

variable (X : Arr SNF) (EF : Arr SEF) (src dst : IArr SE)
  (Wes : Arr SFF) (bes : Arr SF) (Wed : Arr SFF) (bed : Arr SF) (Wee : Arr SFF) (bee : Arr SF)
  (Wnd : Arr SFF) (bnd : Arr SF) (Wns : Arr SFF) (bns : Arr SF)

/-- The edge update eu at edge e, feature q. -/
def eu (e : Fin 600000) (q : Fin 128) : EReal :=
  linE EF Wee bee e q + (linN X Wes bes (node src e) q + linN X Wed bed (node dst e) q)

/-- The gate silu(eu). -/
def gate (e : Fin 600000) (q : Fin 128) : EReal := silu (eu X EF src dst Wes bes Wed bed Wee bee e q)

/-- num at node p: the sum over the edges into p of n_dst(p)·gate. -/
def num (p : Fin 100000) (q : Fin 128) : EReal :=
  ∑ e ∈ Finset.univ.filter (fun e : Fin 600000 => node dst e = p),
    linN X Wnd bnd (node dst e) q * gate X EF src dst Wes bes Wed bed Wee bee e q

/-- den at node p: the sum over the edges into p of the gate. -/
def den (p : Fin 100000) (q : Fin 128) : EReal :=
  ∑ e ∈ Finset.univ.filter (fun e : Fin 600000 => node dst e = p), gate X EF src dst Wes bes Wed bed Wee bee e q

/-- The node update nfu = n_ns + num / (den + ε₆). -/
def nfu (p : Fin 100000) (q : Fin 128) : EReal :=
  linN X Wns bns p q
    + Ideal.div (num X EF src dst Wes bes Wed bed Wee bee Wnd bnd p q) (den X EF src dst Wes bes Wed bed Wee bee p q + eps6)

end FromArguments

/-! ## Batch statistics and the normalisation -/

/-- The mean of a column: its sum over the rows, divided by the count literal. -/
def meanOf {ι : Type} [Fintype ι] (cnt : EReal) (x : ι → EReal) : EReal := Ideal.div (∑ r, x r) cnt

/-- The variance as the mean of the squared deviations. -/
def varDev {ι : Type} [Fintype ι] (cnt : EReal) (x : ι → EReal) : EReal :=
  Ideal.div (∑ r, (x r - meanOf cnt x) * (x r - meanOf cnt x)) cnt

/-- The variance as the mean of the squares minus the squared mean, cut off at zero. -/
def varSq {ι : Type} [Fintype ι] (cnt : EReal) (x : ι → EReal) : EReal :=
  max (Ideal.div (∑ r, x r * x r) cnt - meanOf cnt x * meanOf cnt x) 0

/-- silu((x - mean)·rsqrt(var + ε₅)·g + be) + resid. -/
def bn (x mean var g be resid : EReal) : EReal :=
  silu ((x - mean) * Ideal.rsqrt (var + eps5) * g + be) + resid

/-- A column's partial sums over blocks of rows, laid out [block, 8, feature] with the sum in row 0 and zeros below:
    its total over blocks and the 8 rows is the column's sum. -/
def partialE (x : Fin 600000 → Fin 128 → EReal) (b : Fin 250) (r : Fin 8) (q : Fin 128) : EReal :=
  if r.val = 0 then ∑ t : Fin 2400, x (rowE b t) q else 0

def partialN (x : Fin 100000 → Fin 128 → EReal) (b : Fin 50) (r : Fin 8) (q : Fin 128) : EReal :=
  if r.val = 0 then ∑ t : Fin 2000, x (rowN b t) q else 0

end Cert.Spec

end
-- ==== Proof.RegionSpec.lean ====
/-
  What each kernel region leaves in its output arrays, as whole-array functions of the arrays the region reads.
  Region 0: the four linear maps of the node features (two of them side by side in one 256-wide array).
  Region 1: the edge update from the gathered rows, the pair (n_dst·gate | gate), and the per-block partial sums of
  eu and eu².  Region 2: the node update from the pair (num | den), and its partial sums.  Regions 3 and 4: the
  normalisation, silu and residual, rowwise.
-/
import proofs.«409458_j13194139533628_3_alg».proof.Proof.Spec

noncomputable section

open scoped BigOperators

namespace Cert.RegionSpec

open Idealize.ShloMosaic Idealize.ShloMosaic.ValueIdx Cert.Spec

/-! ## Region 0 -/

/-- X·W + b over the node rows. -/
def lin (X : Arr SNF) (W : Arr SFF) (b : Arr SF) : Arr SNF := fun i => linN X W b (i 0) (i 1)

/-- Two linear maps side by side: columns 0..127 the first, 128..255 the second. -/
def lin2 (X : Arr SNF) (W₁ : Arr SFF) (b₁ : Arr SF) (W₂ : Arr SFF) (b₂ : Arr SF) : Arr SN2F := fun i =>
  if h : (i 1).val < 128 then linN X W₁ b₁ (i 0) ⟨(i 1).val, h⟩
  else linN X W₂ b₂ (i 0) ⟨(i 1).val - 128, by have := idx2_lt1 i; omega⟩

/-! ## Region 1 -/

/-- eu from the gathered rows: G₁ the source rows of e_src, G₂ the destination rows of (e_dst | n_dst). -/
def euG (EF : Arr SEF) (Wee : Arr SFF) (bee : Arr SF) (G₁ : Arr SEF) (G₂ : Arr SE2F) (e : Fin 600000) (q : Fin 128) : EReal :=
  linE EF Wee bee e q + (G₁ (ix2 e q) + G₂ (ix2 e (colL q)))

def euArr (EF : Arr SEF) (Wee : Arr SFF) (bee : Arr SF) (G₁ : Arr SEF) (G₂ : Arr SE2F) : Arr SEF :=
  fun i => euG EF Wee bee G₁ G₂ (i 0) (i 1)

/-- (n_dst·gate | gate): columns 0..127 the gathered n_dst times silu(eu), 128..255 silu(eu). -/
def gateNum (EF : Arr SEF) (Wee : Arr SFF) (bee : Arr SF) (G₁ : Arr SEF) (G₂ : Arr SE2F) : Arr SE2F := fun i =>
  if h : (i 1).val < 128 then G₂ (ix2 (i 0) (colR ⟨(i 1).val, h⟩)) * silu (euG EF Wee bee G₁ G₂ (i 0) ⟨(i 1).val, h⟩)
  else silu (euG EF Wee bee G₁ G₂ (i 0) ⟨(i 1).val - 128, by have := idx2_lt1 i; omega⟩)

/-- Per-block partial sums of eu. -/
def psumE (EF : Arr SEF) (Wee : Arr SFF) (bee : Arr SF) (G₁ : Arr SEF) (G₂ : Arr SE2F) : Arr SPE :=
  fun i => partialE (euG EF Wee bee G₁ G₂) (i 0) (i 1) (i 2)

/-- Per-block partial sums of eu². -/
def psumsqE (EF : Arr SEF) (Wee : Arr SFF) (bee : Arr SF) (G₁ : Arr SEF) (G₂ : Arr SE2F) : Arr SPE :=
  fun i => partialE (fun e q => euG EF Wee bee G₁ G₂ e q * euG EF Wee bee G₁ G₂ e q) (i 0) (i 1) (i 2)

/-! ## Region 2 -/

/-- nfu from the pair C = (num | den) and n_ns. -/
def nfuC (C : Arr SN2F) (NNS : Arr SNF) (p : Fin 100000) (q : Fin 128) : EReal :=
  NNS (ix2 p q) + Ideal.div (C (ix2 p (colL q))) (C (ix2 p (colR q)) + eps6)

def nfuArr (C : Arr SN2F) (NNS : Arr SNF) : Arr SNF := fun i => nfuC C NNS (i 0) (i 1)

def psumN (C : Arr SN2F) (NNS : Arr SNF) : Arr SPN := fun i => partialN (nfuC C NNS) (i 0) (i 1) (i 2)

def psumsqN (C : Arr SN2F) (NNS : Arr SNF) : Arr SPN :=
  fun i => partialN (fun p q => nfuC C NNS p q * nfuC C NNS p q) (i 0) (i 1) (i 2)

/-! ## Regions 3 and 4 -/

/-- The normalisation over the edge rows. -/
def bnE (Xb RES : Arr SEF) (MEAN VAR G BE : Arr SF) : Arr SEF :=
  fun i => bn (Xb i) (MEAN (ix1 (i 1))) (VAR (ix1 (i 1))) (G (ix1 (i 1))) (BE (ix1 (i 1))) (RES i)

/-- The normalisation over the node rows. -/
def bnN (Xb RES : Arr SNF) (MEAN VAR G BE : Arr SF) : Arr SNF :=
  fun i => bn (Xb i) (MEAN (ix1 (i 1))) (VAR (ix1 (i 1))) (G (ix1 (i 1))) (BE (ix1 (i 1))) (RES i)

end Cert.RegionSpec

end
-- ==== Proof.KReg0.lean ====
/-
  Region 0 (the node projections): after the region each output array is a linear map X·W + b of the node features,
  whole array, index by index; the 256-wide output holds two of them side by side.
-/
import proofs.«409458_j13194139533628_3_alg».proof.Proof.Gen.KernelIdeal.Frame
import proofs.«409458_j13194139533628_3_alg».proof.Proof.RegionSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Reg0

open Idealize.ShloMosaic Idealize.ShloMosaic.TcCoe Idealize.SL.Sem Cert.KernelIdeal Cert.KernelIdeal.Gen Cert.Spec
open Idealize.ShloMosaic.ValueIdx
open scoped BigOperators

/-! ## The product's operand indices, axis by axis -/

theorem lhs_dot_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_dot_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_dot_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_dot_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product into a zero accumulator, read at (p, q): the sum over k of row p of the left times column q of the right. -/
theorem mm_apply (a : FVec Ideal S2000x128 .bf16) (b : FVec Ideal S128x128 .bf16) (p : Fin 2000) (q : Fin 128) :
    matmul dot_S2000x128_S128x128_S2000x128_1_0_0_1_n_n none a b (constant (F := Ideal) S2000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- The bias row spread over the block, read at (p, q): the bias at q. -/
theorem bias_apply (b : Vec Ideal S128 .f32) (p : Fin 2000) (q : Fin 128) :
    broadcastTo S2000x128 (shapeCast S1x128 b shapeCasts_S128_S1x128) broadcasts_S1x128_S2000x128 (ix2 p q) = b (ix1 q) := by
  rw [broadcastTo_1b_ab_apply, shapeCast_a_1a_apply]

/-- The first projection's payload at (p, q). -/
theorem pay3_apply (x0 : Vec Ideal S2000x128 .f32) (x1 : Vec Ideal S128x128 .f32) (x2 : Vec Ideal S128 .f32) (p : Fin 2000) (q : Fin 128) :
    k0_pay3 (F := Ideal) x0 x1 x2 (ix2 p q) = (∑ k : Fin 128, x0 (ix2 p k) * x1 (ix2 k q)) + x2 (ix1 q) := by
  unfold k0_pay3 k0_pay2
  rw [addf_apply, mm_apply, bias_apply]
  rfl

/-! ## Blocks of the arrays -/

-- the buffer contents on entry to the region
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the node rows move with the point, the weights and biases stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_9.index t (0 : Fin 2) = t.val ∧ win0_9.index t (1 : Fin 2) = 0 :=
  (by decide +kernel : ∀ t : Fin grid0.N, _)

theorem N0 : cfg0.N = 50 := by decide +kernel

/-- The node-feature block at point t is rows 2000·t … 2000·t + 1999. -/
theorem iblk0_0_apply (c : Dev nD) (t : Fin cfg0.N) (x : S2000x128.Idx) (k : S100000x128.Idx)
    (hk0 : (k 0).val = 2000 * t.val + (x 0).val) (hk1 : (k 1).val = (x 1).val) :
    (iblk0 (F := Ideal) V c 0 t : Vec Ideal S2000x128 .f32) x = (V c main_arg0 : S100000x128.Idx → EReal) k := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 2000 + 1 * (x 0).val = (k 0).val; rw [e0, hk0]; omega
  | ⟨1, _⟩ => show win0_0.index t 1 * 128 + 1 * (x 1).val = (k 1).val; rw [e1, hk1]; omega

/-- A weight block is the whole weight array. -/
theorem iblk0_1_apply (c : Dev nD) (t : Fin cfg0.N) (x : S128x128.Idx) :
    (iblk0 (F := Ideal) V c 1 t : Vec Ideal S128x128 .f32) x = (V c main_arg4 : S128x128.Idx → EReal) x := by
  obtain ⟨-, -, e0, e1, -⟩ := idx_facts t
  unfold iblk0
  rw [View.read_apply]
  show V c main_arg4 _ = V c main_arg4 _
  congr 1
  funext a
  apply Fin.ext
  match a with
  | ⟨0, _⟩ => show win0_1.index t 0 * 128 + 1 * (x 0).val = (x 0).val; rw [e0]; omega
  | ⟨1, _⟩ => show win0_1.index t 1 * 128 + 1 * (x 1).val = (x 1).val; rw [e1]; omega

/-- A bias block is the whole bias array. -/
theorem iblk0_2_apply (c : Dev nD) (t : Fin cfg0.N) (x : S128.Idx) :
    (iblk0 (F := Ideal) V c 2 t : Vec Ideal S128 .f32) x = (V c main_arg5 : S128.Idx → EReal) x := by
  obtain ⟨-, -, -, -, e0, -⟩ := idx_facts t
  unfold iblk0
  rw [View.read_apply]
  show V c main_arg5 _ = V c main_arg5 _
  congr 1
  funext a
  apply Fin.ext
  match a with
  | ⟨0, _⟩ => show win0_2.index t 0 * 128 + 1 * (x 0).val = (x 0).val; rw [e0]; omega

/-- The payload of a block whose rows are rows of X, with the whole W and b, is X·W + b at the row the block's row names. -/
theorem pay3_lin (X : Arr SNF) (W : Arr SFF) (b : Arr SF) (x0 : Vec Ideal S2000x128 .f32) (x1 : Vec Ideal S128x128 .f32) (x2 : Vec Ideal S128 .f32)
    (j : S2000x128.Idx) (i : S100000x128.Idx)
    (h0 : ∀ k : Fin 128, x0 (ix2 (j 0) k) = X (ix2 (i 0) k)) (h1 : ∀ y, x1 y = W y) (h2 : ∀ y, x2 y = b y) (hi : (i 1).val = (j 1).val) :
    k0_pay3 (F := Ideal) x0 x1 x2 j = RegionSpec.lin X W b i := by
  obtain ⟨p, q, rfl⟩ : ∃ (p : Fin 2000) (q : Fin 128), j = ix2 p q := ⟨j 0, j 1, eq_ix2 j⟩
  have e1 : (i 1 : Fin 128) = q := Fin.ext hi
  rw [pay3_apply]
  unfold RegionSpec.lin linN
  rw [e1]
  exact congrArg₂ (· + ·) (Finset.sum_congr rfl fun k _ => congrArg₂ (· * ·) (h0 k) (h1 _)) (h2 _)

/-- What point t writes back to the first projection's array is block t of X·W_es + b_es. -/
theorem flushed9_eq (c : Dev nD) (t : Fin cfg0.N) :
    (dat0 (F := Ideal) V c).flushed 9 t = ((cfg0.win 9).blk t).view.read (Elt Ideal) (RegionSpec.lin (V c main_arg0) (V c main_arg4) (V c main_arg5)) := by
  show (cfg0.win 9).cut (grid0.coords t) ((dat0 V c).after 9 t) = _
  rw [after0_9]
  unfold out0_9
  rw [View.canon_unit_zero hz2]
  simp only [View.ld_unit_zero (S := S2000x128) hz2, View.ld_unit_zero (S := S128x128) hz2, View.ld_unit_zero (S := S128) hz1]
  obtain ⟨-, -, -, -, -, e0, e1⟩ := idx_facts t
  funext j
  refine pay3_lin (V c main_arg0) (V c main_arg4) (V c main_arg5) _ _ _ j _ (fun k => ?_) (fun y => iblk0_1_apply V c t y) (fun y => iblk0_2_apply V c t y) ?_
  · refine iblk0_0_apply V c t _ _ ?_ rfl
    show win0_9.index t 0 * 2000 + 1 * (j 0).val = 2000 * t.val + (j 0).val
    rw [e0]; omega
  · show win0_9.index t 1 * 128 + 1 * (j 1).val = (j 1).val
    rw [e1]; omega

/-- An index of the first projection's array is in point t's block iff each coordinate is in the block's range. -/
theorem mem_blk9 (t : Fin cfg0.N) (i : S100000x128.Idx) :
    i ∈ ((cfg0.win 9).blk t).view.set ↔ ∀ a : Fin 2, win0_9.index t a * S2000x128.size a ≤ (i a).val ∧ (i a).val < win0_9.index t a * S2000x128.size a + S2000x128.size a := by
  show i ∈ ((View.whole main_v0_0).slice (win0_9.rect t)).set ↔ _
  rw [View.set_slice_whole, Rect.mem_set_unit]
  exact Iff.rfl

/-- Every index lies in the block of the point its row names: row r is in block r / 2000. -/
theorem cover9 (i : S100000x128.Idx) : ∃ t : Fin cfg0.N, (cfg0.win 9).flush t = true ∧ i ∈ ((cfg0.win 9).blk t).view.set := by
  have hi0 : (i 0).val < 100000 := idx2_lt0 i
  have hi1 : (i 1).val < 128 := idx2_lt1 i
  obtain ⟨t, ht⟩ : ∃ t : Fin cfg0.N, t.val = (i 0).val / 2000 := ⟨⟨(i 0).val / 2000, by rw [N0]; omega⟩, rfl⟩
  obtain ⟨-, -, -, -, -, e0, e1⟩ := idx_facts t
  refine ⟨t, flush0_9 t, ?_⟩
  rw [mem_blk9]
  intro a
  match a with
  | ⟨0, _⟩ => show win0_9.index t 0 * 2000 ≤ (i 0).val ∧ (i 0).val < win0_9.index t 0 * 2000 + 2000; rw [e0, ht]; omega
  | ⟨1, _⟩ => show win0_9.index t 1 * 128 ≤ (i 1).val ∧ (i 1).val < win0_9.index t 1 * 128 + 128; rw [e1]; omega

theorem final9 (c : Dev nD) : (dat0 (F := Ideal) V c).arrAt 9 cfg0.N = RegionSpec.lin (V c main_arg0) (V c main_arg4) (V c main_arg5) :=
  (dat0 V c).arrAt_eq_of_cover 9 (RegionSpec.lin (V c main_arg0) (V c main_arg4) (V c main_arg5)) (fun t _ => flushed9_eq V c t) cover9

/-! ## The second and third projections side by side (window 10) -/

theorem idx_facts10 : ∀ t : Fin cfg0.N,
    win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_10.index t (0 : Fin 2) = t.val ∧ win0_10.index t (1 : Fin 2) = 0 :=
  (by decide +kernel : ∀ t : Fin grid0.N, _)

/-- A weight block is the whole weight array. -/
theorem iblk0_3_apply (c : Dev nD) (t : Fin cfg0.N) (x : S128x128.Idx) :
    (iblk0 (F := Ideal) V c 3 t : Vec Ideal S128x128 .f32) x = (V c main_arg6 : S128x128.Idx → EReal) x := by
  obtain ⟨e0, e1, -⟩ := idx_facts10 t
  unfold iblk0
  rw [View.read_apply]
  show V c main_arg6 _ = V c main_arg6 _
  congr 1
  funext a
  apply Fin.ext
  match a with
  | ⟨0, _⟩ => show win0_3.index t 0 * 128 + 1 * (x 0).val = (x 0).val; rw [e0]; omega
  | ⟨1, _⟩ => show win0_3.index t 1 * 128 + 1 * (x 1).val = (x 1).val; rw [e1]; omega

/-- A bias block is the whole bias array. -/
theorem iblk0_4_apply (c : Dev nD) (t : Fin cfg0.N) (x : S128.Idx) :
    (iblk0 (F := Ideal) V c 4 t : Vec Ideal S128 .f32) x = (V c main_arg7 : S128.Idx → EReal) x := by
  obtain ⟨-, -, e0, -⟩ := idx_facts10 t
  unfold iblk0
  rw [View.read_apply]
  show V c main_arg7 _ = V c main_arg7 _
  congr 1
  funext a
  apply Fin.ext
  match a with
  | ⟨0, _⟩ => show win0_4.index t 0 * 128 + 1 * (x 0).val = (x 0).val; rw [e0]; omega

/-- A weight block is the whole weight array. -/
theorem iblk0_5_apply (c : Dev nD) (t : Fin cfg0.N) (x : S128x128.Idx) :
    (iblk0 (F := Ideal) V c 5 t : Vec Ideal S128x128 .f32) x = (V c main_arg10 : S128x128.Idx → EReal) x := by
  obtain ⟨-, -, -, e0, e1, -⟩ := idx_facts10 t
  unfold iblk0
  rw [View.read_apply]
  show V c main_arg10 _ = V c main_arg10 _
  congr 1
  funext a
  apply Fin.ext
  match a with
  | ⟨0, _⟩ => show win0_5.index t 0 * 128 + 1 * (x 0).val = (x 0).val; rw [e0]; omega
  | ⟨1, _⟩ => show win0_5.index t 1 * 128 + 1 * (x 1).val = (x 1).val; rw [e1]; omega

/-- A bias block is the whole bias array. -/
theorem iblk0_6_apply (c : Dev nD) (t : Fin cfg0.N) (x : S128.Idx) :
    (iblk0 (F := Ideal) V c 6 t : Vec Ideal S128 .f32) x = (V c main_arg11 : S128.Idx → EReal) x := by
  obtain ⟨-, -, -, -, -, e0, -⟩ := idx_facts10 t
  unfold iblk0
  rw [View.read_apply]
  show V c main_arg11 _ = V c main_arg11 _
  congr 1
  funext a
  apply Fin.ext
  match a with
  | ⟨0, _⟩ => show win0_6.index t 0 * 128 + 1 * (x 0).val = (x 0).val; rw [e0]; omega

/-- The second projection's payload at (p, q). -/
theorem pay4_apply (x0 : Vec Ideal S2000x128 .f32) (x1 : Vec Ideal S128x128 .f32) (x2 : Vec Ideal S128 .f32) (p : Fin 2000) (q : Fin 128) :
    k0_pay4 (F := Ideal) x0 x1 x2 (ix2 p q) = (∑ k : Fin 128, x0 (ix2 p k) * x1 (ix2 k q)) + x2 (ix1 q) := by
  unfold k0_pay4 k0_pay2
  rw [addf_apply, mm_apply, bias_apply]
  rfl

/-- The third projection's payload at (p, q). -/
theorem pay5_apply (x0 : Vec Ideal S2000x128 .f32) (x1 : Vec Ideal S128x128 .f32) (x2 : Vec Ideal S128 .f32) (p : Fin 2000) (q : Fin 128) :
    k0_pay5 (F := Ideal) x0 x1 x2 (ix2 p q) = (∑ k : Fin 128, x0 (ix2 p k) * x1 (ix2 k q)) + x2 (ix1 q) := by
  unfold k0_pay5 k0_pay2
  rw [addf_apply, mm_apply, bias_apply]
  rfl

/-- The two stores into the 256-wide block read back as one function: columns below 128 the second projection,
    the others the third at the column less 128. -/
theorem out10_lin2 (X : Arr SNF) (W₁ : Arr SFF) (b₁ : Arr SF) (W₂ : Arr SFF) (b₂ : Arr SF)
    (x0 : Vec Ideal S2000x128 .f32) (x3 : Vec Ideal S128x128 .f32) (x4 : Vec Ideal S128 .f32) (x5 : Vec Ideal S128x128 .f32) (x6 : Vec Ideal S128 .f32)
    (y : S2000x256.Idx) (i : S100000x256.Idx)
    (h0 : ∀ k : Fin 128, x0 (ix2 (y 0) k) = X (ix2 (i 0) k))
    (h3 : ∀ z, x3 z = W₁ z) (h4 : ∀ z, x4 z = b₁ z) (h5 : ∀ z, x5 z = W₂ z) (h6 : ∀ z, x6 z = b₂ z)
    (hi : (i 1).val = (y 1).val) :
    View.canon [(⟨r0_4, k0_pay5 (F := Ideal) x0 x5 x6⟩ : View.Piece (Elt Ideal) S2000x256 .f32), ⟨r0_3, k0_pay4 (F := Ideal) x0 x3 x4⟩] y
      = RegionSpec.lin2 X W₁ b₁ W₂ b₂ i := by
  obtain ⟨p, q, rfl⟩ : ∃ (p : Fin 2000) (q : Fin 256), y = ix2 p q := ⟨y 0, y 1, eq_ix2 y⟩
  have hi' : (i 1).val = q.val := hi
  unfold RegionSpec.lin2
  by_cases hq : q.val < 128
  · have hn : (ix2 p q : S2000x256.Idx) ∉ (r0_4 : Rect S2000x256).set := by
      rw [Rect.mem_set_unit]
      intro h
      have h1 : 128 ≤ q.val := (h 1).1
      omega
    have he : (ix2 p q : S2000x256.Idx) = (r0_3 : Rect S2000x256).emb (ix2 p (⟨q.val, hq⟩ : Fin 128)) :=
      funext fun a => Fin.ext (by
        match a with
        | ⟨0, _⟩ => show p.val = 0 + 1 * p.val; omega
        | ⟨1, _⟩ => show q.val = 0 + 1 * q.val; omega)
    have hlt : (i 1).val < 128 := by omega
    have e1 : (⟨(i 1).val, hlt⟩ : Fin 128) = ⟨q.val, hq⟩ := Fin.ext hi'
    refine (View.canon_cons_of_not_mem (Val := Elt Ideal) (⟨r0_4, k0_pay5 (F := Ideal) x0 x5 x6⟩ : View.Piece (Elt Ideal) S2000x256 .f32) [⟨r0_3, k0_pay4 (F := Ideal) x0 x3 x4⟩] hn).trans ?_
    refine (congrArg (View.canon _) he).trans ?_
    refine (View.canon_cons_emb (Val := Elt Ideal) (e := EltTy.f32) r0_3 (k0_pay4 (F := Ideal) x0 x3 x4 : Vec Ideal S2000x128 .f32) [] (ix2 p (⟨q.val, hq⟩ : Fin 128))).trans ?_
    rw [pay4_apply, dif_pos hlt, e1]
    unfold linN
    exact congrArg₂ (· + ·) (Finset.sum_congr rfl fun k _ => congrArg₂ (· * ·) (h0 k) (h3 _)) (h4 _)
  · have hq' : q.val - 128 < 128 := by have := q.isLt; omega
    have he : (ix2 p q : S2000x256.Idx) = (r0_4 : Rect S2000x256).emb (ix2 p (⟨q.val - 128, hq'⟩ : Fin 128)) :=
      funext fun a => Fin.ext (by
        match a with
        | ⟨0, _⟩ => show p.val = 0 + 1 * p.val; omega
        | ⟨1, _⟩ => show q.val = 128 + 1 * (q.val - 128); omega)
    have hge : ¬ (i 1).val < 128 := by omega
    have e1 : ∀ h, (⟨(i 1).val - 128, h⟩ : Fin 128) = ⟨q.val - 128, hq'⟩ := fun h => Fin.ext (by show (i 1).val - 128 = q.val - 128; omega)
    refine (congrArg (View.canon _) he).trans ?_
    refine (View.canon_cons_emb (Val := Elt Ideal) (e := EltTy.f32) r0_4 (k0_pay5 (F := Ideal) x0 x5 x6 : Vec Ideal S2000x128 .f32) [⟨r0_3, k0_pay4 (F := Ideal) x0 x3 x4⟩] (ix2 p (⟨q.val - 128, hq'⟩ : Fin 128))).trans ?_
    rw [pay5_apply, dif_neg hge, e1]
    unfold linN
    exact congrArg₂ (· + ·) (Finset.sum_congr rfl fun k _ => congrArg₂ (· * ·) (h0 k) (h5 _)) (h6 _)

/-- What point t writes back to the 256-wide array is block t of (X·W_ed + b_ed | X·W_nd + b_nd). -/
theorem flushed10_eq (c : Dev nD) (t : Fin cfg0.N) :
    (dat0 (F := Ideal) V c).flushed 10 t = ((cfg0.win 10).blk t).view.read (Elt Ideal) (RegionSpec.lin2 (V c main_arg0) (V c main_arg6) (V c main_arg7) (V c main_arg10) (V c main_arg11)) := by
  show (cfg0.win 10).cut (grid0.coords t) ((dat0 V c).after 10 t) = _
  rw [after0_10]
  unfold out0_10
  simp only [View.ld_unit_zero (S := S2000x128) hz2, View.ld_unit_zero (S := S128x128) hz2, View.ld_unit_zero (S := S128) hz1]
  obtain ⟨-, -, -, -, -, -, e0, e1⟩ := idx_facts10 t
  funext j
  refine out10_lin2 (V c main_arg0) (V c main_arg6) (V c main_arg7) (V c main_arg10) (V c main_arg11) _ _ _ _ _ j _ (fun k => ?_) (fun z => iblk0_3_apply V c t z) (fun z => iblk0_4_apply V c t z) (fun z => iblk0_5_apply V c t z) (fun z => iblk0_6_apply V c t z) ?_
  · refine iblk0_0_apply V c t _ _ ?_ rfl
    show win0_10.index t 0 * 2000 + 1 * (j 0).val = 2000 * t.val + (j 0).val
    rw [e0]; omega
  · show win0_10.index t 1 * 256 + 1 * (j 1).val = (j 1).val
    rw [e1]; omega

theorem mem_blk10 (t : Fin cfg0.N) (i : S100000x256.Idx) :
    i ∈ ((cfg0.win 10).blk t).view.set ↔ ∀ a : Fin 2, win0_10.index t a * S2000x256.size a ≤ (i a).val ∧ (i a).val < win0_10.index t a * S2000x256.size a + S2000x256.size a := by
  show i ∈ ((View.whole main_v0_1).slice (win0_10.rect t)).set ↔ _
  rw [View.set_slice_whole, Rect.mem_set_unit]
  exact Iff.rfl

theorem cover10 (i : S100000x256.Idx) : ∃ t : Fin cfg0.N, (cfg0.win 10).flush t = true ∧ i ∈ ((cfg0.win 10).blk t).view.set := by
  have hi0 : (i 0).val < 100000 := idx2_lt0 i
  have hi1 : (i 1).val < 256 := idx2_lt1 i
  obtain ⟨t, ht⟩ : ∃ t : Fin cfg0.N, t.val = (i 0).val / 2000 := ⟨⟨(i 0).val / 2000, by rw [N0]; omega⟩, rfl⟩
  obtain ⟨-, -, -, -, -, -, e0, e1⟩ := idx_facts10 t
  refine ⟨t, flush0_10 t, ?_⟩
  rw [mem_blk10]
  intro a
  match a with
  | ⟨0, _⟩ => show win0_10.index t 0 * 2000 ≤ (i 0).val ∧ (i 0).val < win0_10.index t 0 * 2000 + 2000; rw [e0, ht]; omega
  | ⟨1, _⟩ => show win0_10.index t 1 * 256 ≤ (i 1).val ∧ (i 1).val < win0_10.index t 1 * 256 + 256; rw [e1]; omega

theorem final10 (c : Dev nD) : (dat0 (F := Ideal) V c).arrAt 10 cfg0.N = RegionSpec.lin2 (V c main_arg0) (V c main_arg6) (V c main_arg7) (V c main_arg10) (V c main_arg11) :=
  (dat0 V c).arrAt_eq_of_cover 10 (RegionSpec.lin2 (V c main_arg0) (V c main_arg6) (V c main_arg7) (V c main_arg10) (V c main_arg11)) (fun t _ => flushed10_eq V c t) cover10

/-! ## The fourth projection (window 11) -/

theorem idx_facts11 : ∀ t : Fin cfg0.N,
    win0_7.index t (0 : Fin 2) = 0 ∧ win0_7.index t (1 : Fin 2) = 0
    ∧ win0_8.index t (0 : Fin 1) = 0
    ∧ win0_11.index t (0 : Fin 2) = t.val ∧ win0_11.index t (1 : Fin 2) = 0 :=
  (by decide +kernel : ∀ t : Fin grid0.N, _)

/-- A weight block is the whole weight array. -/
theorem iblk0_7_apply (c : Dev nD) (t : Fin cfg0.N) (x : S128x128.Idx) :
    (iblk0 (F := Ideal) V c 7 t : Vec Ideal S128x128 .f32) x = (V c main_arg12 : S128x128.Idx → EReal) x := by
  obtain ⟨e0, e1, -⟩ := idx_facts11 t
  unfold iblk0
  rw [View.read_apply]
  show V c main_arg12 _ = V c main_arg12 _
  congr 1
  funext a
  apply Fin.ext
  match a with
  | ⟨0, _⟩ => show win0_7.index t 0 * 128 + 1 * (x 0).val = (x 0).val; rw [e0]; omega
  | ⟨1, _⟩ => show win0_7.index t 1 * 128 + 1 * (x 1).val = (x 1).val; rw [e1]; omega

/-- A bias block is the whole bias array. -/
theorem iblk0_8_apply (c : Dev nD) (t : Fin cfg0.N) (x : S128.Idx) :
    (iblk0 (F := Ideal) V c 8 t : Vec Ideal S128 .f32) x = (V c main_arg13 : S128.Idx → EReal) x := by
  obtain ⟨-, -, e0, -⟩ := idx_facts11 t
  unfold iblk0
  rw [View.read_apply]
  show V c main_arg13 _ = V c main_arg13 _
  congr 1
  funext a
  apply Fin.ext
  match a with
  | ⟨0, _⟩ => show win0_8.index t 0 * 128 + 1 * (x 0).val = (x 0).val; rw [e0]; omega

/-- The fourth projection's payload (the product, then the bias row added) at (p, q). -/
theorem pay11_apply (x0 : Vec Ideal S2000x128 .f32) (x7 : Vec Ideal S128x128 .f32) (x8 : Vec Ideal S128 .f32) (p : Fin 2000) (q : Fin 128) :
    k0_pay1 (F := Ideal) (k0_pay6 x0 x7) (k0_pay7 x8) (ix2 p q) = (∑ k : Fin 128, x0 (ix2 p k) * x7 (ix2 k q)) + x8 (ix1 q) := by
  unfold k0_pay1 k0_pay6 k0_pay7 k0_pay2
  rw [addf_apply, mm_apply, bias_apply]
  rfl

theorem pay11_lin (X : Arr SNF) (W : Arr SFF) (b : Arr SF) (x0 : Vec Ideal S2000x128 .f32) (x1 : Vec Ideal S128x128 .f32) (x2 : Vec Ideal S128 .f32)
    (j : S2000x128.Idx) (i : S100000x128.Idx)
    (h0 : ∀ k : Fin 128, x0 (ix2 (j 0) k) = X (ix2 (i 0) k)) (h1 : ∀ y, x1 y = W y) (h2 : ∀ y, x2 y = b y) (hi : (i 1).val = (j 1).val) :
    k0_pay1 (F := Ideal) (k0_pay6 x0 x1) (k0_pay7 x2) j = RegionSpec.lin X W b i := by
  obtain ⟨p, q, rfl⟩ : ∃ (p : Fin 2000) (q : Fin 128), j = ix2 p q := ⟨j 0, j 1, eq_ix2 j⟩
  have e1 : (i 1 : Fin 128) = q := Fin.ext hi
  rw [pay11_apply]
  unfold RegionSpec.lin linN
  rw [e1]
  exact congrArg₂ (· + ·) (Finset.sum_congr rfl fun k _ => congrArg₂ (· * ·) (h0 k) (h1 _)) (h2 _)

/-- What point t writes back to the fourth projection's array is block t of X·W_ns + b_ns. -/
theorem flushed11_eq (c : Dev nD) (t : Fin cfg0.N) :
    (dat0 (F := Ideal) V c).flushed 11 t = ((cfg0.win 11).blk t).view.read (Elt Ideal) (RegionSpec.lin (V c main_arg0) (V c main_arg12) (V c main_arg13)) := by
  show (cfg0.win 11).cut (grid0.coords t) ((dat0 V c).after 11 t) = _
  rw [after0_11]
  unfold out0_11
  rw [View.canon_unit_zero hz2]
  simp only [View.ld_unit_zero (S := S2000x128) hz2, View.ld_unit_zero (S := S128x128) hz2, View.ld_unit_zero (S := S128) hz1]
  obtain ⟨-, -, -, e0, e1⟩ := idx_facts11 t
  funext j
  refine pay11_lin (V c main_arg0) (V c main_arg12) (V c main_arg13) _ _ _ j _ (fun k => ?_) (fun y => iblk0_7_apply V c t y) (fun y => iblk0_8_apply V c t y) ?_
  · refine iblk0_0_apply V c t _ _ ?_ rfl
    show win0_11.index t 0 * 2000 + 1 * (j 0).val = 2000 * t.val + (j 0).val
    rw [e0]; omega
  · show win0_11.index t 1 * 128 + 1 * (j 1).val = (j 1).val
    rw [e1]; omega

theorem mem_blk11 (t : Fin cfg0.N) (i : S100000x128.Idx) :
    i ∈ ((cfg0.win 11).blk t).view.set ↔ ∀ a : Fin 2, win0_11.index t a * S2000x128.size a ≤ (i a).val ∧ (i a).val < win0_11.index t a * S2000x128.size a + S2000x128.size a := by
  show i ∈ ((View.whole main_v0_2).slice (win0_11.rect t)).set ↔ _
  rw [View.set_slice_whole, Rect.mem_set_unit]
  exact Iff.rfl

theorem cover11 (i : S100000x128.Idx) : ∃ t : Fin cfg0.N, (cfg0.win 11).flush t = true ∧ i ∈ ((cfg0.win 11).blk t).view.set := by
  have hi0 : (i 0).val < 100000 := idx2_lt0 i
  have hi1 : (i 1).val < 128 := idx2_lt1 i
  obtain ⟨t, ht⟩ : ∃ t : Fin cfg0.N, t.val = (i 0).val / 2000 := ⟨⟨(i 0).val / 2000, by rw [N0]; omega⟩, rfl⟩
  obtain ⟨-, -, -, e0, e1⟩ := idx_facts11 t
  refine ⟨t, flush0_11 t, ?_⟩
  rw [mem_blk11]
  intro a
  match a with
  | ⟨0, _⟩ => show win0_11.index t 0 * 2000 ≤ (i 0).val ∧ (i 0).val < win0_11.index t 0 * 2000 + 2000; rw [e0, ht]; omega
  | ⟨1, _⟩ => show win0_11.index t 1 * 128 ≤ (i 1).val ∧ (i 1).val < win0_11.index t 1 * 128 + 128; rw [e1]; omega

theorem final11 (c : Dev nD) : (dat0 (F := Ideal) V c).arrAt 11 cfg0.N = RegionSpec.lin (V c main_arg0) (V c main_arg12) (V c main_arg13) :=
  (dat0 V c).arrAt_eq_of_cover 11 (RegionSpec.lin (V c main_arg0) (V c main_arg12) (V c main_arg13)) (fun t _ => flushed11_eq V c t) cover11

end Cert.KernelIdeal.Reg0

end
-- ==== Proof.KReg1a.lean ====
/-
  Region 1 (the edge update), its two row-shaped outputs: eu itself, and the pair (n_dst·silu(eu) | silu(eu)).
-/
import proofs.«409458_j13194139533628_3_alg».proof.Proof.Gen.KernelIdeal.Frame
import proofs.«409458_j13194139533628_3_alg».proof.Proof.RegionSpec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Reg1a

open Idealize.ShloMosaic Idealize.ShloMosaic.TcCoe Idealize.SL.Sem Cert.KernelIdeal Cert.KernelIdeal.Gen Cert.Spec
open Idealize.ShloMosaic.ValueIdx
open scoped BigOperators

/-! ## The block product's operand indices -/

set_option maxHeartbeats 400000 in
theorem lhs_0 (i : S2400x128.Idx) (q : dot_S2400x128_S128x128_S2400x128_1_0_0_1_n_n.contr.Idx) :
    (dot_S2400x128_S128x128_S2400x128_1_0_0_1_n_n.lhsIdx i q 0).val = (i 0).val := by
  unfold DotDims.lhsIdx
  rw [dif_neg (show ¬(0 : Fin S2400x128.rank) ∈ dot_S2400x128_S128x128_S2400x128_1_0_0_1_n_n.lhsBatch by decide), dif_pos (show (0 : Fin S2400x128.rank) ∈ dot_S2400x128_S128x128_S2400x128_1_0_0_1_n_n.lhsNonContracting by decide)]
  rfl
theorem lhs_1 (i : S2400x128.Idx) (q : dot_S2400x128_S128x128_S2400x128_1_0_0_1_n_n.contr.Idx) :
    (dot_S2400x128_S128x128_S2400x128_1_0_0_1_n_n.lhsIdx i q 1).val = (q ⟨0, by decide⟩).val :=
  dot_S2400x128_S128x128_S2400x128_1_0_0_1_n_n.lhsIdx_val_of_single rfl i q
theorem rhs_0 (i : S2400x128.Idx) (q : dot_S2400x128_S128x128_S2400x128_1_0_0_1_n_n.contr.Idx) :
    (dot_S2400x128_S128x128_S2400x128_1_0_0_1_n_n.rhsIdx i q 0).val = (q ⟨0, by decide⟩).val :=
  dot_S2400x128_S128x128_S2400x128_1_0_0_1_n_n.rhsIdx_val_of_single rfl i q
set_option maxHeartbeats 400000 in
theorem rhs_1 (i : S2400x128.Idx) (q : dot_S2400x128_S128x128_S2400x128_1_0_0_1_n_n.contr.Idx) :
    (dot_S2400x128_S128x128_S2400x128_1_0_0_1_n_n.rhsIdx i q 1).val = (i 1).val := by
  unfold DotDims.rhsIdx
  rw [dif_neg (show ¬(1 : Fin S128x128.rank) ∈ dot_S2400x128_S128x128_S2400x128_1_0_0_1_n_n.rhsBatch by decide), dif_pos (show (1 : Fin S128x128.rank) ∈ dot_S2400x128_S128x128_S2400x128_1_0_0_1_n_n.rhsNonContracting by decide)]
  rfl

set_option maxHeartbeats 400000 in
/-- The block product into a zero accumulator at (p, q): the sum over k of the left block's row p times the right block's column q. -/
theorem mm_apply (a : FVec Ideal S2400x128 .bf16) (b : FVec Ideal S128x128 .bf16) (p : Fin 2400) (q : Fin 128) :
    FloatOps.matmul dot_S2400x128_S128x128_S2400x128_1_0_0_1_n_n none a b (constant (F := Ideal) S2400x128 .f32 0x00000000#32) (ix2 p q)
      = ∑ k : Fin 128, a (ix2 p k) * b (ix2 k q) := by
  rw [Ideal.matmul_constant_zero_apply, ← Equiv.sum_comp (contrEquiv1 dot_S2400x128_S128x128_S2400x128_1_0_0_1_n_n 128 rfl rfl).symm]
  refine Finset.sum_congr rfl fun k _ => ?_
  have hk := contrEquiv1_symm_val dot_S2400x128_S128x128_S2400x128_1_0_0_1_n_n 128 rfl rfl k
  have el : dot_S2400x128_S128x128_S2400x128_1_0_0_1_n_n.lhsIdx (ix2 p q) ((contrEquiv1 dot_S2400x128_S128x128_S2400x128_1_0_0_1_n_n 128 rfl rfl).symm k) = ix2 p k := funext fun a => Fin.ext (by
    match a with
    | ⟨0, _⟩ => exact lhs_0 _ _
    | ⟨1, _⟩ => exact (lhs_1 _ _).trans hk)
  have er : dot_S2400x128_S128x128_S2400x128_1_0_0_1_n_n.rhsIdx (ix2 p q) ((contrEquiv1 dot_S2400x128_S128x128_S2400x128_1_0_0_1_n_n 128 rfl rfl).symm k) = ix2 k q := funext fun a => Fin.ext (by
    match a with
    | ⟨0, _⟩ => exact (rhs_0 _ _).trans hk
    | ⟨1, _⟩ => exact rhs_1 _ _)
  rw [el, er]

set_option maxHeartbeats 400000 in
/-- eu on a block, at (p, q). -/
theorem pay2_apply (v0 : Vec Ideal S2400x128 .f32) (v2 : Vec Ideal S128x128 .f32) (v5 v9 : Vec Ideal S2400x128 .f32) (v12 : Vec Ideal S128 .f32)
    (p : Fin 2400) (q : Fin 128) :
    k1_pay2 (F := Ideal) v0 v2 v5 v9 v12 (ix2 p q)
      = ((∑ k : Fin 128, v0 (ix2 p k) * v2 (ix2 k q)) + v12 (ix1 q)) + (v9 (ix2 p q) + v5 (ix2 p q)) := by
  unfold k1_pay2
  simp only [shapeCast_self]
  refine congrArg₂ (· + ·) (congrArg₂ (· + ·) ?_ ?_) rfl
  · exact mm_apply (truncf .bf16 v0 bitsLt_bf16_f32) (truncf .bf16 v2 bitsLt_bf16_f32) p q
  · exact (broadcastTo_1b_ab_apply _ broadcasts_S1x128_S2400x128 p q).trans (shapeCast_a_1a_apply v12 shapeCasts_S128_S1x128 0 q)

set_option maxHeartbeats 400000 in
/-- eu·logistic(eu) on a block, at (p, q). -/
theorem pay3_apply (v0 : Vec Ideal S2400x128 .f32) (v2 : Vec Ideal S128x128 .f32) (v5 v9 : Vec Ideal S2400x128 .f32) (v12 : Vec Ideal S128 .f32)
    (p : Fin 2400) (q : Fin 128) :
    k1_pay3 (F := Ideal) v0 v2 v5 v9 v12 (ix2 p q)
      = silu (k1_pay2 (F := Ideal) v0 v2 v5 v9 v12 (ix2 p q)) := by
  unfold k1_pay3
  rfl

set_option maxHeartbeats 400000 in
theorem pay4_apply (v0 : Vec Ideal S2400x128 .f32) (v2 : Vec Ideal S128x128 .f32) (v5 v7 v9 : Vec Ideal S2400x128 .f32) (v12 : Vec Ideal S128 .f32)
    (p : Fin 2400) (q : Fin 128) :
    k1_pay4 (F := Ideal) v0 v2 v5 v7 v9 v12 (ix2 p q)
      = v7 (ix2 p q) * silu (k1_pay2 (F := Ideal) v0 v2 v5 v9 v12 (ix2 p q)) := by
  unfold k1_pay4
  simp only [shapeCast_self]
  exact congrArg (v7 (ix2 p q) * ·) (pay3_apply v0 v2 v5 v9 v12 p q)

set_option maxHeartbeats 400000 in
theorem pay5_apply (v0 : Vec Ideal S2400x128 .f32) (v2 : Vec Ideal S128x128 .f32) (v5 v9 : Vec Ideal S2400x128 .f32) (v12 : Vec Ideal S128 .f32)
    (p : Fin 2400) (q : Fin 128) :
    k1_pay5 (F := Ideal) v0 v2 v5 v9 v12 (ix2 p q) = k1_pay2 (F := Ideal) v0 v2 v5 v9 v12 (ix2 p q) := by
  unfold k1_pay5
  rfl

/-! ## The input blocks as rows of the arrays -/

-- the buffer contents on entry to the region
variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The printed index maps, decided over the grid: the row-blocked windows sit at block (t, 0), the weights and the bias at block 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

theorem t_lt (t : Fin cfg1.N) : t.val < 250 := by
  have h := t.isLt
  have hN : cfg1.N = 250 := N_1
  omega

set_option maxHeartbeats 400000 in
/-- The edge-feature block at point t is rows 2400 t … 2400 t + 2399 of the array. -/
theorem blk0_apply (c : Dev nD) (t : Fin cfg1.N) (p : Fin 2400) (k : Fin 128) (e : Fin 600000) (he : e.val = 2400 * t.val + p.val) :
    (iblk1 (F := Ideal) V c 0 t : Vec Ideal S2400x128 .f32) (ix2 p k) = (V c main_arg1 : S600000x128.Idx → EReal) (ix2 e k) := by
  obtain ⟨h00, h01, -⟩ := idx_facts t
  unfold iblk1
  rw [View.read_apply]
  show V c main_arg1 _ = V c main_arg1 _
  congr 1
  funext a
  apply Fin.ext
  match a with
  | ⟨0, _⟩ => show win1_0.index t (0 : Fin 2) * 2400 + 1 * p.val = e.val; omega
  | ⟨1, _⟩ => show win1_0.index t (1 : Fin 2) * 128 + 1 * k.val = k.val; omega

set_option maxHeartbeats 400000 in
/-- The weight block is the whole weight array. -/
theorem blk1_apply (c : Dev nD) (t : Fin cfg1.N) (k q : Fin 128) :
    (iblk1 (F := Ideal) V c 1 t : Vec Ideal S128x128 .f32) (ix2 k q) = (V c main_arg8 : S128x128.Idx → EReal) (ix2 k q) := by
  obtain ⟨-, -, h10, h11, -⟩ := idx_facts t
  unfold iblk1
  rw [View.read_apply]
  show V c main_arg8 _ = V c main_arg8 _
  congr 1
  funext a
  apply Fin.ext
  match a with
  | ⟨0, _⟩ => show win1_1.index t (0 : Fin 2) * 128 + 1 * k.val = k.val; omega
  | ⟨1, _⟩ => show win1_1.index t (1 : Fin 2) * 128 + 1 * q.val = q.val; omega

set_option maxHeartbeats 400000 in
/-- The bias block is the whole bias. -/
theorem blk2_apply (c : Dev nD) (t : Fin cfg1.N) (q : Fin 128) :
    (iblk1 (F := Ideal) V c 2 t : Vec Ideal S128 .f32) (ix1 q) = (V c main_arg9 : S128.Idx → EReal) (ix1 q) := by
  obtain ⟨-, -, -, -, h20, -⟩ := idx_facts t
  unfold iblk1
  rw [View.read_apply]
  show V c main_arg9 _ = V c main_arg9 _
  congr 1
  funext a
  apply Fin.ext
  match a with
  | ⟨0, _⟩ => show win1_2.index t (0 : Fin 1) * 128 + 1 * q.val = q.val; omega

set_option maxHeartbeats 400000 in
/-- The gathered source rows' block at point t is rows 2400 t … of the array. -/
theorem blk3_apply (c : Dev nD) (t : Fin cfg1.N) (p : Fin 2400) (q : Fin 128) (e : Fin 600000) (he : e.val = 2400 * t.val + p.val) :
    (iblk1 (F := Ideal) V c 3 t : Vec Ideal S2400x128 .f32) (ix2 p q) = (V c main_v1 : S600000x128.Idx → EReal) (ix2 e q) := by
  obtain ⟨-, -, -, -, -, h30, h31, -⟩ := idx_facts t
  unfold iblk1
  rw [View.read_apply]
  show V c main_v1 _ = V c main_v1 _
  congr 1
  funext a
  apply Fin.ext
  match a with
  | ⟨0, _⟩ => show win1_3.index t (0 : Fin 2) * 2400 + 1 * p.val = e.val; omega
  | ⟨1, _⟩ => show win1_3.index t (1 : Fin 2) * 128 + 1 * q.val = q.val; omega

set_option maxHeartbeats 400000 in
/-- The gathered destination rows' block (256 wide) at point t is rows 2400 t … of the array. -/
theorem blk4_apply (c : Dev nD) (t : Fin cfg1.N) (p : Fin 2400) (q : Fin 256) (e : Fin 600000) (he : e.val = 2400 * t.val + p.val) :
    (iblk1 (F := Ideal) V c 4 t : Vec Ideal S2400x256 .f32) (ix2 p q) = (V c main_v2 : S600000x256.Idx → EReal) (ix2 e q) := by
  obtain ⟨-, -, -, -, -, -, -, h40, h41, -⟩ := idx_facts t
  unfold iblk1
  rw [View.read_apply]
  show V c main_v2 _ = V c main_v2 _
  congr 1
  funext a
  apply Fin.ext
  match a with
  | ⟨0, _⟩ => show win1_4.index t (0 : Fin 2) * 2400 + 1 * p.val = e.val; omega
  | ⟨1, _⟩ => show win1_4.index t (1 : Fin 2) * 256 + 1 * q.val = q.val; omega

set_option maxHeartbeats 400000 in
/-- The left half of a 256-wide block, read at (p, q). -/
theorem ld_left (x4 : Vec Ideal S2400x256 .f32) (p : Fin 2400) (q : Fin 128) :
    View.ld x4 r1_2 (ix2 p q) = x4 (ix2 p (colL q)) := by
  show x4 (r1_2.emb (ix2 p q)) = _
  congr 1
  funext a
  apply Fin.ext
  match a with
  | ⟨0, _⟩ => show 0 + 1 * p.val = p.val; omega
  | ⟨1, _⟩ => show 0 + 1 * q.val = q.val; omega

set_option maxHeartbeats 400000 in
/-- The right half of a 256-wide block, read at (p, q). -/
theorem ld_right (x4 : Vec Ideal S2400x256 .f32) (p : Fin 2400) (q : Fin 128) :
    View.ld x4 r1_3 (ix2 p q) = x4 (ix2 p (colR q)) := by
  show x4 (r1_3.emb (ix2 p q)) = _
  congr 1
  funext a
  apply Fin.ext
  match a with
  | ⟨0, _⟩ => show 0 + 1 * p.val = p.val; omega
  | ⟨1, _⟩ => show 128 + 1 * q.val = 128 + q.val; omega

set_option maxHeartbeats 400000 in
/-- eu on a block whose inputs are rows of the arrays: the array-level formula at the row. -/
theorem eu_blk (X0 : Vec Ideal S2400x128 .f32) (X1 : Vec Ideal S128x128 .f32) (X2 : Vec Ideal S128 .f32) (X3 : Vec Ideal S2400x128 .f32)
    (X4 : Vec Ideal S2400x256 .f32) (EF : Arr SEF) (Wee : Arr SFF) (bee : Arr SF) (G1 : Arr SEF) (G2 : Arr SE2F)
    (e : Fin 600000) (p : Fin 2400) (q : Fin 128)
    (h0 : ∀ k : Fin 128, X0 (ix2 p k) = EF (ix2 e k)) (h1 : ∀ k : Fin 128, X1 (ix2 k q) = Wee (ix2 k q)) (h2 : X2 (ix1 q) = bee (ix1 q))
    (h3 : X3 (ix2 p q) = G1 (ix2 e q)) (h4 : X4 (ix2 p (colL q)) = G2 (ix2 e (colL q))) :
    k1_pay2 (F := Ideal) X0 X1 (View.ld X4 r1_2) X3 X2 (ix2 p q) = RegionSpec.euG EF Wee bee G1 G2 e q := by
  rw [pay2_apply, ld_left, h2, h3, h4]
  unfold RegionSpec.euG linE
  refine congrArg (· + _) (congrArg (· + _) (Finset.sum_congr rfl fun k _ => ?_))
  rw [h0 k, h1 k]

set_option maxHeartbeats 400000 in
/-- WHAT POINT t WRITES BACK to the eu array is block t of the array-level eu. -/
theorem flushed5_eq (c : Dev nD) (t : Fin cfg1.N) :
    (dat1 (F := Ideal) V c).flushed 5 t = ((cfg1.win 5).blk t).view.read (Elt Ideal)
      (RegionSpec.euArr (V c main_arg1) (V c main_arg8) (V c main_arg9) (V c main_v1) (V c main_v2)) := by
  show (cfg1.win 5).cut (grid1.coords t) ((dat1 V c).after 5 t) = _
  rw [after1_5]
  unfold out1_5
  rw [View.canon_unit_zero hz]
  simp only [View.ld_unit_zero (S := S2400x128) hz, View.ld_unit_zero (S := S128x128) hz, View.ld_unit_zero (S := S128) hz1]
  funext j
  obtain ⟨p, q, rfl⟩ : ∃ (p : Fin 2400) (q : Fin 128), j = ix2 p q := ⟨j 0, j 1, eq_ix2 j⟩
  have ht := t_lt t
  obtain ⟨-, -, -, -, -, -, -, -, -, h50, h51, -⟩ := idx_facts t
  have hemb : ((cfg1.win 5).blk t).view.emb (ix2 p q) = (ix2 (⟨2400 * t.val + p.val, by omega⟩ : Fin 600000) q : S600000x128.Idx) := by
    funext a
    apply Fin.ext
    match a with
    | ⟨0, _⟩ => show win1_5.index t (0 : Fin 2) * 2400 + 1 * p.val = 2400 * t.val + p.val; omega
    | ⟨1, _⟩ => show win1_5.index t (1 : Fin 2) * 128 + 1 * q.val = q.val; omega
  show k1_pay2 (F := Ideal) (iblk1 V c 0 t) (iblk1 V c 1 t) (View.ld (iblk1 V c 4 t) r1_2) (iblk1 V c 3 t) (iblk1 V c 2 t) (ix2 p q)
    = RegionSpec.euArr (V c main_arg1) (V c main_arg8) (V c main_arg9) (V c main_v1) (V c main_v2) (((cfg1.win 5).blk t).view.emb (ix2 p q))
  rw [hemb]
  exact eu_blk (iblk1 V c 0 t) (iblk1 V c 1 t) (iblk1 V c 2 t) (iblk1 V c 3 t) (iblk1 V c 4 t)
    (V c main_arg1) (V c main_arg8) (V c main_arg9) (V c main_v1) (V c main_v2) ⟨2400 * t.val + p.val, by omega⟩ p q
    (fun k => blk0_apply V c t p k _ rfl) (fun k => blk1_apply V c t k q) (blk2_apply V c t q)
    (blk3_apply V c t p q _ rfl) (blk4_apply V c t p (colL q) _ rfl)

/-! ## The eu array -/

/-- An index of the eu array is in point t's block iff each coordinate is in the block's range on its axis. -/
theorem mem_blk5 (t : Fin cfg1.N) (i : S600000x128.Idx) :
    i ∈ ((cfg1.win 5).blk t).view.set ↔ ∀ a : Fin 2, win1_5.index t a * S2400x128.size a ≤ (i a).val ∧ (i a).val < win1_5.index t a * S2400x128.size a + S2400x128.size a := by
  show i ∈ ((View.whole main_v3_0).slice (win1_5.rect t)).set ↔ _
  rw [View.set_slice_whole, Rect.mem_set_unit]
  exact Iff.rfl

set_option maxHeartbeats 400000 in
/-- Every row r of the eu array is in the block of point r / 2400. -/
theorem cover5 (i : S600000x128.Idx) : ∃ t : Fin cfg1.N, (cfg1.win 5).flush t = true ∧ i ∈ ((cfg1.win 5).blk t).view.set := by
  have hi0 : (i 0).val < 600000 := (i 0).isLt
  have hi1 : (i 1).val < 128 := (i 1).isLt
  have hN : cfg1.N = 250 := N_1
  have hlt : (i 0).val / 2400 < cfg1.N := by rw [hN]; omega
  obtain ⟨-, -, -, -, -, -, -, -, -, h50, h51, -⟩ := idx_facts ⟨(i 0).val / 2400, hlt⟩
  refine ⟨⟨(i 0).val / 2400, hlt⟩, flush1_5 _, ?_⟩
  rw [mem_blk5]
  intro a
  match a with
  | ⟨0, _⟩ =>
    show win1_5.index ⟨(i 0).val / 2400, hlt⟩ (0 : Fin 2) * 2400 ≤ (i 0).val ∧ (i 0).val < win1_5.index ⟨(i 0).val / 2400, hlt⟩ (0 : Fin 2) * 2400 + 2400
    rw [h50]
    show (i 0).val / 2400 * 2400 ≤ (i 0).val ∧ (i 0).val < (i 0).val / 2400 * 2400 + 2400
    omega
  | ⟨1, _⟩ =>
    show win1_5.index ⟨(i 0).val / 2400, hlt⟩ (1 : Fin 2) * 128 ≤ (i 1).val ∧ (i 1).val < win1_5.index ⟨(i 0).val / 2400, hlt⟩ (1 : Fin 2) * 128 + 128
    rw [h51]
    omega

theorem final5 (c : Dev nD) : (dat1 (F := Ideal) V c).arrAt 5 cfg1.N = RegionSpec.euArr (V c main_arg1) (V c main_arg8) (V c main_arg9) (V c main_v1) (V c main_v2) :=
  (dat1 (F := Ideal) V c).arrAt_eq_of_cover 5 (RegionSpec.euArr (V c main_arg1) (V c main_arg8) (V c main_arg9) (V c main_v1) (V c main_v2))
    (fun t _ => flushed5_eq V c t) cover5

/-! ## The pair array -/

/-- The pair block from the input blocks: columns 0..127 the right half of the 256-wide block times silu(eu),
    columns 128..255 silu(eu). -/
def gateBlk (X0 : Vec Ideal S2400x128 .f32) (X1 : Vec Ideal S128x128 .f32) (X2 : Vec Ideal S128 .f32) (X3 : Vec Ideal S2400x128 .f32)
    (X4 : Vec Ideal S2400x256 .f32) : Vec Ideal S2400x256 .f32 := fun y =>
  if h : (y 1).val < 128 then
    X4 (ix2 (y 0) (colR ⟨(y 1).val, h⟩)) * silu (k1_pay2 (F := Ideal) X0 X1 (View.ld X4 r1_2) X3 X2 (ix2 (y 0) ⟨(y 1).val, h⟩))
  else silu (k1_pay2 (F := Ideal) X0 X1 (View.ld X4 r1_2) X3 X2 (ix2 (y 0) ⟨(y 1).val - 128, by have := idx2_lt1 y; omega⟩))

set_option maxHeartbeats 400000 in
/-- The two column-half stores leave the pair block. -/
theorem out6_eq (X0 : Vec Ideal S2400x128 .f32) (X1 : Vec Ideal S128x128 .f32) (X2 : Vec Ideal S128 .f32) (X3 : Vec Ideal S2400x128 .f32)
    (X4 : Vec Ideal S2400x256 .f32) : out1_6 (F := Ideal) X0 X1 X2 X3 X4 = gateBlk X0 X1 X2 X3 X4 := by
  funext y
  unfold out1_6
  simp only [View.ld_unit_zero (S := S2400x128) hz, View.ld_unit_zero (S := S128x128) hz, View.ld_unit_zero (S := S128) hz1]
  refine View.canon_apply_of_pieces (gateBlk X0 X1 X2 X3 X4) _ ?_ y (cover1_6 _ _ y)
  intro pc hpc x
  simp only [List.mem_cons, List.not_mem_nil, or_false] at hpc
  rcases hpc with rfl | rfl
  · obtain ⟨p, q, rfl⟩ : ∃ (p : Fin 2400) (q : Fin 128), x = ix2 p q := ⟨x 0, x 1, eq_ix2 x⟩
    have hemb : r1_3.emb (ix2 p q) = (ix2 p (colR q) : S2400x256.Idx) := by
      funext a
      apply Fin.ext
      match a with
      | ⟨0, _⟩ => show 0 + 1 * p.val = p.val; omega
      | ⟨1, _⟩ => show 128 + 1 * q.val = 128 + q.val; omega
    show k1_pay3 (F := Ideal) X0 X1 (View.ld X4 r1_2) X3 X2 (ix2 p q) = gateBlk X0 X1 X2 X3 X4 (r1_3.emb (ix2 p q))
    rw [hemb, pay3_apply]
    unfold gateBlk
    rw [dif_neg (show ¬ ((ix2 p (colR q) : S2400x256.Idx) 1).val < 128 from by show ¬ (128 + q.val < 128); omega)]
    refine congrArg silu (congrArg (k1_pay2 (F := Ideal) X0 X1 (View.ld X4 r1_2) X3 X2) ?_)
    funext a
    match a with
    | ⟨0, _⟩ => rfl
    | ⟨1, _⟩ => exact Fin.ext (by show q.val = 128 + q.val - 128; omega)
  · obtain ⟨p, q, rfl⟩ : ∃ (p : Fin 2400) (q : Fin 128), x = ix2 p q := ⟨x 0, x 1, eq_ix2 x⟩
    have hemb : r1_2.emb (ix2 p q) = (ix2 p (colL q) : S2400x256.Idx) := by
      funext a
      apply Fin.ext
      match a with
      | ⟨0, _⟩ => show 0 + 1 * p.val = p.val; omega
      | ⟨1, _⟩ => show 0 + 1 * q.val = q.val; omega
    show k1_pay4 (F := Ideal) X0 X1 (View.ld X4 r1_2) (View.ld X4 r1_3) X3 X2 (ix2 p q) = gateBlk X0 X1 X2 X3 X4 (r1_2.emb (ix2 p q))
    rw [hemb, pay4_apply, ld_right]
    unfold gateBlk
    rw [dif_pos (show ((ix2 p (colL q) : S2400x256.Idx) 1).val < 128 from q.isLt)]
    rfl

set_option maxHeartbeats 400000 in
/-- The pair block whose inputs are rows of the arrays: the array-level pair at the row. -/
theorem gate_blk (X0 : Vec Ideal S2400x128 .f32) (X1 : Vec Ideal S128x128 .f32) (X2 : Vec Ideal S128 .f32) (X3 : Vec Ideal S2400x128 .f32)
    (X4 : Vec Ideal S2400x256 .f32) (EF : Arr SEF) (Wee : Arr SFF) (bee : Arr SF) (G1 : Arr SEF) (G2 : Arr SE2F)
    (e : Fin 600000) (p : Fin 2400) (r : Fin 256)
    (h0 : ∀ k : Fin 128, X0 (ix2 p k) = EF (ix2 e k)) (h1 : ∀ k q : Fin 128, X1 (ix2 k q) = Wee (ix2 k q)) (h2 : ∀ q : Fin 128, X2 (ix1 q) = bee (ix1 q))
    (h3 : ∀ q : Fin 128, X3 (ix2 p q) = G1 (ix2 e q)) (h4 : ∀ r : Fin 256, X4 (ix2 p r) = G2 (ix2 e r)) :
    gateBlk X0 X1 X2 X3 X4 (ix2 p r) = RegionSpec.gateNum EF Wee bee G1 G2 (ix2 e r) := by
  unfold gateBlk RegionSpec.gateNum
  by_cases h : r.val < 128
  · rw [dif_pos (show ((ix2 p r : S2400x256.Idx) 1).val < 128 from h), dif_pos (show ((ix2 e r : SE2F.Idx) 1).val < 128 from h)]
    exact congrArg₂ (· * ·) (h4 _) (congrArg silu (eu_blk X0 X1 X2 X3 X4 EF Wee bee G1 G2 e p ⟨r.val, h⟩ h0 (fun k => h1 k _) (h2 _) (h3 _) (h4 _)))
  · rw [dif_neg (show ¬ ((ix2 p r : S2400x256.Idx) 1).val < 128 from h), dif_neg (show ¬ ((ix2 e r : SE2F.Idx) 1).val < 128 from h)]
    exact congrArg silu (eu_blk X0 X1 X2 X3 X4 EF Wee bee G1 G2 e p ⟨r.val - 128, by have := r.isLt; omega⟩ h0 (fun k => h1 k _) (h2 _) (h3 _) (h4 _))

set_option maxHeartbeats 400000 in
/-- WHAT POINT t WRITES BACK to the pair array is block t of the array-level pair. -/
theorem flushed6_eq (c : Dev nD) (t : Fin cfg1.N) :
    (dat1 (F := Ideal) V c).flushed 6 t = ((cfg1.win 6).blk t).view.read (Elt Ideal)
      (RegionSpec.gateNum (V c main_arg1) (V c main_arg8) (V c main_arg9) (V c main_v1) (V c main_v2)) := by
  show (cfg1.win 6).cut (grid1.coords t) ((dat1 V c).after 6 t) = _
  rw [after1_6, out6_eq (iblk1 V c 0 t) (iblk1 V c 1 t) (iblk1 V c 2 t) (iblk1 V c 3 t) (iblk1 V c 4 t)]
  funext j
  obtain ⟨p, r, rfl⟩ : ∃ (p : Fin 2400) (r : Fin 256), j = ix2 p r := ⟨j 0, j 1, eq_ix2 j⟩
  have ht := t_lt t
  obtain ⟨-, -, -, -, -, -, -, -, -, -, -, h60, h61⟩ := idx_facts t
  have hemb : ((cfg1.win 6).blk t).view.emb (ix2 p r) = (ix2 (⟨2400 * t.val + p.val, by omega⟩ : Fin 600000) r : S600000x256.Idx) := by
    funext a
    apply Fin.ext
    match a with
    | ⟨0, _⟩ => show win1_6.index t (0 : Fin 2) * 2400 + 1 * p.val = 2400 * t.val + p.val; omega
    | ⟨1, _⟩ => show win1_6.index t (1 : Fin 2) * 256 + 1 * r.val = r.val; omega
  show gateBlk (iblk1 V c 0 t) (iblk1 V c 1 t) (iblk1 V c 2 t) (iblk1 V c 3 t) (iblk1 V c 4 t) (ix2 p r)
    = RegionSpec.gateNum (V c main_arg1) (V c main_arg8) (V c main_arg9) (V c main_v1) (V c main_v2) (((cfg1.win 6).blk t).view.emb (ix2 p r))
  rw [hemb]
  exact gate_blk (iblk1 V c 0 t) (iblk1 V c 1 t) (iblk1 V c 2 t) (iblk1 V c 3 t) (iblk1 V c 4 t)
    (V c main_arg1) (V c main_arg8) (V c main_arg9) (V c main_v1) (V c main_v2) ⟨2400 * t.val + p.val, by omega⟩ p r
    (fun k => blk0_apply V c t p k _ rfl) (fun k q => blk1_apply V c t k q) (fun q => blk2_apply V c t q)
    (fun q => blk3_apply V c t p q _ rfl) (fun r => blk4_apply V c t p r _ rfl)

/-- An index of the pair array is in point t's block iff each coordinate is in the block's range on its axis. -/
theorem mem_blk6 (t : Fin cfg1.N) (i : S600000x256.Idx) :
    i ∈ ((cfg1.win 6).blk t).view.set ↔ ∀ a : Fin 2, win1_6.index t a * S2400x256.size a ≤ (i a).val ∧ (i a).val < win1_6.index t a * S2400x256.size a + S2400x256.size a := by
  show i ∈ ((View.whole main_v3_1).slice (win1_6.rect t)).set ↔ _
  rw [View.set_slice_whole, Rect.mem_set_unit]
  exact Iff.rfl

set_option maxHeartbeats 400000 in
/-- Every row r of the pair array is in the block of point r / 2400. -/
theorem cover6 (i : S600000x256.Idx) : ∃ t : Fin cfg1.N, (cfg1.win 6).flush t = true ∧ i ∈ ((cfg1.win 6).blk t).view.set := by
  have hi0 : (i 0).val < 600000 := (i 0).isLt
  have hi1 : (i 1).val < 256 := (i 1).isLt
  have hN : cfg1.N = 250 := N_1
  have hlt : (i 0).val / 2400 < cfg1.N := by rw [hN]; omega
  obtain ⟨-, -, -, -, -, -, -, -, -, -, -, h60, h61⟩ := idx_facts ⟨(i 0).val / 2400, hlt⟩
  refine ⟨⟨(i 0).val / 2400, hlt⟩, flush1_6 _, ?_⟩
  rw [mem_blk6]
  intro a
  match a with
  | ⟨0, _⟩ =>
    show win1_6.index ⟨(i 0).val / 2400, hlt⟩ (0 : Fin 2) * 2400 ≤ (i 0).val ∧ (i 0).val < win1_6.index ⟨(i 0).val / 2400, hlt⟩ (0 : Fin 2) * 2400 + 2400
    rw [h60]
    show (i 0).val / 2400 * 2400 ≤ (i 0).val ∧ (i 0).val < (i 0).val / 2400 * 2400 + 2400
    omega
  | ⟨1, _⟩ =>
    show win1_6.index ⟨(i 0).val / 2400, hlt⟩ (1 : Fin 2) * 256 ≤ (i 1).val ∧ (i 1).val < win1_6.index ⟨(i 0).val / 2400, hlt⟩ (1 : Fin 2) * 256 + 256
    rw [h61]
    omega

theorem final6 (c : Dev nD) : (dat1 (F := Ideal) V c).arrAt 6 cfg1.N = RegionSpec.gateNum (V c main_arg1) (V c main_arg8) (V c main_arg9) (V c main_v1) (V c main_v2) :=
  (dat1 (F := Ideal) V c).arrAt_eq_of_cover 6 (RegionSpec.gateNum (V c main_arg1) (V c main_arg8) (V c main_arg9) (V c main_v1) (V c main_v2))
    (fun t _ => flushed6_eq V c t) cover6

end Cert.KernelIdeal.Reg1a

end
-- ==== Proof.KReg1b.lean ====
/-
  Region 1 (the edge update), its two statistics outputs: per block of 2400 rows, the column sums of eu and of eu²,
  in row 0 of an 8-row tile with zeros below.
-/
import proofs.«409458_j13194139533628_3_alg».proof.Proof.Gen.KernelIdeal.Frame
import proofs.«409458_j13194139533628_3_alg».proof.Proof.RegionSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Reg1b

open Idealize.ShloMosaic Idealize.ShloMosaic.TcCoe Idealize.SL.Sem Cert.KernelIdeal Cert.KernelIdeal.Gen Cert.Spec
open Idealize.ShloMosaic.ValueIdx
open scoped BigOperators

/-! ## The block product read at an index -/

private theorem lhs_mm_0 (i : S2400x128.Idx) (q : dot_S2400x128_S128x128_S2400x128_1_0_0_1_n_n.contr.Idx) :
    (dot_S2400x128_S128x128_S2400x128_1_0_0_1_n_n.lhsIdx i q 0).val = (i 0).val := by
  unfold DotDims.lhsIdx
  rw [dif_neg (show ¬(0 : Fin S2400x128.rank) ∈ dot_S2400x128_S128x128_S2400x128_1_0_0_1_n_n.lhsBatch by decide), dif_pos (show (0 : Fin S2400x128.rank) ∈ dot_S2400x128_S128x128_S2400x128_1_0_0_1_n_n.lhsNonContracting by decide)]
  rfl
private theorem lhs_mm_1 (i : S2400x128.Idx) (q : dot_S2400x128_S128x128_S2400x128_1_0_0_1_n_n.contr.Idx) :
    (dot_S2400x128_S128x128_S2400x128_1_0_0_1_n_n.lhsIdx i q 1).val = (q ⟨0, by decide⟩).val :=
  dot_S2400x128_S128x128_S2400x128_1_0_0_1_n_n.lhsIdx_val_of_single rfl i q
private theorem rhs_mm_0 (i : S2400x128.Idx) (q : dot_S2400x128_S128x128_S2400x128_1_0_0_1_n_n.contr.Idx) :
    (dot_S2400x128_S128x128_S2400x128_1_0_0_1_n_n.rhsIdx i q 0).val = (q ⟨0, by decide⟩).val :=
  dot_S2400x128_S128x128_S2400x128_1_0_0_1_n_n.rhsIdx_val_of_single rfl i q
private theorem rhs_mm_1 (i : S2400x128.Idx) (q : dot_S2400x128_S128x128_S2400x128_1_0_0_1_n_n.contr.Idx) :
    (dot_S2400x128_S128x128_S2400x128_1_0_0_1_n_n.rhsIdx i q 1).val = (i 1).val := by
  unfold DotDims.rhsIdx
  rw [dif_neg (show ¬(1 : Fin S128x128.rank) ∈ dot_S2400x128_S128x128_S2400x128_1_0_0_1_n_n.rhsBatch by decide), dif_pos (show (1 : Fin S128x128.rank) ∈ dot_S2400x128_S128x128_S2400x128_1_0_0_1_n_n.rhsNonContracting by decide)]
  rfl

/-- The block's product into a zero accumulator, at row p and column q: the sum over the 128 inner coordinates. -/
private theorem mm_apply (a : FVec Ideal S2400x128 .bf16) (b : FVec Ideal S128x128 .bf16) (p : Fin 2400) (q : Fin 128) :
    matmul (F := Ideal) dot_S2400x128_S128x128_S2400x128_1_0_0_1_n_n none a b (constant (F := Ideal) S2400x128 .f32 0x00000000#32) (ix2 p q)
      = ∑ k : Fin 128, a (ix2 p k) * b (ix2 k q) := by
  simp only [matmul]
  rw [Ideal.matmul_constant_zero_apply, ← Equiv.sum_comp (contrEquiv1 dot_S2400x128_S128x128_S2400x128_1_0_0_1_n_n 128 rfl rfl).symm]
  refine Finset.sum_congr rfl fun k _ => ?_
  have hk := contrEquiv1_symm_val dot_S2400x128_S128x128_S2400x128_1_0_0_1_n_n 128 rfl rfl k
  have el : dot_S2400x128_S128x128_S2400x128_1_0_0_1_n_n.lhsIdx (ix2 p q) ((contrEquiv1 dot_S2400x128_S128x128_S2400x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S2400x128_S128x128_S2400x128_1_0_0_1_n_n.rhsIdx (ix2 p q) ((contrEquiv1 dot_S2400x128_S128x128_S2400x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-! ## The edge update of a block, at an index -/

/-- eu of a block of 2400 rows at row p, column q, from the blocks the body loads. -/
private theorem pay2_apply (x0 : Vec Ideal S2400x128 .f32) (x1 : Vec Ideal S128x128 .f32) (x5 : Vec Ideal S2400x128 .f32) (x9 : Vec Ideal S2400x128 .f32)
    (x12 : Vec Ideal S128 .f32) (p : Fin 2400) (q : Fin 128) :
    k1_pay2 (F := Ideal) x0 x1 x5 x9 x12 (ix2 p q)
      = ((∑ k : Fin 128, x0 (ix2 p k) * x1 (ix2 k q)) + x12 (ix1 q)) + (x9 (ix2 p q) + x5 (ix2 p q)) := by
  unfold k1_pay2
  simp only [addf_apply, shapeCast_self]
  rw [mm_apply, broadcastTo_1b_ab_apply, shapeCast_a_1a_apply]
  simp only [truncf_apply]

/-! ## The column sums in row 0 of the tile -/

/-- A select on "coordinate r is 0", r below 8, is the if on r. -/
private theorem select_row0 {α : Type} (r : Fin 8) (A B : α) :
    Scalar.select (IntOp.cmpi .eq (BitVec.ofNat 32 r.val) 0#32) A B = if r.val = 0 then A else B := by
  have hr := r.isLt
  generalize r.val = h at hr
  interval_cases h <;> rfl

/-- The sum over the 2400 rows of a block, at column q. -/
private theorem colsum_apply (src : FVec Ideal S2400x128 .f32) (q : Fin 128) :
    multiReduction (F := Ideal) .add [0] S128 src 0x00000000#32 reduces_S2400x128_S128 (.inl rfl) rfl (ix1 q)
      = ∑ k : Fin 2400, src (ix2 k q) := by
  refine (Ideal.multiReduction_add_single src 0x00000000#32 reduces_S2400x128_S128 (.inl rfl) rfl (ix1 q)).trans ?_
  refine Finset.sum_congr rfl fun k _ => congrArg src (funext fun c => Fin.ext ?_)
  match c with
  | ⟨0, _⟩ => rfl
  | ⟨1, _⟩ => rfl

/-- A column sum laid out in the tile: row 0 the sum, rows 1..7 zero. -/
private theorem tile_apply (src : FVec Ideal S2400x128 .f32) (u : Fin 1) (r : Fin 8) (q : Fin 128) :
    (shapeCast S1x8x128 (select (cmpi .eq (iota .tc S8x128 32 [0] iota_S8x128_d0_w32) (broadcast S8x128 0#32))
        (broadcastTo S8x128 (shapeCast S1x128 (shapeCast S1x128
          (multiReduction (F := Ideal) .add [0] S128 src 0x00000000#32 reduces_S2400x128_S128 (.inl rfl) rfl)
          shapeCasts_S128_S1x128) shapeCasts_S1x128_S1x128) broadcasts_S1x128_S8x128)
        (broadcast S8x128 (Scalar.ofBits (F := Ideal) .f32 0x00000000#32))) shapeCasts_S8x128_S1x8x128 : FVec Ideal S1x8x128 .f32) (ix3 u r q)
      = if r.val = 0 then ∑ k : Fin 2400, src (ix2 k q) else 0 := by
  rw [shapeCast_ab_1ab_apply, select_apply, broadcastTo_1b_ab_apply, shapeCast_self, shapeCast_a_1a_apply, colsum_apply]
  show Scalar.select (IntOp.cmpi .eq (iota .tc S8x128 32 [0] iota_S8x128_d0_w32 (ix2 r q)) 0#32) _ (Ideal.ofBits .f32 0x00000000#32) = _
  rw [iota_single_apply, Ideal.ofBits_zero_f32]
  exact select_row0 r _ _

/-- The tile of the column sums of eu over a block. -/
private theorem pay6_apply (x0 : Vec Ideal S2400x128 .f32) (x1 : Vec Ideal S128x128 .f32) (x5 : Vec Ideal S2400x128 .f32) (x9 : Vec Ideal S2400x128 .f32)
    (x12 : Vec Ideal S128 .f32) (u : Fin 1) (r : Fin 8) (q : Fin 128) :
    k1_pay6 (F := Ideal) x0 x1 x5 x9 x12 (ix3 u r q)
      = if r.val = 0 then ∑ k : Fin 2400, k1_pay2 (F := Ideal) x0 x1 x5 x9 x12 (ix2 k q) else 0 := by
  unfold k1_pay6
  exact tile_apply _ u r q

/-- The tile of the column sums of a block's squares. -/
private theorem pay1_apply (v : FVec Ideal S2400x128 .f32) (u : Fin 1) (r : Fin 8) (q : Fin 128) :
    k1_pay1 (F := Ideal) v (ix3 u r q) = if r.val = 0 then ∑ k : Fin 2400, v (ix2 k q) * v (ix2 k q) else 0 := by
  unfold k1_pay1
  exact tile_apply _ u r q

/-! ## The blocks of the region's inputs, as rows of the arrays -/

-- the buffer contents on entry to the region
variable (V : (c : Dev nD) → (b : Ref sig .tc) → Buf (Elt Ideal) ((c : Thread nD τ).loc b))

private theorem hz1 : (![0] : Fin 1 → Nat) = fun _ => 0 := funext fun a => by fin_cases a <;> rfl
private theorem hz2 : (![0, 0] : Fin 2 → Nat) = fun _ => 0 := funext fun a => by fin_cases a <;> rfl
private theorem hz3 : (![0, 0, 0] : Fin 3 → Nat) = fun _ => 0 := funext fun a => by fin_cases a <;> rfl

/-- The printed index maps, decided over the grid: the row-blocked windows sit at block t of their rows, the weights and
    the bias at their one block, the two statistics outputs at tile t. -/
private theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0
    ∧ win1_4.index t (0 : Fin 2) = t.val ∧ win1_4.index t (1 : Fin 2) = 0
    ∧ win1_7.index t (0 : Fin 3) = t.val ∧ win1_7.index t (1 : Fin 3) = 0 ∧ win1_7.index t (2 : Fin 3) = 0
    ∧ win1_8.index t (0 : Fin 3) = t.val ∧ win1_8.index t (1 : Fin 3) = 0 ∧ win1_8.index t (2 : Fin 3) = 0 :=
  (by decide +kernel : ∀ t : Fin grid1.N, _)

/-- The block of the edge features at point t: rows 2400·t … of the array. -/
private theorem blk0_apply (c : Dev nD) (t : Fin cfg1.N) (b : Fin 250) (hb : b.val = t.val) (p : Fin 2400) (q : Fin 128) :
    (iblk1 (F := Ideal) V c 0 t : Vec Ideal S2400x128 .f32) (ix2 p q) = (V c main_arg1 : S600000x128.Idx → EReal) (ix2 (rowE b p) q) := by
  obtain ⟨e0, e1, -⟩ := idx_facts t
  unfold iblk1
  rw [View.read_apply]
  show V c main_arg1 _ = V c main_arg1 _
  congr 1
  funext a
  apply Fin.ext
  match a with
  | ⟨0, _⟩ => show win1_0.index t (0 : Fin 2) * 2400 + 1 * p.val = 2400 * b.val + p.val; rw [e0, hb]; omega
  | ⟨1, _⟩ => show win1_0.index t (1 : Fin 2) * 128 + 1 * q.val = q.val; rw [e1]; omega

/-- The weights' one block is the array. -/
private theorem blk1_apply (c : Dev nD) (t : Fin cfg1.N) (k : Fin 128) (q : Fin 128) :
    (iblk1 (F := Ideal) V c 1 t : Vec Ideal S128x128 .f32) (ix2 k q) = (V c main_arg8 : S128x128.Idx → EReal) (ix2 k q) := by
  obtain ⟨-, -, e0, e1, -⟩ := idx_facts t
  unfold iblk1
  rw [View.read_apply]
  show V c main_arg8 _ = V c main_arg8 _
  congr 1
  funext a
  apply Fin.ext
  match a with
  | ⟨0, _⟩ => show win1_1.index t (0 : Fin 2) * 128 + 1 * k.val = k.val; rw [e0]; omega
  | ⟨1, _⟩ => show win1_1.index t (1 : Fin 2) * 128 + 1 * q.val = q.val; rw [e1]; omega

/-- The bias's one block is the array. -/
private theorem blk2_apply (c : Dev nD) (t : Fin cfg1.N) (q : Fin 128) :
    (iblk1 (F := Ideal) V c 2 t : Vec Ideal S128 .f32) (ix1 q) = (V c main_arg9 : S128.Idx → EReal) (ix1 q) := by
  obtain ⟨-, -, -, -, e0, -⟩ := idx_facts t
  unfold iblk1
  rw [View.read_apply]
  show V c main_arg9 _ = V c main_arg9 _
  congr 1
  funext a
  apply Fin.ext
  match a with
  | ⟨0, _⟩ => show win1_2.index t (0 : Fin 1) * 128 + 1 * q.val = q.val; rw [e0]; omega

/-- The block of the gathered source rows at point t. -/
private theorem blk3_apply (c : Dev nD) (t : Fin cfg1.N) (b : Fin 250) (hb : b.val = t.val) (p : Fin 2400) (q : Fin 128) :
    (iblk1 (F := Ideal) V c 3 t : Vec Ideal S2400x128 .f32) (ix2 p q) = (V c main_v1 : S600000x128.Idx → EReal) (ix2 (rowE b p) q) := by
  obtain ⟨-, -, -, -, -, e0, e1, -⟩ := idx_facts t
  unfold iblk1
  rw [View.read_apply]
  show V c main_v1 _ = V c main_v1 _
  congr 1
  funext a
  apply Fin.ext
  match a with
  | ⟨0, _⟩ => show win1_3.index t (0 : Fin 2) * 2400 + 1 * p.val = 2400 * b.val + p.val; rw [e0, hb]; omega
  | ⟨1, _⟩ => show win1_3.index t (1 : Fin 2) * 128 + 1 * q.val = q.val; rw [e1]; omega

/-- The left half of the block of the gathered destination rows at point t. -/
private theorem blk4L_apply (c : Dev nD) (t : Fin cfg1.N) (b : Fin 250) (hb : b.val = t.val) (p : Fin 2400) (q : Fin 128) :
    (View.ld (iblk1 (F := Ideal) V c 4 t : Vec Ideal S2400x256 .f32) r1_2 : Vec Ideal S2400x128 .f32) (ix2 p q)
      = (V c main_v2 : S600000x256.Idx → EReal) (ix2 (rowE b p) (colL q)) := by
  obtain ⟨-, -, -, -, -, -, -, e0, e1, -⟩ := idx_facts t
  show iblk1 (F := Ideal) V c 4 t (r1_2.emb (ix2 p q)) = _
  unfold iblk1
  rw [View.read_apply]
  show V c main_v2 _ = V c main_v2 _
  congr 1
  funext a
  apply Fin.ext
  match a with
  | ⟨0, _⟩ => show win1_4.index t (0 : Fin 2) * 2400 + 1 * (0 + 1 * p.val) = 2400 * b.val + p.val; rw [e0, hb]; omega
  | ⟨1, _⟩ => show win1_4.index t (1 : Fin 2) * 256 + 1 * (0 + 1 * q.val) = q.val; rw [e1]; omega

/-- eu of the block at point t is eu of rows 2400·t … of the arrays. -/
private theorem pay2_block (c : Dev nD) (t : Fin cfg1.N) (b : Fin 250) (hb : b.val = t.val) (p : Fin 2400) (q : Fin 128) :
    k1_pay2 (F := Ideal) (iblk1 (F := Ideal) V c 0 t) (iblk1 (F := Ideal) V c 1 t) (View.ld (iblk1 (F := Ideal) V c 4 t) r1_2)
        (iblk1 (F := Ideal) V c 3 t) (iblk1 (F := Ideal) V c 2 t) (ix2 p q)
      = RegionSpec.euG (V c main_arg1) (V c main_arg8) (V c main_arg9) (V c main_v1) (V c main_v2) (rowE b p) q := by
  rw [pay2_apply, blk2_apply, blk3_apply V c t b hb, blk4L_apply V c t b hb]
  unfold RegionSpec.euG linE
  congr 2
  refine Finset.sum_congr rfl fun k _ => ?_
  rw [blk0_apply V c t b hb, blk1_apply]

/-! ## Output window 7: the column sums of eu per block -/

/-- WHAT POINT t WRITES BACK into the sums' array is tile t of the partial sums of eu. -/
private theorem flushed7_eq (c : Dev nD) (t : Fin cfg1.N) :
    (dat1 (F := Ideal) V c).flushed 7 t = ((cfg1.win 7).blk t).view.read (Elt Ideal)
      (RegionSpec.psumE (V c main_arg1) (V c main_arg8) (V c main_arg9) (V c main_v1) (V c main_v2)) := by
  show (cfg1.win 7).cut (grid1.coords t) ((dat1 (F := Ideal) V c).after 7 t) = _
  rw [after1_7]
  unfold out1_7
  rw [View.canon_unit_zero hz3]
  simp only [View.ld_unit_zero (S := S2400x128) hz2, View.ld_unit_zero (S := S128x128) hz2, View.ld_unit_zero (S := S128) hz1]
  obtain ⟨-, -, -, -, -, -, -, -, -, e0, e1, e2, -⟩ := idx_facts t
  funext j
  have hj0 : (j 0).val < 1 := (j 0).isLt
  have hj1 : (j 1).val < 8 := (j 1).isLt
  have hj2 : (j 2).val < 128 := (j 2).isLt
  have ht : t.val < 250 := Nat.lt_of_lt_of_eq t.isLt (show cfg1.N = 250 from N_1)
  have ej : (cfg1.win 7).xinj (grid1.coords t) j = ix3 (⟨(j 0).val, hj0⟩ : Fin 1) (⟨(j 1).val, hj1⟩ : Fin 8) (⟨(j 2).val, hj2⟩ : Fin 128) :=
    funext fun a => match a with | ⟨0, _⟩ => rfl | ⟨1, _⟩ => rfl | ⟨2, _⟩ => rfl
  have ei : ((cfg1.win 7).blk t).view.emb j = ix3 (⟨t.val, ht⟩ : Fin 250) (⟨(j 1).val, hj1⟩ : Fin 8) (⟨(j 2).val, hj2⟩ : Fin 128) := by
    funext a
    apply Fin.ext
    match a with
    | ⟨0, _⟩ => show win1_7.index t (0 : Fin 3) * 1 + 1 * (j 0).val = t.val; rw [e0]; omega
    | ⟨1, _⟩ => show win1_7.index t (1 : Fin 3) * 8 + 1 * (j 1).val = (j 1).val; rw [e1]; omega
    | ⟨2, _⟩ => show win1_7.index t (2 : Fin 3) * 128 + 1 * (j 2).val = (j 2).val; rw [e2]; omega
  show k1_pay6 (F := Ideal) _ _ _ _ _ ((cfg1.win 7).xinj (grid1.coords t) j) = RegionSpec.psumE _ _ _ _ _ (((cfg1.win 7).blk t).view.emb j)
  rw [ej, ei, pay6_apply]
  show _ = partialE _ (⟨t.val, ht⟩ : Fin 250) (⟨(j 1).val, hj1⟩ : Fin 8) (⟨(j 2).val, hj2⟩ : Fin 128)
  unfold partialE
  refine if_congr Iff.rfl (Finset.sum_congr rfl fun k _ => ?_) rfl
  exact pay2_block V c t ⟨t.val, ht⟩ rfl k _

/-- An index of the sums' array is in point t's tile iff each coordinate is in the tile's range on its axis. -/
private theorem mem_blk7 (t : Fin cfg1.N) (i : S250x8x128.Idx) :
    i ∈ ((cfg1.win 7).blk t).view.set ↔ ∀ a : Fin 3, win1_7.index t a * S1x8x128.size a ≤ (i a).val ∧ (i a).val < win1_7.index t a * S1x8x128.size a + S1x8x128.size a := by
  show i ∈ ((View.whole main_v3_2).slice (win1_7.rect t)).set ↔ _
  rw [View.set_slice_whole, Rect.mem_set_unit]
  exact Iff.rfl

/-- Every index of the sums' array lies in the tile of the point its first coordinate names. -/
private theorem cover7 (i : S250x8x128.Idx) : ∃ t : Fin cfg1.N, (cfg1.win 7).flush t = true ∧ i ∈ ((cfg1.win 7).blk t).view.set := by
  have hi0 : (i 0).val < 250 := (i 0).isLt
  have hi1 : (i 1).val < 8 := (i 1).isLt
  have hi2 : (i 2).val < 128 := (i 2).isLt
  obtain ⟨t, htv⟩ : ∃ t : Fin cfg1.N, t.val = (i 0).val := ⟨⟨(i 0).val, Nat.lt_of_lt_of_eq hi0 (show 250 = cfg1.N from N_1.symm)⟩, rfl⟩
  obtain ⟨-, -, -, -, -, -, -, -, -, e0, e1, e2, -⟩ := idx_facts t
  refine ⟨t, flush1_7 t, ?_⟩
  rw [mem_blk7]
  intro a
  match a with
  | ⟨0, _⟩ => show win1_7.index t (0 : Fin 3) * 1 ≤ (i 0).val ∧ (i 0).val < win1_7.index t (0 : Fin 3) * 1 + 1; rw [e0]; omega
  | ⟨1, _⟩ => show win1_7.index t (1 : Fin 3) * 8 ≤ (i 1).val ∧ (i 1).val < win1_7.index t (1 : Fin 3) * 8 + 8; rw [e1]; omega
  | ⟨2, _⟩ => show win1_7.index t (2 : Fin 3) * 128 ≤ (i 2).val ∧ (i 2).val < win1_7.index t (2 : Fin 3) * 128 + 128; rw [e2]; omega

theorem final7 (c : Dev nD) : (dat1 (F := Ideal) V c).arrAt 7 cfg1.N = RegionSpec.psumE (V c main_arg1) (V c main_arg8) (V c main_arg9) (V c main_v1) (V c main_v2) :=
  (dat1 (F := Ideal) V c).arrAt_eq_of_cover 7 _ (fun t _ => flushed7_eq V c t) cover7

/-! ## Output window 8: the column sums of eu² per block -/

/-- WHAT POINT t WRITES BACK into the squares' sums' array is tile t of the partial sums of eu². -/
private theorem flushed8_eq (c : Dev nD) (t : Fin cfg1.N) :
    (dat1 (F := Ideal) V c).flushed 8 t = ((cfg1.win 8).blk t).view.read (Elt Ideal)
      (RegionSpec.psumsqE (V c main_arg1) (V c main_arg8) (V c main_arg9) (V c main_v1) (V c main_v2)) := by
  show (cfg1.win 8).cut (grid1.coords t) ((dat1 (F := Ideal) V c).after 8 t) = _
  rw [after1_8]
  unfold out1_8
  rw [View.canon_unit_zero hz3]
  simp only [View.ld_unit_zero (S := S2400x128) hz2, View.ld_unit_zero (S := S128x128) hz2, View.ld_unit_zero (S := S128) hz1]
  obtain ⟨-, -, -, -, -, -, -, -, -, -, -, -, e0, e1, e2⟩ := idx_facts t
  funext j
  have hj0 : (j 0).val < 1 := (j 0).isLt
  have hj1 : (j 1).val < 8 := (j 1).isLt
  have hj2 : (j 2).val < 128 := (j 2).isLt
  have ht : t.val < 250 := Nat.lt_of_lt_of_eq t.isLt (show cfg1.N = 250 from N_1)
  have ej : (cfg1.win 8).xinj (grid1.coords t) j = ix3 (⟨(j 0).val, hj0⟩ : Fin 1) (⟨(j 1).val, hj1⟩ : Fin 8) (⟨(j 2).val, hj2⟩ : Fin 128) :=
    funext fun a => match a with | ⟨0, _⟩ => rfl | ⟨1, _⟩ => rfl | ⟨2, _⟩ => rfl
  have ei : ((cfg1.win 8).blk t).view.emb j = ix3 (⟨t.val, ht⟩ : Fin 250) (⟨(j 1).val, hj1⟩ : Fin 8) (⟨(j 2).val, hj2⟩ : Fin 128) := by
    funext a
    apply Fin.ext
    match a with
    | ⟨0, _⟩ => show win1_8.index t (0 : Fin 3) * 1 + 1 * (j 0).val = t.val; rw [e0]; omega
    | ⟨1, _⟩ => show win1_8.index t (1 : Fin 3) * 8 + 1 * (j 1).val = (j 1).val; rw [e1]; omega
    | ⟨2, _⟩ => show win1_8.index t (2 : Fin 3) * 128 + 1 * (j 2).val = (j 2).val; rw [e2]; omega
  show k1_pay1 (F := Ideal) _ ((cfg1.win 8).xinj (grid1.coords t) j) = RegionSpec.psumsqE _ _ _ _ _ (((cfg1.win 8).blk t).view.emb j)
  rw [ej, ei, pay1_apply]
  show _ = partialE _ (⟨t.val, ht⟩ : Fin 250) (⟨(j 1).val, hj1⟩ : Fin 8) (⟨(j 2).val, hj2⟩ : Fin 128)
  unfold partialE
  refine if_congr Iff.rfl (Finset.sum_congr rfl fun k _ => ?_) rfl
  have h := pay2_block V c t ⟨t.val, ht⟩ rfl k (⟨(j 2).val, hj2⟩ : Fin 128)
  exact congrArg₂ (· * ·) h h

/-- An index of the squares' sums' array is in point t's tile iff each coordinate is in the tile's range on its axis. -/
private theorem mem_blk8 (t : Fin cfg1.N) (i : S250x8x128.Idx) :
    i ∈ ((cfg1.win 8).blk t).view.set ↔ ∀ a : Fin 3, win1_8.index t a * S1x8x128.size a ≤ (i a).val ∧ (i a).val < win1_8.index t a * S1x8x128.size a + S1x8x128.size a := by
  show i ∈ ((View.whole main_v3_3).slice (win1_8.rect t)).set ↔ _
  rw [View.set_slice_whole, Rect.mem_set_unit]
  exact Iff.rfl

/-- Every index of the squares' sums' array lies in the tile of the point its first coordinate names. -/
private theorem cover8 (i : S250x8x128.Idx) : ∃ t : Fin cfg1.N, (cfg1.win 8).flush t = true ∧ i ∈ ((cfg1.win 8).blk t).view.set := by
  have hi0 : (i 0).val < 250 := (i 0).isLt
  have hi1 : (i 1).val < 8 := (i 1).isLt
  have hi2 : (i 2).val < 128 := (i 2).isLt
  obtain ⟨t, htv⟩ : ∃ t : Fin cfg1.N, t.val = (i 0).val := ⟨⟨(i 0).val, Nat.lt_of_lt_of_eq hi0 (show 250 = cfg1.N from N_1.symm)⟩, rfl⟩
  obtain ⟨-, -, -, -, -, -, -, -, -, -, -, -, e0, e1, e2⟩ := idx_facts t
  refine ⟨t, flush1_8 t, ?_⟩
  rw [mem_blk8]
  intro a
  match a with
  | ⟨0, _⟩ => show win1_8.index t (0 : Fin 3) * 1 ≤ (i 0).val ∧ (i 0).val < win1_8.index t (0 : Fin 3) * 1 + 1; rw [e0]; omega
  | ⟨1, _⟩ => show win1_8.index t (1 : Fin 3) * 8 ≤ (i 1).val ∧ (i 1).val < win1_8.index t (1 : Fin 3) * 8 + 8; rw [e1]; omega
  | ⟨2, _⟩ => show win1_8.index t (2 : Fin 3) * 128 ≤ (i 2).val ∧ (i 2).val < win1_8.index t (2 : Fin 3) * 128 + 128; rw [e2]; omega

theorem final8 (c : Dev nD) : (dat1 (F := Ideal) V c).arrAt 8 cfg1.N = RegionSpec.psumsqE (V c main_arg1) (V c main_arg8) (V c main_arg9) (V c main_v1) (V c main_v2) :=
  (dat1 (F := Ideal) V c).arrAt_eq_of_cover 8 _ (fun t _ => flushed8_eq V c t) cover8

end Cert.KernelIdeal.Reg1b

end
-- ==== Proof.KReg2a.lean ====
/-
  Region 2 (the node gate): nfu = n_ns + num / (den + ε₆), rowwise, from the pair (num | den) and n_ns.
-/
import proofs.«409458_j13194139533628_3_alg».proof.Proof.Gen.KernelIdeal.Frame
import proofs.«409458_j13194139533628_3_alg».proof.Proof.RegionSpec
import Idealize.ShloMosaic.Lib.Pipeline.Value

noncomputable section

namespace Cert.KernelIdeal.Reg2a

open Idealize.ShloMosaic Idealize.ShloMosaic.TcCoe Idealize.SL.Sem Cert.KernelIdeal Cert.KernelIdeal.Gen Cert.Spec

-- the buffer contents on entry to the region
variable (V : (c : Dev nD) → (b : Ref sig .tc) → Buf (Elt Ideal) ((c : Thread nD τ).loc b))

open Idealize.ShloMosaic.ValueIdx

/-- The zero offsets of a whole block, as a constant function. -/
theorem hz : (![0, 0] : Fin 2 → Nat) = fun _ => 0 := funext fun a => by fin_cases a <;> rfl

/-- The block's element at an index: n_ns there plus the quotient of the left half by the right half plus ε₆. -/
theorem pay1_apply (x0 x1 x2 : Vec Ideal S2000x128 .f32) (j : S2000x128.Idx) :
    k2_pay1 (F := Ideal) x0 x1 x2 j = x2 j + Ideal.div (x0 j) (x1 j + eps6) := by
  unfold k2_pay1
  simp only [shapeCast_self]
  rfl

/-- The node update read where the three blocks' elements sit in their arrays. -/
theorem nfu_at (C : Arr SN2F) (NNS : Arr SNF) (a : SNF.Idx) (bL bR : SN2F.Idx) (i : SNF.Idx)
    (h1 : a = i) (hL : bL = ix2 (i 0) (colL (i 1))) (hR : bR = ix2 (i 0) (colR (i 1))) :
    NNS a + Ideal.div (C bL) (C bR + eps6) = RegionSpec.nfuArr C NNS i := by
  subst h1 hL hR
  exact congrArg (fun z => NNS z + Ideal.div (C (ix2 (a 0) (colL (a 1)))) (C (ix2 (a 0) (colR (a 1))) + eps6)) (eq_ix2 a)

/-- The three windows' block indices at a grid point: the point's number on the row axis, zero on the column axis. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

set_option maxHeartbeats 400000 in
/-- What point t writes back is block t of the node update of the two arrays the region reads: the block's row p is row
    2000·t + p of each array, the left and right halves of the 256-wide row are its columns q and 128 + q. -/
theorem flushed_eq (c : Dev nD) (t : Fin cfg2.N) :
    (dat2 (F := Ideal) V c).flushed 2 t = ((cfg2.win 2).blk t).view.read (Elt Ideal) (RegionSpec.nfuArr (V c main_v6) (V c main_v0_2)) := by
  show (cfg2.win 2).cut (grid2.coords t) ((dat2 (F := Ideal) V c).after 2 t) = _
  rw [after2_2]
  unfold out2_2
  rw [View.canon_unit_zero hz]
  simp only [View.ld_unit_zero (S := S2000x128) hz]
  obtain ⟨e00, e01, e10, e11, e20, e21⟩ := idx_facts t
  funext j
  refine (pay1_apply _ _ _ j).trans ?_
  have h1 : ((cfg2.win 1).blk t).view.emb j = ((cfg2.win 2).blk t).view.emb j := by
    funext a; apply Fin.ext
    match a with
    | ⟨0, _⟩ => show win2_1.index t (0 : Fin 2) * 2000 + 1 * (j 0).val = win2_2.index t (0 : Fin 2) * 2000 + 1 * (j 0).val; omega
    | ⟨1, _⟩ => show win2_1.index t (1 : Fin 2) * 128 + 1 * (j 1).val = win2_2.index t (1 : Fin 2) * 128 + 1 * (j 1).val; omega
  have h0L : ((cfg2.win 0).blk t).view.emb (r2_0.emb j)
      = ix2 ((((cfg2.win 2).blk t).view.emb j) 0) (colL ((((cfg2.win 2).blk t).view.emb j) 1)) := by
    funext a; apply Fin.ext
    match a with
    | ⟨0, _⟩ => show win2_0.index t (0 : Fin 2) * 2000 + 1 * (0 + 1 * (j 0).val) = win2_2.index t (0 : Fin 2) * 2000 + 1 * (j 0).val; omega
    | ⟨1, _⟩ => show win2_0.index t (1 : Fin 2) * 256 + 1 * (0 + 1 * (j 1).val) = win2_2.index t (1 : Fin 2) * 128 + 1 * (j 1).val; omega
  have h0R : ((cfg2.win 0).blk t).view.emb (r2_1.emb j)
      = ix2 ((((cfg2.win 2).blk t).view.emb j) 0) (colR ((((cfg2.win 2).blk t).view.emb j) 1)) := by
    funext a; apply Fin.ext
    match a with
    | ⟨0, _⟩ => show win2_0.index t (0 : Fin 2) * 2000 + 1 * (0 + 1 * (j 0).val) = win2_2.index t (0 : Fin 2) * 2000 + 1 * (j 0).val; omega
    | ⟨1, _⟩ => show win2_0.index t (1 : Fin 2) * 256 + 1 * (128 + 1 * (j 1).val) = 128 + (win2_2.index t (1 : Fin 2) * 128 + 1 * (j 1).val); omega
  exact nfu_at (V c main_v6) (V c main_v0_2) (((cfg2.win 1).blk t).view.emb j)
    (((cfg2.win 0).blk t).view.emb (r2_0.emb j)) (((cfg2.win 0).blk t).view.emb (r2_1.emb j))
    (((cfg2.win 2).blk t).view.emb j) h1 h0L h0R

/-- An index of the array is in point t's block iff each coordinate is in the block's range on its axis. -/
theorem mem_blk (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v7_0).slice (win2_2.rect t)).set ↔ _
  rw [View.set_slice_whole, Rect.mem_set_unit]
  exact Iff.rfl

/-- Row r of the array lies in the block of point r / 2000. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ : ∃ t : Fin cfg2.N, t.val = (i 0).val / 2000 :=
    ⟨⟨(i 0).val / 2000, by show (i 0).val / 2000 < 50; omega⟩, rfl⟩
  obtain ⟨e00, e01, e10, e11, e20, e21⟩ := idx_facts t
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- The blocks of the 50 points tile the rows, so the array ends holding the node update everywhere. -/
theorem final2 (c : Dev nD) : (dat2 (F := Ideal) V c).arrAt 2 cfg2.N = RegionSpec.nfuArr (V c main_v6) (V c main_v0_2) :=
  (dat2 (F := Ideal) V c).arrAt_eq_of_cover 2 (RegionSpec.nfuArr (V c main_v6) (V c main_v0_2))
    (fun t _ => flushed_eq V c t) cover

end Cert.KernelIdeal.Reg2a

end
-- ==== Proof.KReg2b.lean ====
/-
  Region 2 (the node gate), its two statistics outputs: per block of 2000 rows, the column sums of nfu and of nfu²,
  in row 0 of an 8-row tile with zeros below.
-/
import proofs.«409458_j13194139533628_3_alg».proof.Proof.Gen.KernelIdeal.Frame
import proofs.«409458_j13194139533628_3_alg».proof.Proof.RegionSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Reg2b

open Idealize.ShloMosaic Idealize.ShloMosaic.TcCoe Idealize.SL.Sem Cert.KernelIdeal Cert.KernelIdeal.Gen Cert.Spec
open Idealize.ShloMosaic.ValueIdx
open scoped BigOperators

/-! ## The body's values at an index of the block -/

/-- The node update of one block at row p, feature q: n_ns + num / (den + ε₆) of the block's own rows. -/
theorem nfu_blk (v0 v2 v7 : Vec Ideal S2000x128 .f32) (p : Fin 2000) (q : Fin 128) :
    k2_pay1 (F := Ideal) v0 v2 v7 (ix2 p q) = v7 (ix2 p q) + Ideal.div (v0 (ix2 p q)) (v2 (ix2 p q) + eps6) := by
  unfold k2_pay1
  simp only [shapeCast_self]
  rfl

/-- The reduced index q with row k put back is (k, q). -/
theorem lift_row (h : S2000x128.Reduces [0] S128) (q : Fin 128) (k : Fin (S2000x128.size 0)) :
    h.lift (ix1 q) k = ix2 (⟨k.val, k.isLt⟩ : Fin 2000) q := by
  funext c; apply Fin.ext
  fin_cases c <;> rfl

/-- A sum over axis 0 from the zero word, read at column q, is the column's sum over the block's 2000 rows. -/
theorem colsum (src : FVec Ideal S2000x128 .f32) (h : S2000x128.Reduces [0] S128) (hφ : FKind.Formats .f32)
    (hacc : (0x00000000#32 : BitVec 32) = FKind.add.neutral .f32 hφ) (q : Fin 128) :
    multiReduction (F := Ideal) .add [0] S128 src 0x00000000#32 h hφ hacc (ix1 q) = ∑ p : Fin 2000, src (ix2 p q) := by
  refine (Ideal.multiReduction_add_single src 0x00000000#32 h hφ hacc (ix1 q)).trans ?_
  exact Finset.sum_congr rfl fun k _ => congrArg src (lift_row h q k)

/-- The mask "row r of the tile is row 0", on a select. -/
theorem select_row0 {α : Type} (r : Fin 8) (A B : α) :
    Scalar.select (IntOp.cmpi .eq (BitVec.ofNat 32 r.val) 0#32) A B = if r.val = 0 then A else B := by
  fin_cases r <;> rfl

/-- A 128-vector placed in row 0 of a [1, 8, 128] tile, zeros below, read at (u, r, q). -/
theorem tile_row0 (w : FVec Ideal S128 .f32) (u : Fin 1) (r : Fin 8) (q : Fin 128) :
    shapeCast S1x8x128
      (select (cmpi .eq (iota .tc S8x128 32 [0] iota_S8x128_d0_w32) (broadcast S8x128 0#32))
        (broadcastTo S8x128 (shapeCast S1x128 (shapeCast S1x128 w shapeCasts_S128_S1x128) shapeCasts_S1x128_S1x128) broadcasts_S1x128_S8x128)
        (broadcast S8x128 (Scalar.ofBits (F := Ideal) .f32 0x00000000#32))) shapeCasts_S8x128_S1x8x128 (ix3 u r q)
      = if r.val = 0 then w (ix1 q) else 0 := by
  refine (shapeCast_ab_1ab_apply _ _ u r q).trans ?_
  rw [select_apply]
  show Scalar.select (IntOp.cmpi .eq (iota .tc S8x128 32 [0] iota_S8x128_d0_w32 (ix2 r q)) 0#32) _ (Scalar.ofBits (F := Ideal) .f32 0x00000000#32) = _
  rw [iota_single_apply]
  show Scalar.select (IntOp.cmpi .eq (BitVec.ofNat 32 r.val) 0#32) _ _ = _
  rw [select_row0, broadcastTo_1b_ab_apply, shapeCast_self, shapeCast_a_1a_apply]
  congr 1
  exact Ideal.ofBits_zero_f32

/-- The first statistics tile: row 0 holds the column sums of the block's node update, rows 1..7 zero. -/
theorem psum_blk (v0 v2 v7 : Vec Ideal S2000x128 .f32) (u : Fin 1) (r : Fin 8) (q : Fin 128) :
    k2_pay2 (F := Ideal) v0 v2 v7 (ix3 u r q)
      = if r.val = 0 then ∑ p : Fin 2000, k2_pay1 (F := Ideal) v0 v2 v7 (ix2 p q) else 0 := by
  unfold k2_pay2
  refine (tile_row0 _ u r q).trans ?_
  congr 1
  exact colsum _ _ _ _ q

/-- The second statistics tile: the same of the squares. -/
theorem psumsq_blk (v0 v2 v7 : Vec Ideal S2000x128 .f32) (u : Fin 1) (r : Fin 8) (q : Fin 128) :
    k2_pay3 (F := Ideal) v0 v2 v7 (ix3 u r q)
      = if r.val = 0 then ∑ p : Fin 2000, k2_pay1 (F := Ideal) v0 v2 v7 (ix2 p q) * k2_pay1 (F := Ideal) v0 v2 v7 (ix2 p q) else 0 := by
  unfold k2_pay3
  refine (tile_row0 _ u r q).trans ?_
  congr 1
  exact colsum _ _ _ _ q

/-! ## The body's three loads, at an index -/

/-- The left half of the 256-wide block: column q. -/
theorem ld_left (x0 : Vec Ideal S2000x256 .f32) (p : Fin 2000) (q : Fin 128) :
    View.ld x0 r2_0 (ix2 p q) = x0 (ix2 p (colL q)) := by
  show x0 _ = x0 _
  congr 1
  funext a; apply Fin.ext
  match a with
  | ⟨0, _⟩ => show 0 + 1 * p.val = p.val; omega
  | ⟨1, _⟩ => show 0 + 1 * q.val = q.val; omega

/-- The right half of the 256-wide block: column 128 + q. -/
theorem ld_right (x0 : Vec Ideal S2000x256 .f32) (p : Fin 2000) (q : Fin 128) :
    View.ld x0 r2_1 (ix2 p q) = x0 (ix2 p (colR q)) := by
  show x0 _ = x0 _
  congr 1
  funext a; apply Fin.ext
  match a with
  | ⟨0, _⟩ => show 0 + 1 * p.val = p.val; omega
  | ⟨1, _⟩ => show 128 + 1 * q.val = 128 + q.val; omega

/-- The whole 128-wide block. -/
theorem ld_all (x1 : Vec Ideal S2000x128 .f32) (p : Fin 2000) (q : Fin 128) :
    View.ld x1 r2_2 (ix2 p q) = x1 (ix2 p q) := by
  show x1 _ = x1 _
  congr 1
  funext a; apply Fin.ext
  match a with
  | ⟨0, _⟩ => show 0 + 1 * p.val = p.val; omega
  | ⟨1, _⟩ => show 0 + 1 * q.val = q.val; omega

/-- The block's node update is the array's at the block's rows, when the two input blocks are the arrays' rows. -/
theorem nfu_of_rows (x0 : Vec Ideal S2000x256 .f32) (x1 : Vec Ideal S2000x128 .f32) (C : Arr SN2F) (NNS : Arr SNF) (b : Fin 50)
    (h0 : ∀ (p : Fin 2000) (k : Fin 256), x0 (ix2 p k) = C (ix2 (rowN b p) k))
    (h1 : ∀ (p : Fin 2000) (q : Fin 128), x1 (ix2 p q) = NNS (ix2 (rowN b p) q)) (p : Fin 2000) (q : Fin 128) :
    k2_pay1 (F := Ideal) (View.ld x0 r2_0) (View.ld x0 r2_1) (View.ld x1 r2_2) (ix2 p q) = RegionSpec.nfuC C NNS (rowN b p) q := by
  rw [nfu_blk, ld_left, ld_right, ld_all, h0, h0, h1]
  rfl

/-- The first statistics tile of block b is block b of the partial sums of nfu. -/
theorem psum_tile (x0 : Vec Ideal S2000x256 .f32) (x1 : Vec Ideal S2000x128 .f32) (C : Arr SN2F) (NNS : Arr SNF) (b : Fin 50)
    (h0 : ∀ (p : Fin 2000) (k : Fin 256), x0 (ix2 p k) = C (ix2 (rowN b p) k))
    (h1 : ∀ (p : Fin 2000) (q : Fin 128), x1 (ix2 p q) = NNS (ix2 (rowN b p) q))
    (j : S1x8x128.Idx) (i : SPN.Idx) (hi0 : (i 0).val = b.val) (hi1 : (i 1).val = (j 1).val) (hi2 : (i 2).val = (j 2).val) :
    k2_pay2 (F := Ideal) (View.ld x0 r2_0) (View.ld x0 r2_1) (View.ld x1 r2_2) j = RegionSpec.psumN C NNS i := by
  obtain ⟨u, r, q, rfl⟩ : ∃ (u : Fin 1) (r : Fin 8) (q : Fin 128), j = ix3 u r q := ⟨j 0, j 1, j 2, eq_ix3 j⟩
  obtain ⟨b', r', q', rfl⟩ : ∃ (b' : Fin 50) (r' : Fin 8) (q' : Fin 128), i = ix3 b' r' q' := ⟨i 0, i 1, i 2, eq_ix3 i⟩
  obtain rfl : b' = b := Fin.ext hi0
  obtain rfl : r' = r := Fin.ext hi1
  obtain rfl : q' = q := Fin.ext hi2
  rw [psum_blk]
  show _ = if r'.val = 0 then ∑ t : Fin 2000, RegionSpec.nfuC C NNS (rowN b' t) q' else 0
  congr 1
  exact Finset.sum_congr rfl fun p _ => nfu_of_rows x0 x1 C NNS b' h0 h1 p q'

/-- The second statistics tile of block b is block b of the partial sums of nfu². -/
theorem psumsq_tile (x0 : Vec Ideal S2000x256 .f32) (x1 : Vec Ideal S2000x128 .f32) (C : Arr SN2F) (NNS : Arr SNF) (b : Fin 50)
    (h0 : ∀ (p : Fin 2000) (k : Fin 256), x0 (ix2 p k) = C (ix2 (rowN b p) k))
    (h1 : ∀ (p : Fin 2000) (q : Fin 128), x1 (ix2 p q) = NNS (ix2 (rowN b p) q))
    (j : S1x8x128.Idx) (i : SPN.Idx) (hi0 : (i 0).val = b.val) (hi1 : (i 1).val = (j 1).val) (hi2 : (i 2).val = (j 2).val) :
    k2_pay3 (F := Ideal) (View.ld x0 r2_0) (View.ld x0 r2_1) (View.ld x1 r2_2) j = RegionSpec.psumsqN C NNS i := by
  obtain ⟨u, r, q, rfl⟩ : ∃ (u : Fin 1) (r : Fin 8) (q : Fin 128), j = ix3 u r q := ⟨j 0, j 1, j 2, eq_ix3 j⟩
  obtain ⟨b', r', q', rfl⟩ : ∃ (b' : Fin 50) (r' : Fin 8) (q' : Fin 128), i = ix3 b' r' q' := ⟨i 0, i 1, i 2, eq_ix3 i⟩
  obtain rfl : b' = b := Fin.ext hi0
  obtain rfl : r' = r := Fin.ext hi1
  obtain rfl : q' = q := Fin.ext hi2
  rw [psumsq_blk]
  show _ = if r'.val = 0 then ∑ t : Fin 2000, RegionSpec.nfuC C NNS (rowN b' t) q' * RegionSpec.nfuC C NNS (rowN b' t) q' else 0
  congr 1
  exact Finset.sum_congr rfl fun p _ => by rw [nfu_of_rows x0 x1 C NNS b' h0 h1 p q']

/-! ## From blocks to the arrays -/

-- the buffer contents on entry to the region
variable (V : (c : Dev nD) → (b : Ref sig .tc) → Buf (Elt Ideal) ((c : Thread nD τ).loc b))

theorem hz3 : (![0, 0, 0] : Fin 3 → Nat) = fun _ => 0 := funext fun a => by fin_cases a <;> rfl

/-- The printed index maps, decided over the grid: at point t every window's block index is t on the row axis
    and 0 on the others. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_3.index t (0 : Fin 3) = t.val ∧ win2_3.index t (1 : Fin 3) = 0 ∧ win2_3.index t (2 : Fin 3) = 0
    ∧ win2_4.index t (0 : Fin 3) = t.val ∧ win2_4.index t (1 : Fin 3) = 0 ∧ win2_4.index t (2 : Fin 3) = 0 :=
  (by decide +kernel : ∀ t : Fin grid2.N, _)

/-- The grid has 50 points. -/
theorem point_lt (t : Fin cfg2.N) : t.val < 50 :=
  lt_of_lt_of_eq t.isLt (show cfg2.N = 50 from N_2)

/-- Point t's block of the pair (num | den) is rows 2000 t … 2000 t + 1999 of the array. -/
theorem pair_blk (c : Dev nD) (t : Fin cfg2.N) (p : Fin 2000) (k : Fin 256) :
    (iblk2 V c 0 t : Vec Ideal S2000x256 .f32) (ix2 p k) = (V c main_v6 : Arr SN2F) (ix2 (rowN ⟨t.val, point_lt t⟩ p) k) := by
  obtain ⟨e0, e1, -⟩ := idx_facts t
  unfold iblk2
  rw [View.read_apply]
  show V c main_v6 _ = V c main_v6 _
  congr 1
  funext a; apply Fin.ext
  match a with
  | ⟨0, _⟩ => show win2_0.index t (0 : Fin 2) * 2000 + 1 * p.val = 2000 * t.val + p.val; rw [e0]; omega
  | ⟨1, _⟩ => show win2_0.index t (1 : Fin 2) * 256 + 1 * k.val = k.val; rw [e1]; omega

/-- Point t's block of n_ns is rows 2000 t … 2000 t + 1999 of the array. -/
theorem nns_blk (c : Dev nD) (t : Fin cfg2.N) (p : Fin 2000) (q : Fin 128) :
    (iblk2 V c 1 t : Vec Ideal S2000x128 .f32) (ix2 p q) = (V c main_v0_2 : Arr SNF) (ix2 (rowN ⟨t.val, point_lt t⟩ p) q) := by
  obtain ⟨-, -, e0, e1, -⟩ := idx_facts t
  unfold iblk2
  rw [View.read_apply]
  show V c main_v0_2 _ = V c main_v0_2 _
  congr 1
  funext a; apply Fin.ext
  match a with
  | ⟨0, _⟩ => show win2_1.index t (0 : Fin 2) * 2000 + 1 * p.val = 2000 * t.val + p.val; rw [e0]; omega
  | ⟨1, _⟩ => show win2_1.index t (1 : Fin 2) * 128 + 1 * q.val = q.val; rw [e1]; omega

/-! ### The partial sums of nfu -/

/-- What point t writes back of the first statistics output is block t of the partial sums of nfu. -/
theorem flushed3_eq (c : Dev nD) (t : Fin cfg2.N) :
    (dat2 (F := Ideal) V c).flushed 3 t
      = ((cfg2.win 3).blk t).view.read (Elt Ideal) (RegionSpec.psumN (V c main_v6) (V c main_v0_2)) := by
  obtain ⟨-, -, -, -, e0, e1, e2, -⟩ := idx_facts t
  show (cfg2.win 3).cut (grid2.coords t) ((dat2 (F := Ideal) V c).after 3 t) = _
  rw [after2_3]
  unfold out2_3
  rw [View.canon_unit_zero hz3]
  funext j
  refine psum_tile (iblk2 V c 0 t) (iblk2 V c 1 t) (V c main_v6) (V c main_v0_2) ⟨t.val, point_lt t⟩
    (fun p k => pair_blk V c t p k) (fun p q => nns_blk V c t p q) j (((cfg2.win 3).blk t).view.emb j) ?_ ?_ ?_
  · show win2_3.index t (0 : Fin 3) * 1 + 1 * (j 0).val = t.val
    have hj : (j 0).val < 1 := (j 0).isLt
    rw [e0]; omega
  · show win2_3.index t (1 : Fin 3) * 8 + 1 * (j 1).val = (j 1).val
    rw [e1]; omega
  · show win2_3.index t (2 : Fin 3) * 128 + 1 * (j 2).val = (j 2).val
    rw [e2]; omega

/-- An index of the array is in point t's block iff each coordinate is in the block's range on its axis. -/
theorem mem_blk3 (t : Fin cfg2.N) (i : S50x8x128.Idx) :
    i ∈ ((cfg2.win 3).blk t).view.set ↔ ∀ a : Fin 3, win2_3.index t a * S1x8x128.size a ≤ (i a).val ∧ (i a).val < win2_3.index t a * S1x8x128.size a + S1x8x128.size a := by
  show i ∈ ((View.whole main_v7_1).slice (win2_3.rect t)).set ↔ _
  rw [View.set_slice_whole, Rect.mem_set_unit]
  exact Iff.rfl

/-- Every index of the array is in the block of the point its first coordinate names. -/
theorem cover3 (i : S50x8x128.Idx) :
    ∃ t : Fin cfg2.N, (cfg2.win 3).flush t = true ∧ i ∈ ((cfg2.win 3).blk t).view.set := by
  have h0 : (i 0).val < 50 := (i 0).isLt
  have h1 : (i 1).val < 8 := (i 1).isLt
  have h2 : (i 2).val < 128 := (i 2).isLt
  obtain ⟨t, ht⟩ : ∃ t : Fin cfg2.N, t.val = (i 0).val := ⟨⟨(i 0).val, by rw [show cfg2.N = 50 from N_2]; exact h0⟩, rfl⟩
  obtain ⟨-, -, -, -, e0, e1, e2, -⟩ := idx_facts t
  refine ⟨t, flush2_3 t, ?_⟩
  rw [mem_blk3]
  intro a
  match a with
  | ⟨0, _⟩ => show win2_3.index t (0 : Fin 3) * 1 ≤ (i 0).val ∧ (i 0).val < win2_3.index t (0 : Fin 3) * 1 + 1; rw [e0]; omega
  | ⟨1, _⟩ => show win2_3.index t (1 : Fin 3) * 8 ≤ (i 1).val ∧ (i 1).val < win2_3.index t (1 : Fin 3) * 8 + 8; rw [e1]; omega
  | ⟨2, _⟩ => show win2_3.index t (2 : Fin 3) * 128 ≤ (i 2).val ∧ (i 2).val < win2_3.index t (2 : Fin 3) * 128 + 128; rw [e2]; omega

theorem final3 (c : Dev nD) : (dat2 (F := Ideal) V c).arrAt 3 cfg2.N = RegionSpec.psumN (V c main_v6) (V c main_v0_2) :=
  (dat2 (F := Ideal) V c).arrAt_eq_of_cover 3 (RegionSpec.psumN (V c main_v6) (V c main_v0_2))
    (fun t _ => flushed3_eq V c t) (fun i => cover3 i)

/-! ### The partial sums of nfu² -/

/-- What point t writes back of the second statistics output is block t of the partial sums of nfu². -/
theorem flushed4_eq (c : Dev nD) (t : Fin cfg2.N) :
    (dat2 (F := Ideal) V c).flushed 4 t
      = ((cfg2.win 4).blk t).view.read (Elt Ideal) (RegionSpec.psumsqN (V c main_v6) (V c main_v0_2)) := by
  obtain ⟨-, -, -, -, -, -, -, e0, e1, e2⟩ := idx_facts t
  show (cfg2.win 4).cut (grid2.coords t) ((dat2 (F := Ideal) V c).after 4 t) = _
  rw [after2_4]
  unfold out2_4
  rw [View.canon_unit_zero hz3]
  funext j
  refine psumsq_tile (iblk2 V c 0 t) (iblk2 V c 1 t) (V c main_v6) (V c main_v0_2) ⟨t.val, point_lt t⟩
    (fun p k => pair_blk V c t p k) (fun p q => nns_blk V c t p q) j (((cfg2.win 4).blk t).view.emb j) ?_ ?_ ?_
  · show win2_4.index t (0 : Fin 3) * 1 + 1 * (j 0).val = t.val
    have hj : (j 0).val < 1 := (j 0).isLt
    rw [e0]; omega
  · show win2_4.index t (1 : Fin 3) * 8 + 1 * (j 1).val = (j 1).val
    rw [e1]; omega
  · show win2_4.index t (2 : Fin 3) * 128 + 1 * (j 2).val = (j 2).val
    rw [e2]; omega

/-- An index of the array is in point t's block iff each coordinate is in the block's range on its axis. -/
theorem mem_blk4 (t : Fin cfg2.N) (i : S50x8x128.Idx) :
    i ∈ ((cfg2.win 4).blk t).view.set ↔ ∀ a : Fin 3, win2_4.index t a * S1x8x128.size a ≤ (i a).val ∧ (i a).val < win2_4.index t a * S1x8x128.size a + S1x8x128.size a := by
  show i ∈ ((View.whole main_v7_2).slice (win2_4.rect t)).set ↔ _
  rw [View.set_slice_whole, Rect.mem_set_unit]
  exact Iff.rfl

/-- Every index of the array is in the block of the point its first coordinate names. -/
theorem cover4 (i : S50x8x128.Idx) :
    ∃ t : Fin cfg2.N, (cfg2.win 4).flush t = true ∧ i ∈ ((cfg2.win 4).blk t).view.set := by
  have h0 : (i 0).val < 50 := (i 0).isLt
  have h1 : (i 1).val < 8 := (i 1).isLt
  have h2 : (i 2).val < 128 := (i 2).isLt
  obtain ⟨t, ht⟩ : ∃ t : Fin cfg2.N, t.val = (i 0).val := ⟨⟨(i 0).val, by rw [show cfg2.N = 50 from N_2]; exact h0⟩, rfl⟩
  obtain ⟨-, -, -, -, -, -, -, e0, e1, e2⟩ := idx_facts t
  refine ⟨t, flush2_4 t, ?_⟩
  rw [mem_blk4]
  intro a
  match a with
  | ⟨0, _⟩ => show win2_4.index t (0 : Fin 3) * 1 ≤ (i 0).val ∧ (i 0).val < win2_4.index t (0 : Fin 3) * 1 + 1; rw [e0]; omega
  | ⟨1, _⟩ => show win2_4.index t (1 : Fin 3) * 8 ≤ (i 1).val ∧ (i 1).val < win2_4.index t (1 : Fin 3) * 8 + 8; rw [e1]; omega
  | ⟨2, _⟩ => show win2_4.index t (2 : Fin 3) * 128 ≤ (i 2).val ∧ (i 2).val < win2_4.index t (2 : Fin 3) * 128 + 128; rw [e2]; omega

theorem final4 (c : Dev nD) : (dat2 (F := Ideal) V c).arrAt 4 cfg2.N = RegionSpec.psumsqN (V c main_v6) (V c main_v0_2) :=
  (dat2 (F := Ideal) V c).arrAt_eq_of_cover 4 (RegionSpec.psumsqN (V c main_v6) (V c main_v0_2))
    (fun t _ => flushed4_eq V c t) (fun i => cover4 i)

end Cert.KernelIdeal.Reg2b

end
-- ==== Proof.KReg3.lean ====
/-
  Region 3 (the edge finalizer): rowwise, silu((x - mean)·rsqrt(var + ε₅)·g + be) + resid over the edge rows.
-/
import proofs.«409458_j13194139533628_3_alg».proof.Proof.Gen.KernelIdeal.Frame
import proofs.«409458_j13194139533628_3_alg».proof.Proof.RegionSpec
import Idealize.ShloMosaic.Lib.ValueIdx
import Idealize.ShloMosaic.Lib.ValueLayout
import Idealize.ShloMosaic.Lib.Pipeline.Value

noncomputable section

namespace Cert.KernelIdeal.Reg3

open Idealize.ShloMosaic Idealize.ShloMosaic.TcCoe Idealize.SL.Sem Cert.KernelIdeal Cert.KernelIdeal.Gen Cert.Spec
open Idealize.ShloMosaic.ValueIdx

/-! ## The body's value at an index of the block -/

/-- The elementwise logistic, read at an index: 1 / (1 + e^{-x}) of the entry. -/
private theorem logistic_apply {s : Shape} {φ : FTy} (a : FVec Ideal s φ) (i : s.Idx) :
    logistic a i = Ideal.div 1 (1 + Ideal.exp (-(a i))) := rfl

/-- The elementwise reciprocal square root, read at an index. -/
private theorem rsqrt_apply {s : Shape} {φ : FTy} (a : FVec Ideal s φ) (i : s.Idx) :
    rsqrt a i = Ideal.rsqrt (a i) := rfl

/-- A [128] vector laid along the rows of a [2400,128] block reads, at (p, q), its entry q. -/
private theorem row_apply (v : FVec Ideal S128 .f32) (p : Fin 2400) (q : Fin 128) :
    broadcastTo S2400x128 (shapeCast S1x128 v shapeCasts_S128_S1x128) broadcasts_S1x128_S2400x128 (ix2 p q) = v (ix1 q) :=
  (broadcastTo_1b_ab_apply _ broadcasts_S1x128_S2400x128 p q).trans (shapeCast_a_1a_apply v shapeCasts_S128_S1x128 0 q)

set_option maxHeartbeats 400000 in
/-- The body's value at row p, feature q of the block: the block's entry normalised by the feature's statistics, scaled
    and shifted, through silu, plus the residual's entry. -/
theorem pay_apply (x0 : Vec Ideal S2400x128 .bf16) (x1 : Vec Ideal S2400x128 .f32)
    (mean var g be : Vec Ideal S128 .f32) (p : Fin 2400) (q : Fin 128) :
    k3_pay1 (F := Ideal) x0 mean var g be x1 (ix2 p q)
      = bn (x0 (ix2 p q)) (mean (ix1 q)) (var (ix1 q)) (g (ix1 q)) (be (ix1 q)) (x1 (ix2 p q)) := by
  unfold k3_pay1 bn silu eps5
  simp only [addf_apply, mulf_apply, subf_apply, logistic_apply, row_apply, rsqrt_apply, extf_apply, shapeCast_self,
    broadcast_apply]
  rfl

/-- The normalisation respects equality in each of its six places. -/
private theorem bn_congr {a a' b b' c c' d d' e e' f f' : EReal} (ha : a = a') (hb : b = b') (hc : c = c') (hd : d = d')
    (he : e = e') (hf : f = f') : bn a b c d e f = bn a' b' c' d' e' f' := by
  subst ha hb hc hd he hf; rfl

/-! ## From the blocks to the array -/

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: the row windows (the rows x, the residual, the result) sit at block t of
    the rows, all 128 columns; the four statistics windows are the whole [128] arrays at every point. -/
theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 1) = 0 ∧ win3_3.index t (0 : Fin 1) = 0
    ∧ win3_4.index t (0 : Fin 1) = 0 ∧ win3_5.index t (0 : Fin 1) = 0
    ∧ win3_6.index t (0 : Fin 2) = t.val ∧ win3_6.index t (1 : Fin 2) = 0 :=
  (by decide +kernel : ∀ t : Fin grid3.N, _)

-- the buffer contents on entry to the region
variable (V : (c : Dev nD) → (b : Ref sig .tc) → Buf (Elt Ideal) ((c : Thread nD τ).loc b))

/-- Window 0's block at point t, at (p, q), is its array where the result's block at t puts (p, q). -/
theorem blk0_apply (c : Dev nD) (t : Fin cfg3.N) (p : Fin 2400) (q : Fin 128) :
    iblk3 V c 0 t (ix2 p q) = V c main_v3_0 (((cfg3.win 6).blk t).view.emb (ix2 p q)) := by
  obtain ⟨e00, e01, e10, e11, -, -, -, -, e60, e61⟩ := index_facts t
  show V c main_v3_0 (((cfg3.win 0).blk t).view.emb (ix2 p q)) = V c main_v3_0 (((cfg3.win 6).blk t).view.emb (ix2 p q))
  refine congrArg (V c main_v3_0) (funext fun a => Fin.ext ?_)
  match a with
  | ⟨0, _⟩ => show win3_0.index t (0 : Fin 2) * 2400 + 1 * p.val = win3_6.index t (0 : Fin 2) * 2400 + 1 * p.val; omega
  | ⟨1, _⟩ => show win3_0.index t (1 : Fin 2) * 128 + 1 * q.val = win3_6.index t (1 : Fin 2) * 128 + 1 * q.val; omega

/-- Window 1's block at point t, at (p, q), is its array where the result's block at t puts (p, q). -/
theorem blk1_apply (c : Dev nD) (t : Fin cfg3.N) (p : Fin 2400) (q : Fin 128) :
    iblk3 V c 1 t (ix2 p q) = V c main_arg1 (((cfg3.win 6).blk t).view.emb (ix2 p q)) := by
  obtain ⟨e00, e01, e10, e11, -, -, -, -, e60, e61⟩ := index_facts t
  show V c main_arg1 (((cfg3.win 1).blk t).view.emb (ix2 p q)) = V c main_arg1 (((cfg3.win 6).blk t).view.emb (ix2 p q))
  refine congrArg (V c main_arg1) (funext fun a => Fin.ext ?_)
  match a with
  | ⟨0, _⟩ => show win3_1.index t (0 : Fin 2) * 2400 + 1 * p.val = win3_6.index t (0 : Fin 2) * 2400 + 1 * p.val; omega
  | ⟨1, _⟩ => show win3_1.index t (1 : Fin 2) * 128 + 1 * q.val = win3_6.index t (1 : Fin 2) * 128 + 1 * q.val; omega

/-- Window 2's block at any point is its whole [128] array: at q, the array at the result's column. -/
theorem blk2_apply (c : Dev nD) (t : Fin cfg3.N) (p : Fin 2400) (q : Fin 128) :
    iblk3 V c 2 t (ix1 q) = V c main_v10 (ix1 ((((cfg3.win 6).blk t).view.emb (ix2 p q)) 1)) := by
  obtain ⟨-, -, -, -, e2, e3, e4, e5, e60, e61⟩ := index_facts t
  show V c main_v10 (((cfg3.win 2).blk t).view.emb (ix1 q)) = V c main_v10 (ix1 ((((cfg3.win 6).blk t).view.emb (ix2 p q)) 1))
  refine congrArg (V c main_v10) (funext fun a => Fin.ext ?_)
  match a with
  | ⟨0, _⟩ => show win3_2.index t (0 : Fin 1) * 128 + 1 * q.val = win3_6.index t (1 : Fin 2) * 128 + 1 * q.val; omega

/-- Window 3's block at any point is its whole [128] array: at q, the array at the result's column. -/
theorem blk3_apply (c : Dev nD) (t : Fin cfg3.N) (p : Fin 2400) (q : Fin 128) :
    iblk3 V c 3 t (ix1 q) = V c main_v17 (ix1 ((((cfg3.win 6).blk t).view.emb (ix2 p q)) 1)) := by
  obtain ⟨-, -, -, -, e2, e3, e4, e5, e60, e61⟩ := index_facts t
  show V c main_v17 (((cfg3.win 3).blk t).view.emb (ix1 q)) = V c main_v17 (ix1 ((((cfg3.win 6).blk t).view.emb (ix2 p q)) 1))
  refine congrArg (V c main_v17) (funext fun a => Fin.ext ?_)
  match a with
  | ⟨0, _⟩ => show win3_3.index t (0 : Fin 1) * 128 + 1 * q.val = win3_6.index t (1 : Fin 2) * 128 + 1 * q.val; omega

/-- Window 4's block at any point is its whole [128] array: at q, the array at the result's column. -/
theorem blk4_apply (c : Dev nD) (t : Fin cfg3.N) (p : Fin 2400) (q : Fin 128) :
    iblk3 V c 4 t (ix1 q) = V c main_arg14 (ix1 ((((cfg3.win 6).blk t).view.emb (ix2 p q)) 1)) := by
  obtain ⟨-, -, -, -, e2, e3, e4, e5, e60, e61⟩ := index_facts t
  show V c main_arg14 (((cfg3.win 4).blk t).view.emb (ix1 q)) = V c main_arg14 (ix1 ((((cfg3.win 6).blk t).view.emb (ix2 p q)) 1))
  refine congrArg (V c main_arg14) (funext fun a => Fin.ext ?_)
  match a with
  | ⟨0, _⟩ => show win3_4.index t (0 : Fin 1) * 128 + 1 * q.val = win3_6.index t (1 : Fin 2) * 128 + 1 * q.val; omega

/-- Window 5's block at any point is its whole [128] array: at q, the array at the result's column. -/
theorem blk5_apply (c : Dev nD) (t : Fin cfg3.N) (p : Fin 2400) (q : Fin 128) :
    iblk3 V c 5 t (ix1 q) = V c main_arg15 (ix1 ((((cfg3.win 6).blk t).view.emb (ix2 p q)) 1)) := by
  obtain ⟨-, -, -, -, e2, e3, e4, e5, e60, e61⟩ := index_facts t
  show V c main_arg15 (((cfg3.win 5).blk t).view.emb (ix1 q)) = V c main_arg15 (ix1 ((((cfg3.win 6).blk t).view.emb (ix2 p q)) 1))
  refine congrArg (V c main_arg15) (funext fun a => Fin.ext ?_)
  match a with
  | ⟨0, _⟩ => show win3_5.index t (0 : Fin 1) * 128 + 1 * q.val = win3_6.index t (1 : Fin 2) * 128 + 1 * q.val; omega

/-- The body's value at (p, q) of point t's block is the normalised array where the result's block puts (p, q). -/
theorem body_apply (c : Dev nD) (t : Fin cfg3.N) (p : Fin 2400) (q : Fin 128) :
    bn (iblk3 V c 0 t (ix2 p q)) (iblk3 V c 2 t (ix1 q)) (iblk3 V c 3 t (ix1 q)) (iblk3 V c 4 t (ix1 q))
        (iblk3 V c 5 t (ix1 q)) (iblk3 V c 1 t (ix2 p q))
      = RegionSpec.bnE (V c main_v3_0) (V c main_arg1) (V c main_v10) (V c main_v17) (V c main_arg14) (V c main_arg15)
          (((cfg3.win 6).blk t).view.emb (ix2 p q)) :=
  bn_congr (blk0_apply V c t p q) (blk2_apply V c t p q) (blk3_apply V c t p q) (blk4_apply V c t p q)
    (blk5_apply V c t p q) (blk1_apply V c t p q)

/-- What point t writes back is block t of the normalised array. -/
theorem flushed_eq (c : Dev nD) (t : Fin cfg3.N) :
    (dat3 (F := Ideal) V c).flushed 6 t = ((cfg3.win 6).blk t).view.read (Elt Ideal)
      (RegionSpec.bnE (V c main_v3_0) (V c main_arg1) (V c main_v10) (V c main_v17) (V c main_arg14) (V c main_arg15)) := by
  show (cfg3.win 6).cut (grid3.coords t) ((dat3 (F := Ideal) V c).after 6 t) = _
  rw [after3_6]
  unfold out3_6
  rw [View.canon_unit_zero zero2]
  simp only [View.ld_unit_zero (S := S2400x128) zero2, View.ld_unit_zero (S := S128) zero1]
  refine funext fun (j : S2400x128.Idx) => ?_
  obtain ⟨p, q, rfl⟩ : ∃ (p : Fin 2400) (q : Fin 128), j = ix2 p q := ⟨j 0, j 1, eq_ix2 j⟩
  refine (pay_apply (iblk3 V c 0 t) (iblk3 V c 1 t) (iblk3 V c 2 t) (iblk3 V c 3 t) (iblk3 V c 4 t) (iblk3 V c 5 t) p q).trans ?_
  exact body_apply V c t p q

/-- An index of the array is in point t's block iff each coordinate is in the block's range on its axis. -/
theorem mem_blk (t : Fin cfg3.N) (i : S600000x128.Idx) :
    i ∈ ((cfg3.win 6).blk t).view.set ↔ ∀ a : Fin 2, win3_6.index t a * S2400x128.size a ≤ (i a).val ∧ (i a).val < win3_6.index t a * S2400x128.size a + S2400x128.size a := by
  show i ∈ ((View.whole main_v28).slice (win3_6.rect t)).set ↔ _
  rw [View.set_slice_whole, Rect.mem_set_unit]
  exact Iff.rfl

/-- Every index of the array lies in some point's block: row r in the block of point r / 2400. -/
theorem cover (i : S600000x128.Idx) : ∃ t : Fin cfg3.N, (cfg3.win 6).flush t = true ∧ i ∈ ((cfg3.win 6).blk t).view.set := by
  have hi0 : (i 0).val < 600000 := (i 0).isLt
  have hi1 : (i 1).val < 128 := (i 1).isLt
  have hN : cfg3.N = 250 := N_3
  have ht : (i 0).val / 2400 < cfg3.N := by rw [hN]; omega
  refine ⟨⟨(i 0).val / 2400, ht⟩, flush3_6 _, ?_⟩
  rw [mem_blk]
  obtain ⟨-, -, -, -, -, -, -, -, e60, e61⟩ := index_facts ⟨(i 0).val / 2400, ht⟩
  have e60' : win3_6.index ⟨(i 0).val / 2400, ht⟩ (0 : Fin 2) = (i 0).val / 2400 := e60
  intro a
  match a with
  | ⟨0, _⟩ =>
    show win3_6.index ⟨(i 0).val / 2400, ht⟩ (0 : Fin 2) * 2400 ≤ (i 0).val ∧ (i 0).val < win3_6.index ⟨(i 0).val / 2400, ht⟩ (0 : Fin 2) * 2400 + 2400
    rw [e60']; omega
  | ⟨1, _⟩ =>
    show win3_6.index ⟨(i 0).val / 2400, ht⟩ (1 : Fin 2) * 128 ≤ (i 1).val ∧ (i 1).val < win3_6.index ⟨(i 0).val / 2400, ht⟩ (1 : Fin 2) * 128 + 128
    rw [e61]; omega

/-- The array after the region: the normalised rows. -/
theorem final6 (c : Dev nD) : (dat3 (F := Ideal) V c).arrAt 6 cfg3.N = RegionSpec.bnE (V c main_v3_0) (V c main_arg1) (V c main_v10) (V c main_v17) (V c main_arg14) (V c main_arg15) :=
  (dat3 (F := Ideal) V c).arrAt_eq_of_cover 6
    (RegionSpec.bnE (V c main_v3_0) (V c main_arg1) (V c main_v10) (V c main_v17) (V c main_arg14) (V c main_arg15))
    (fun t _ => flushed_eq V c t) cover

end Cert.KernelIdeal.Reg3

end
-- ==== Proof.KReg4.lean ====
/-
  Region 4 (the node finalizer): rowwise, silu((x - mean)·rsqrt(var + ε₅)·g + be) + resid over the node rows.
-/
import proofs.«409458_j13194139533628_3_alg».proof.Proof.Gen.KernelIdeal.Frame
import proofs.«409458_j13194139533628_3_alg».proof.Proof.RegionSpec
import Idealize.ShloMosaic.Lib.ValueIdx
import Idealize.ShloMosaic.Lib.ValueLayout
import Idealize.ShloMosaic.Lib.Pipeline.Value

noncomputable section

namespace Cert.KernelIdeal.Reg4

open Idealize.ShloMosaic Idealize.ShloMosaic.TcCoe Idealize.SL.Sem Cert.KernelIdeal Cert.KernelIdeal.Gen Cert.Spec
open Idealize.ShloMosaic.ValueIdx

/-! ## The body's value at an index of the block -/

/-- The elementwise logistic, read at an index: 1 / (1 + e^{-x}) of the entry. -/
private theorem logistic_apply {s : Shape} {φ : FTy} (a : FVec Ideal s φ) (i : s.Idx) :
    logistic a i = Ideal.div 1 (1 + Ideal.exp (-(a i))) := rfl

/-- The elementwise reciprocal square root, read at an index. -/
private theorem rsqrt_apply {s : Shape} {φ : FTy} (a : FVec Ideal s φ) (i : s.Idx) :
    rsqrt a i = Ideal.rsqrt (a i) := rfl

/-- A [128] vector laid along the rows of a [2000,128] block reads, at (p, q), its entry q. -/
private theorem row_apply (v : FVec Ideal S128 .f32) (p : Fin 2000) (q : Fin 128) :
    broadcastTo S2000x128 (shapeCast S1x128 v shapeCasts_S128_S1x128) broadcasts_S1x128_S2000x128 (ix2 p q) = v (ix1 q) :=
  (broadcastTo_1b_ab_apply _ broadcasts_S1x128_S2000x128 p q).trans (shapeCast_a_1a_apply v shapeCasts_S128_S1x128 0 q)

set_option maxHeartbeats 400000 in
/-- The body's value at row p, feature q of the block: the block's entry normalised by the feature's statistics, scaled
    and shifted, through silu, plus the residual's entry. -/
theorem pay_apply (x0 : Vec Ideal S2000x128 .f32) (x1 : Vec Ideal S2000x128 .f32)
    (mean var g be : Vec Ideal S128 .f32) (p : Fin 2000) (q : Fin 128) :
    k4_pay1 (F := Ideal) x0 mean var g be x1 (ix2 p q)
      = bn (x0 (ix2 p q)) (mean (ix1 q)) (var (ix1 q)) (g (ix1 q)) (be (ix1 q)) (x1 (ix2 p q)) := by
  unfold k4_pay1 bn silu eps5
  simp only [addf_apply, mulf_apply, subf_apply, logistic_apply, row_apply, rsqrt_apply, extf_apply, shapeCast_self,
    broadcast_apply]
  rfl

/-- The normalisation respects equality in each of its six places. -/
private theorem bn_congr {a a' b b' c c' d d' e e' f f' : EReal} (ha : a = a') (hb : b = b') (hc : c = c') (hd : d = d')
    (he : e = e') (hf : f = f') : bn a b c d e f = bn a' b' c' d' e' f' := by
  subst ha hb hc hd he hf; rfl

/-! ## From the blocks to the array -/

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: the row windows (the rows x, the residual, the result) sit at block t of
    the rows, all 128 columns; the four statistics windows are the whole [128] arrays at every point. -/
theorem index_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 1) = 0 ∧ win4_3.index t (0 : Fin 1) = 0
    ∧ win4_4.index t (0 : Fin 1) = 0 ∧ win4_5.index t (0 : Fin 1) = 0
    ∧ win4_6.index t (0 : Fin 2) = t.val ∧ win4_6.index t (1 : Fin 2) = 0 :=
  (by decide +kernel : ∀ t : Fin grid4.N, _)

-- the buffer contents on entry to the region
variable (V : (c : Dev nD) → (b : Ref sig .tc) → Buf (Elt Ideal) ((c : Thread nD τ).loc b))

/-- Window 0's block at point t, at (p, q), is its array where the result's block at t puts (p, q). -/
theorem blk0_apply (c : Dev nD) (t : Fin cfg4.N) (p : Fin 2000) (q : Fin 128) :
    iblk4 V c 0 t (ix2 p q) = V c main_v7_0 (((cfg4.win 6).blk t).view.emb (ix2 p q)) := by
  obtain ⟨e00, e01, e10, e11, -, -, -, -, e60, e61⟩ := index_facts t
  show V c main_v7_0 (((cfg4.win 0).blk t).view.emb (ix2 p q)) = V c main_v7_0 (((cfg4.win 6).blk t).view.emb (ix2 p q))
  refine congrArg (V c main_v7_0) (funext fun a => Fin.ext ?_)
  match a with
  | ⟨0, _⟩ => show win4_0.index t (0 : Fin 2) * 2000 + 1 * p.val = win4_6.index t (0 : Fin 2) * 2000 + 1 * p.val; omega
  | ⟨1, _⟩ => show win4_0.index t (1 : Fin 2) * 128 + 1 * q.val = win4_6.index t (1 : Fin 2) * 128 + 1 * q.val; omega

/-- Window 1's block at point t, at (p, q), is its array where the result's block at t puts (p, q). -/
theorem blk1_apply (c : Dev nD) (t : Fin cfg4.N) (p : Fin 2000) (q : Fin 128) :
    iblk4 V c 1 t (ix2 p q) = V c main_arg0 (((cfg4.win 6).blk t).view.emb (ix2 p q)) := by
  obtain ⟨e00, e01, e10, e11, -, -, -, -, e60, e61⟩ := index_facts t
  show V c main_arg0 (((cfg4.win 1).blk t).view.emb (ix2 p q)) = V c main_arg0 (((cfg4.win 6).blk t).view.emb (ix2 p q))
  refine congrArg (V c main_arg0) (funext fun a => Fin.ext ?_)
  match a with
  | ⟨0, _⟩ => show win4_1.index t (0 : Fin 2) * 2000 + 1 * p.val = win4_6.index t (0 : Fin 2) * 2000 + 1 * p.val; omega
  | ⟨1, _⟩ => show win4_1.index t (1 : Fin 2) * 128 + 1 * q.val = win4_6.index t (1 : Fin 2) * 128 + 1 * q.val; omega

/-- Window 2's block at any point is its whole [128] array: at q, the array at the result's column. -/
theorem blk2_apply (c : Dev nD) (t : Fin cfg4.N) (p : Fin 2000) (q : Fin 128) :
    iblk4 V c 2 t (ix1 q) = V c main_v20 (ix1 ((((cfg4.win 6).blk t).view.emb (ix2 p q)) 1)) := by
  obtain ⟨-, -, -, -, e2, e3, e4, e5, e60, e61⟩ := index_facts t
  show V c main_v20 (((cfg4.win 2).blk t).view.emb (ix1 q)) = V c main_v20 (ix1 ((((cfg4.win 6).blk t).view.emb (ix2 p q)) 1))
  refine congrArg (V c main_v20) (funext fun a => Fin.ext ?_)
  match a with
  | ⟨0, _⟩ => show win4_2.index t (0 : Fin 1) * 128 + 1 * q.val = win4_6.index t (1 : Fin 2) * 128 + 1 * q.val; omega

/-- Window 3's block at any point is its whole [128] array: at q, the array at the result's column. -/
theorem blk3_apply (c : Dev nD) (t : Fin cfg4.N) (p : Fin 2000) (q : Fin 128) :
    iblk4 V c 3 t (ix1 q) = V c main_v27 (ix1 ((((cfg4.win 6).blk t).view.emb (ix2 p q)) 1)) := by
  obtain ⟨-, -, -, -, e2, e3, e4, e5, e60, e61⟩ := index_facts t
  show V c main_v27 (((cfg4.win 3).blk t).view.emb (ix1 q)) = V c main_v27 (ix1 ((((cfg4.win 6).blk t).view.emb (ix2 p q)) 1))
  refine congrArg (V c main_v27) (funext fun a => Fin.ext ?_)
  match a with
  | ⟨0, _⟩ => show win4_3.index t (0 : Fin 1) * 128 + 1 * q.val = win4_6.index t (1 : Fin 2) * 128 + 1 * q.val; omega

/-- Window 4's block at any point is its whole [128] array: at q, the array at the result's column. -/
theorem blk4_apply (c : Dev nD) (t : Fin cfg4.N) (p : Fin 2000) (q : Fin 128) :
    iblk4 V c 4 t (ix1 q) = V c main_arg16 (ix1 ((((cfg4.win 6).blk t).view.emb (ix2 p q)) 1)) := by
  obtain ⟨-, -, -, -, e2, e3, e4, e5, e60, e61⟩ := index_facts t
  show V c main_arg16 (((cfg4.win 4).blk t).view.emb (ix1 q)) = V c main_arg16 (ix1 ((((cfg4.win 6).blk t).view.emb (ix2 p q)) 1))
  refine congrArg (V c main_arg16) (funext fun a => Fin.ext ?_)
  match a with
  | ⟨0, _⟩ => show win4_4.index t (0 : Fin 1) * 128 + 1 * q.val = win4_6.index t (1 : Fin 2) * 128 + 1 * q.val; omega

/-- Window 5's block at any point is its whole [128] array: at q, the array at the result's column. -/
theorem blk5_apply (c : Dev nD) (t : Fin cfg4.N) (p : Fin 2000) (q : Fin 128) :
    iblk4 V c 5 t (ix1 q) = V c main_arg17 (ix1 ((((cfg4.win 6).blk t).view.emb (ix2 p q)) 1)) := by
  obtain ⟨-, -, -, -, e2, e3, e4, e5, e60, e61⟩ := index_facts t
  show V c main_arg17 (((cfg4.win 5).blk t).view.emb (ix1 q)) = V c main_arg17 (ix1 ((((cfg4.win 6).blk t).view.emb (ix2 p q)) 1))
  refine congrArg (V c main_arg17) (funext fun a => Fin.ext ?_)
  match a with
  | ⟨0, _⟩ => show win4_5.index t (0 : Fin 1) * 128 + 1 * q.val = win4_6.index t (1 : Fin 2) * 128 + 1 * q.val; omega

/-- The body's value at (p, q) of point t's block is the normalised array where the result's block puts (p, q). -/
theorem body_apply (c : Dev nD) (t : Fin cfg4.N) (p : Fin 2000) (q : Fin 128) :
    bn (iblk4 V c 0 t (ix2 p q)) (iblk4 V c 2 t (ix1 q)) (iblk4 V c 3 t (ix1 q)) (iblk4 V c 4 t (ix1 q))
        (iblk4 V c 5 t (ix1 q)) (iblk4 V c 1 t (ix2 p q))
      = RegionSpec.bnN (V c main_v7_0) (V c main_arg0) (V c main_v20) (V c main_v27) (V c main_arg16) (V c main_arg17)
          (((cfg4.win 6).blk t).view.emb (ix2 p q)) :=
  bn_congr (blk0_apply V c t p q) (blk2_apply V c t p q) (blk3_apply V c t p q) (blk4_apply V c t p q)
    (blk5_apply V c t p q) (blk1_apply V c t p q)

/-- What point t writes back is block t of the normalised array. -/
theorem flushed_eq (c : Dev nD) (t : Fin cfg4.N) :
    (dat4 (F := Ideal) V c).flushed 6 t = ((cfg4.win 6).blk t).view.read (Elt Ideal)
      (RegionSpec.bnN (V c main_v7_0) (V c main_arg0) (V c main_v20) (V c main_v27) (V c main_arg16) (V c main_arg17)) := by
  show (cfg4.win 6).cut (grid4.coords t) ((dat4 (F := Ideal) V c).after 6 t) = _
  rw [after4_6]
  unfold out4_6
  rw [View.canon_unit_zero zero2]
  simp only [View.ld_unit_zero (S := S2000x128) zero2, View.ld_unit_zero (S := S128) zero1]
  refine funext fun (j : S2000x128.Idx) => ?_
  obtain ⟨p, q, rfl⟩ : ∃ (p : Fin 2000) (q : Fin 128), j = ix2 p q := ⟨j 0, j 1, eq_ix2 j⟩
  refine (pay_apply (iblk4 V c 0 t) (iblk4 V c 1 t) (iblk4 V c 2 t) (iblk4 V c 3 t) (iblk4 V c 4 t) (iblk4 V c 5 t) p q).trans ?_
  exact body_apply V c t p q

/-- An index of the array is in point t's block iff each coordinate is in the block's range on its axis. -/
theorem mem_blk (t : Fin cfg4.N) (i : S100000x128.Idx) :
    i ∈ ((cfg4.win 6).blk t).view.set ↔ ∀ a : Fin 2, win4_6.index t a * S2000x128.size a ≤ (i a).val ∧ (i a).val < win4_6.index t a * S2000x128.size a + S2000x128.size a := by
  show i ∈ ((View.whole main_v29).slice (win4_6.rect t)).set ↔ _
  rw [View.set_slice_whole, Rect.mem_set_unit]
  exact Iff.rfl

/-- Every index of the array lies in some point's block: row r in the block of point r / 2000. -/
theorem cover (i : S100000x128.Idx) : ∃ t : Fin cfg4.N, (cfg4.win 6).flush t = true ∧ i ∈ ((cfg4.win 6).blk t).view.set := by
  have hi0 : (i 0).val < 100000 := (i 0).isLt
  have hi1 : (i 1).val < 128 := (i 1).isLt
  have hN : cfg4.N = 50 := N_4
  have ht : (i 0).val / 2000 < cfg4.N := by rw [hN]; omega
  refine ⟨⟨(i 0).val / 2000, ht⟩, flush4_6 _, ?_⟩
  rw [mem_blk]
  obtain ⟨-, -, -, -, -, -, -, -, e60, e61⟩ := index_facts ⟨(i 0).val / 2000, ht⟩
  have e60' : win4_6.index ⟨(i 0).val / 2000, ht⟩ (0 : Fin 2) = (i 0).val / 2000 := e60
  intro a
  match a with
  | ⟨0, _⟩ =>
    show win4_6.index ⟨(i 0).val / 2000, ht⟩ (0 : Fin 2) * 2000 ≤ (i 0).val ∧ (i 0).val < win4_6.index ⟨(i 0).val / 2000, ht⟩ (0 : Fin 2) * 2000 + 2000
    rw [e60']; omega
  | ⟨1, _⟩ =>
    show win4_6.index ⟨(i 0).val / 2000, ht⟩ (1 : Fin 2) * 128 ≤ (i 1).val ∧ (i 1).val < win4_6.index ⟨(i 0).val / 2000, ht⟩ (1 : Fin 2) * 128 + 128
    rw [e61]; omega

/-- The array after the region: the normalised rows. -/
theorem final6 (c : Dev nD) : (dat4 (F := Ideal) V c).arrAt 6 cfg4.N = RegionSpec.bnN (V c main_v7_0) (V c main_arg0) (V c main_v20) (V c main_v27) (V c main_arg16) (V c main_arg17) :=
  (dat4 (F := Ideal) V c).arrAt_eq_of_cover 6
    (RegionSpec.bnN (V c main_v7_0) (V c main_arg0) (V c main_v20) (V c main_v27) (V c main_arg16) (V c main_arg17))
    (fun t _ => flushed_eq V c t) cover

end Cert.KernelIdeal.Reg4

end
-- ==== Proof.HostFn.lean ====
/-
  The host operations between the kernel's regions, each stretch as one function of the arrays it reads:
  the row gather (`jnp.take`, out-of-range rows filled), the scatter-add of the edge rows onto their
  destination nodes, and the batch statistics recovered from the per-block partial sums.
-/
import proofs.«409458_j13194139533628_3_alg».proof.KernelIdeal
import proofs.«409458_j13194139533628_3_alg».proof.Proof.Gen.KernelIdeal
import Idealize.ShloMosaic.PureOps.Ideal

noncomputable section

namespace Cert.KernelIdeal.HostFn

open Idealize.ShloMosaic Cert.KernelIdeal Cert.KernelIdeal.Facts₀ Cert.KernelIdeal.Facts

/-- An index word with a negative value moved up by the number of nodes (numpy's negative indexing). -/
def wrapIx (ix : IVec S600000 32) : IVec S600000 32 :=
  select (cmpi .slt ix (broadcastInDim S600000 ![] bcast_S_S600000 (constantI S_ 32 0#32)))
    (addi ix (broadcastInDim S600000 ![] bcast_S_S600000 (constantI S_ 32 100000#32))) ix

/-- The wrapped index words as a column. -/
def colIx (ix : IVec S600000 32) : IVec S600000x1 32 :=
  broadcastInDim S600000x1 ![0] bcast_S600000_S600000x1_0 (wrapIx ix)

/-- Per edge: is the wrapped index word inside the node axis? -/
def inb (ix : IVec S600000 32) : IVec S600000 1 :=
  Host.reduce IntOp.andi
    (andi (cmpi .sge (colIx ix) (broadcastInDim S600000x1 ![] bcast_S_S600000x1 (constantI S_ 32 0#32)))
      (cmpi .sle (colIx ix) (broadcastInDim S600000x1 ![0, 1] bcast_S1x1_S600000x1_0_1
        (broadcastInDim S1x1 ![1] bcast_S1_S1x1_1 (constantI S1 32 99999#32)))))
    (constantI S_ 1 1#1) reducesTo_S600000x1_S600000_d1 h_S_

/-- The 128-wide row gather: row e of the result is row ix[e] of A, or the fill word where ix[e] is out of range. -/
def take128 (A : FVec Ideal S100000x128 .f32) (ix : IVec S600000 32) : FVec Ideal S600000x128 .f32 :=
  select (broadcastInDim S600000x128 ![0] bcast_S600000_S600000x128_0 (inb ix))
    (Host.gather gather_S100000x128_S600000x1_S600000x128_1_0_n_n_0_1_1128 A (colIx ix))
    (broadcastInDim S600000x128 ![] bcast_S_S600000x128 (constant (F := Ideal) S_ .f32 0x7FC00000#32))

/-- The 256-wide row gather. -/
def take256 (A : FVec Ideal S100000x256 .f32) (ix : IVec S600000 32) : FVec Ideal S600000x256 .f32 :=
  select (broadcastInDim S600000x256 ![0] bcast_S600000_S600000x256_0 (inb ix))
    (Host.gather gather_S100000x256_S600000x1_S600000x256_1_0_n_n_0_1_1256 A (colIx ix))
    (broadcastInDim S600000x256 ![] bcast_S_S600000x256 (constant (F := Ideal) S_ .f32 0x7FC00000#32))

/-- The scatter-add of the 256-wide edge rows U onto zeros, row e landing on node ix[e]. -/
def scat256 (ix : IVec S600000 32) (U : FVec Ideal S600000x256 .f32) : FVec Ideal S100000x256 .f32 :=
  Host.scatterAdd scatter_S100000x256_S600000x1_S600000x256_1_0_0_1
    (broadcastInDim S100000x256 ![] bcast_S_S100000x256 (constant (F := Ideal) S_ .f32 0x00000000#32))
    (broadcastInDim S600000x1 ![0] bcast_S600000_S600000x1_0 ix) U

/-- A column's total over the edge blocks' partial sums, over the edge count. -/
def meanE (P : FVec Ideal S250x8x128 .f32) : FVec Ideal S128 .f32 :=
  Host.divf (Host.reduceAdd P (constant (F := Ideal) S_ .f32 0x00000000#32) reducesTo_S250x8x128_S128_d0_1 h_S_)
    (broadcastInDim S128 ![] bcast_S_S128 (constant (F := Ideal) S_ .f32 0x49127C00#32))

/-- mean of squares minus squared mean, cut off at zero: from the partial sums P of x and Q of x². -/
def varE (P Q : FVec Ideal S250x8x128 .f32) : FVec Ideal S128 .f32 :=
  maximumf (subf (meanE Q) (mulf (meanE P) (meanE P)))
    (broadcastInDim S128 ![] bcast_S_S128 (constant (F := Ideal) S_ .f32 0x00000000#32))

/-- A column's total over the node blocks' partial sums, over the node count. -/
def meanN (P : FVec Ideal S50x8x128 .f32) : FVec Ideal S128 .f32 :=
  Host.divf (Host.reduceAdd P (constant (F := Ideal) S_ .f32 0x00000000#32) reducesTo_S50x8x128_S128_d0_1 h_S_)
    (broadcastInDim S128 ![] bcast_S_S128 (constant (F := Ideal) S_ .f32 0x47C35000#32))

def varN (P Q : FVec Ideal S50x8x128 .f32) : FVec Ideal S128 .f32 :=
  maximumf (subf (meanN Q) (mulf (meanN P) (meanN P)))
    (broadcastInDim S128 ![] bcast_S_S128 (constant (F := Ideal) S_ .f32 0x00000000#32))

end Cert.KernelIdeal.HostFn

end
-- ==== Proof.KOut.lean ====
/-
  The kernel program's two results as terms of its eighteen arguments: the five regions' array functions composed
  with the host stretches between them.
-/
import proofs.«409458_j13194139533628_3_alg».proof.Proof.RegionSpec
import proofs.«409458_j13194139533628_3_alg».proof.Proof.HostFn

noncomputable section

namespace Cert.KernelIdeal.KOut

open Idealize.ShloMosaic Cert.Spec

variable (X : Arr SNF) (EF : Arr SEF) (src dst : IArr SE)
  (Wes : Arr SFF) (bes : Arr SF) (Wed : Arr SFF) (bed : Arr SF) (Wee : Arr SFF) (bee : Arr SF)
  (Wnd : Arr SFF) (bnd : Arr SF) (Wns : Arr SFF) (bns : Arr SF) (ge bge gn bgn : Arr SF)

/-- The source rows of e_src. -/
def g1 : Arr SEF := HostFn.take128 (RegionSpec.lin X Wes bes) src
/-- The destination rows of (e_dst | n_dst). -/
def g2 : Arr SE2F := HostFn.take256 (RegionSpec.lin2 X Wed bed Wnd bnd) dst
/-- eu. -/
def eu : Arr SEF := RegionSpec.euArr EF Wee bee (g1 X src Wes bes) (g2 X dst Wed bed Wnd bnd)
/-- The per-block partial sums of eu and of eu². -/
def psE : Arr SPE := RegionSpec.psumE EF Wee bee (g1 X src Wes bes) (g2 X dst Wed bed Wnd bnd)
def psqE : Arr SPE := RegionSpec.psumsqE EF Wee bee (g1 X src Wes bes) (g2 X dst Wed bed Wnd bnd)
/-- (num | den): the pair (n_dst·gate | gate) summed onto the destination nodes. -/
def cSum : Arr SN2F := HostFn.scat256 dst (RegionSpec.gateNum EF Wee bee (g1 X src Wes bes) (g2 X dst Wed bed Wnd bnd))
/-- nfu, and its per-block partial sums. -/
def nfu : Arr SNF := RegionSpec.nfuArr (cSum X EF src dst Wes bes Wed bed Wee bee Wnd bnd) (RegionSpec.lin X Wns bns)
def psN : Arr SPN := RegionSpec.psumN (cSum X EF src dst Wes bes Wed bed Wee bee Wnd bnd) (RegionSpec.lin X Wns bns)
def psqN : Arr SPN := RegionSpec.psumsqN (cSum X EF src dst Wes bes Wed bed Wee bee Wnd bnd) (RegionSpec.lin X Wns bns)

/-- The edge result. -/
def edgeOut : Arr SEF :=
  RegionSpec.bnE (eu X EF src dst Wes bes Wed bed Wee bee Wnd bnd) EF
    (HostFn.meanE (psE X EF src dst Wes bes Wed bed Wee bee Wnd bnd))
    (HostFn.varE (psE X EF src dst Wes bes Wed bed Wee bee Wnd bnd) (psqE X EF src dst Wes bes Wed bed Wee bee Wnd bnd)) ge bge

/-- The node result. -/
def nodeOut : Arr SNF :=
  RegionSpec.bnN (nfu X EF src dst Wes bes Wed bed Wee bee Wnd bnd Wns bns) X
    (HostFn.meanN (psN X EF src dst Wes bes Wed bed Wee bee Wnd bnd Wns bns))
    (HostFn.varN (psN X EF src dst Wes bes Wed bed Wee bee Wnd bnd Wns bns) (psqN X EF src dst Wes bes Wed bed Wee bee Wnd bnd Wns bns)) gn bgn

end Cert.KernelIdeal.KOut

end
-- ==== Proof.LibGather.lean ====
/-
  A row gather read at an index.  The operand is [N, C], the start indices a column [R, 1], the result [R, C]:
  result row r is operand row idx[r], the index word read signed and clamped into the row axis.
-/
import Idealize.ShloMosaic.PureOps
import Idealize.ShloMosaic.Lib.ValueIdx

noncomputable section

namespace Cert.LibGather

open Idealize.ShloMosaic Idealize.ShloMosaic.ValueIdx

/-- The dimension numbers of a row gather: offset axis 1, collapsed axis 0, the one index component addressing
    axis 0, the index vector along axis 1, slices of one whole row. -/
abbrev rowGather (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (r, k): the operand at row idx[r, 0] (read signed, clamped into [0, N − 1]), column k. -/
theorem gather_row_apply {α : Type} {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowGather N R C wf) x idx (ix2 r k)
      = x (ix2 ⟨min (idx (ix2 r (⟨0, Nat.one_pos⟩ : Fin 1))).toInt.toNat (N - 1), by omega⟩ k) := by
  unfold Host.gather
  congr 1
  -- the collapsed axis: no batching or offset coordinate, the start is the clamped index word
  have h0 : (rowGather N R C wf).start (ix2 r k) idx (0 : Fin 2) + (rowGather N R C wf).batchCoord (ix2 r k) (0 : Fin 2)
      + (rowGather N R C wf).offCoord (ix2 r k) (0 : Fin 2) = min (idx (ix2 r (⟨0, Nat.one_pos⟩ : Fin 1))).toInt.toNat (N - 1) := by
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowGather N R C wf).startIndexMap from List.mem_singleton.mpr rfl)]
    have hsi : (rowGather N R C wf).siIdx (ix2 r k) ⟨List.idxOf (0 : Fin 2) (rowGather N R C wf).startIndexMap,
        List.idxOf_lt_length_iff.2 (List.mem_singleton.mpr rfl)⟩ = ix2 r (⟨0, Nat.one_pos⟩ : Fin 1) := by
      funext b; refine Fin.ext ?_
      match b with
      | ⟨0, _⟩ => rfl
      | ⟨1, _⟩ => rfl
    rw [hsi]
    rfl
  -- the offset axis: the start is zero, the offset coordinate is the result's column
  have h1 : (rowGather N R C wf).start (ix2 r k) idx (1 : Fin 2) + (rowGather N R C wf).batchCoord (ix2 r k) (1 : Fin 2)
      + (rowGather N R C wf).offCoord (ix2 r k) (1 : Fin 2) = k.val := by
    have hm : (1 : Fin 2) ∉ (rowGather N R C wf).startIndexMap :=
      show (1 : Fin 2) ∉ ([0] : List (Fin 2)) by decide
    have hs : (rowGather N R C wf).start (ix2 r k) idx (1 : Fin 2) = 0 := by
      unfold GatherDims.start; rw [dif_neg hm]
    have hk : (1 : Fin 2) ∈ (rowGather N R C wf).sKept :=
      (GatherDims.mem_sKept _ _).mpr ⟨show (1 : Fin 2) ∉ ([0] : List (Fin 2)) by decide, List.not_mem_nil⟩
    have ho : (rowGather N R C wf).offCoord (ix2 r k) (1 : Fin 2) = k.val := by
      unfold GatherDims.offCoord; rw [dif_pos hk]; rfl
    rw [GatherDims.batchCoord_eq_zero _ _ _ List.not_mem_nil, hs, ho, Nat.add_zero, Nat.zero_add]
  funext a
  refine Fin.ext ?_
  match a with
  | ⟨0, _⟩ => exact h0
  | ⟨1, _⟩ => exact h1

end Cert.LibGather

end
-- ==== Proof.HostGather.lean ====
/-
  The filled row gathers between the regions, read at an index: with every index word a node index the fill never
  shows, and row e of the result is the row of the operand that the edge's index word names.
-/
import proofs.«409458_j13194139533628_3_alg».proof.Proof.Spec
import proofs.«409458_j13194139533628_3_alg».proof.Proof.HostFn
import proofs.«409458_j13194139533628_3_alg».proof.Proof.LibGather
import Idealize.ShloMosaic.Lib.ValueIdx

noncomputable section

open scoped BigOperators

namespace Cert.KernelIdeal.HostGather

open Idealize.ShloMosaic Idealize.ShloMosaic.ValueIdx Cert.Spec

/-! ## Words -/

/-- A fold by "and" from 1 over words that are all 1 is 1. -/
private theorem foldl_andi_one {ι : Type} (g : ι → BitVec 1) (hg : ∀ n, g n = 1#1) :
    ∀ l : List ι, l.foldl (fun r n => IntOp.andi r (g n)) 1#1 = 1#1
  | [] => rfl
  | a :: l => by
    rw [List.foldl_cons, hg a]
    exact foldl_andi_one g hg l

/-- A word that is not negative is not below zero in the signed order. -/
private theorem slt_zero_of_nonneg (x : BitVec 32) (h : 0 ≤ x.toInt) : IntOp.cmpi .slt x 0#32 ≠ 1#1 := by
  unfold IntOp.cmpi
  have : x.slt 0#32 = false := by
    simp only [BitVec.slt, BitVec.toInt_zero, decide_eq_false_iff_not]; omega
  rw [this]; exact (by decide : BitVec.ofBool false ≠ 1#1)

/-- A word that is not negative is at least zero in the signed order. -/
private theorem sge_zero_of_nonneg (x : BitVec 32) (h : 0 ≤ x.toInt) : IntOp.cmpi .sge x 0#32 = 1#1 := by
  unfold IntOp.cmpi
  have : (0#32).sle x = true := by
    simp only [BitVec.sle, BitVec.toInt_zero, decide_eq_true_eq]; exact h
  rw [this]; rfl

/-- A word below the number of nodes is at most the last node in the signed order. -/
private theorem sle_last_of_lt (x : BitVec 32) (h : x.toInt < 100000) : IntOp.cmpi .sle x 99999#32 = 1#1 := by
  unfold IntOp.cmpi
  have h9 : (99999#32 : BitVec 32).toInt = 99999 := by decide
  have : x.sle 99999#32 = true := by
    simp only [BitVec.sle, h9, decide_eq_true_eq]; omega
  rw [this]; rfl

/-! ## The index column and the in-range flag -/

/-- With no negative word the wrapped index words are the words. -/
theorem wrapIx_apply (ix : IArr SE) (h : InRange ix) (e : Fin 600000) : HostFn.wrapIx ix (ix1 e) = ix (ix1 e) := by
  show Scalar.select (IntOp.cmpi .slt (ix (ix1 e)) 0#32) _ _ = _
  exact if_neg (slt_zero_of_nonneg _ (h e).1)

/-- The column of wrapped words at row e is edge e's word. -/
theorem colIx_apply (ix : IArr SE) (h : InRange ix) (e : Fin 600000) (c : Fin 1) :
    HostFn.colIx ix (ix2 e c) = ix (ix1 e) := by
  have e1 : HostFn.colIx ix (ix2 e c) = HostFn.wrapIx ix (ix1 e) := by
    unfold HostFn.colIx broadcastInDim
    refine congrArg _ (funext fun a => ?_)
    match a with
    | ⟨0, _⟩ => rfl
  rw [e1, wrapIx_apply ix h]

/-- With every word a node index, both comparisons hold at every entry of the column. -/
private theorem flags_apply (ix : IArr SE) (h : InRange ix) (i : S600000x1.Idx) :
    IntOp.andi (IntOp.cmpi .sge (HostFn.colIx ix i) 0#32) (IntOp.cmpi .sle (HostFn.colIx ix i) 99999#32) = 1#1 := by
  obtain ⟨e, c, rfl⟩ : ∃ (e : Fin 600000) (c : Fin 1), i = ix2 e c := ⟨i 0, i 1, eq_ix2 i⟩
  rw [colIx_apply ix h, sge_zero_of_nonneg _ (h e).1, sle_last_of_lt _ (h e).2]
  rfl

/-- With every word a node index, every edge's word is inside the node axis. -/
theorem inb_apply (ix : IArr SE) (h : InRange ix) (j : S600000.Idx) : HostFn.inb ix j = 1#1 := by
  unfold HostFn.inb Host.reduce
  exact foldl_andi_one _ (fun n => flags_apply ix h _) _

/-! ## The gathers -/

/-- The program's dimension numbers of the 128-wide gather are the row gather's. -/
theorem gather128_eq : gather_S100000x128_S600000x1_S600000x128_1_0_n_n_0_1_1128
    = LibGather.rowGather 100000 600000 128 Facts₀.gather_S100000x128_S600000x1_S600000x128_1_0_n_n_0_1_1128_wf := rfl

/-- The program's dimension numbers of the 256-wide gather are the row gather's. -/
theorem gather256_eq : gather_S100000x256_S600000x1_S600000x256_1_0_n_n_0_1_1256
    = LibGather.rowGather 100000 600000 256 Facts₀.gather_S100000x256_S600000x1_S600000x256_1_0_n_n_0_1_1256_wf := rfl

theorem take128_apply (A : Arr SNF) (ix : IArr SE) (h : InRange ix) (e : Fin 600000) (q : Fin 128) :
    HostFn.take128 A ix (ix2 e q) = A (ix2 (node ix e) q) := by
  have hc : broadcastInDim S600000x128 ![0] Facts₀.bcast_S600000_S600000x128_0 (HostFn.inb ix) (ix2 e q) = 1#1 := by
    unfold broadcastInDim
    exact inb_apply ix h _
  unfold HostFn.take128
  show Scalar.select _ _ _ = _
  refine (if_pos hc).trans ?_
  rw [gather128_eq, LibGather.gather_row_apply (by decide)]
  refine congrArg A (congrArg (fun p => ix2 p q) (Fin.ext ?_))
  show min (HostFn.colIx ix (ix2 e ⟨0, Nat.one_pos⟩)).toInt.toNat (100000 - 1) = min (ix (ix1 e)).toInt.toNat 99999
  rw [colIx_apply ix h]

theorem take256_apply (A : Arr SN2F) (ix : IArr SE) (h : InRange ix) (e : Fin 600000) (k : Fin 256) :
    HostFn.take256 A ix (ix2 e k) = A (ix2 (node ix e) k) := by
  have hc : broadcastInDim S600000x256 ![0] Facts₀.bcast_S600000_S600000x256_0 (HostFn.inb ix) (ix2 e k) = 1#1 := by
    unfold broadcastInDim
    exact inb_apply ix h _
  unfold HostFn.take256
  show Scalar.select _ _ _ = _
  refine (if_pos hc).trans ?_
  rw [gather256_eq, LibGather.gather_row_apply (by decide)]
  refine congrArg A (congrArg (fun p => ix2 p k) (Fin.ext ?_))
  show min (HostFn.colIx ix (ix2 e ⟨0, Nat.one_pos⟩)).toInt.toNat (100000 - 1) = min (ix (ix1 e)).toInt.toNat 99999
  rw [colIx_apply ix h]

end Cert.KernelIdeal.HostGather

end
-- ==== Proof.LibScatter.lean ====
/-
  A row scatter-add read at an index, over the extended reals.  The operand is [N, C], the scatter indices a column
  [R, 1], the updates [R, C]: update row r is added onto operand row idx[r] (the index word read signed; a row landing
  outside the operand is dropped), so each operand element gains the sum of the updates of the rows that land on it.
-/
import Idealize.ShloMosaic.PureOps.Ideal
import Idealize.ShloMosaic.Lib.ValueIdx

noncomputable section

open scoped BigOperators

namespace Cert.LibScatter

open Idealize.ShloMosaic Idealize.ShloMosaic.ValueIdx

/-- The dimension numbers of a row scatter: update window axis 1, inserted window axis 0, the one index component
    addressing axis 0, the index vector along axis 1. -/
abbrev rowScatter (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section Facts
variable {N R C w : Nat} (wf : ScatterDims.WF ⟨2, ![N, C]⟩ ⟨2, ![R, 1]⟩ ⟨2, ![R, C]⟩ [1] [0] [0] 1)
    (idx : IVec ⟨2, ![R, 1]⟩ w) (r : Fin R) (k : Fin C)

/-- Operand axis 0 is inserted: no window coordinate there. -/
private theorem window0 : (rowScatter N R C wf).window (ix2 r k) 0 = 0 := rfl
/-- Operand axis 1 carries the update's column. -/
private theorem window1 : (rowScatter N R C wf).window (ix2 r k) 1 = k.val := rfl
/-- Operand axis 1 is not addressed by the index: its start is zero. -/
private theorem start1 : (rowScatter N R C wf).start (ix2 r k) idx 1 = 0 := rfl
/-- Operand axis 0 starts at row r's index word, read signed. -/
private theorem start0 : (rowScatter N R C wf).start (ix2 r k) idx 0 = (idx (ix2 r (⟨0, Nat.one_pos⟩ : Fin 1))).toInt := by
  unfold ScatterDims.start
  rw [dif_pos (show (0 : Fin 2) ∈ (rowScatter N R C wf).scatterDimsToOperandDims from List.mem_singleton.mpr rfl)]
  congr 2
  funext b
  refine Fin.ext ?_
  match b with
  | ⟨0, _⟩ => rfl
  | ⟨1, _⟩ => rfl
end Facts

/-- Update element (r, k) lands on operand element (p, k') exactly when row r's index word is p and the columns agree. -/
theorem rowScatter_resultIdx {N R C w : Nat} (wf : ScatterDims.WF ⟨2, ![N, C]⟩ ⟨2, ![R, 1]⟩ ⟨2, ![R, C]⟩ [1] [0] [0] 1)
    (idx : IVec ⟨2, ![R, 1]⟩ w) (r : Fin R) (k : Fin C) (p : Fin N) (k' : Fin C) :
    (rowScatter N R C wf).resultIdx? (ix2 r k) idx = some (ix2 p k')
      ↔ (idx (ix2 r (⟨0, Nat.one_pos⟩ : Fin 1))).toInt = (p.val : ℤ) ∧ k = k' := by
  have hs0 := start0 wf idx r k
  have hs1 := start1 wf idx r k
  have hw0 := window0 wf r k
  have hw1 := window1 wf r k
  unfold ScatterDims.resultIdx?
  split
  · -- the landing point is inside the operand: compare it with (p, k') coordinate by coordinate
    rename_i h
    rw [Option.some.injEq]
    constructor
    · intro hf
      have h0 := congrArg Fin.val (congrFun hf 0)
      have h1 := congrArg Fin.val (congrFun hf 1)
      have hb0 := h 0
      have hb1 := h 1
      simp only [hs0, hs1, hw0, hw1] at h0 h1 hb0 hb1
      change _ = p.val at h0
      change _ = k'.val at h1
      refine ⟨by omega, Fin.ext (by omega)⟩
    · rintro ⟨hp, rfl⟩
      funext a
      refine Fin.ext ?_
      match a with
      | ⟨0, _⟩ =>
        show ((rowScatter N R C wf).start (ix2 r k) idx 0 + (rowScatter N R C wf).window (ix2 r k) 0).toNat = p.val
        rw [hs0, hw0, hp]; simp
      | ⟨1, _⟩ =>
        show ((rowScatter N R C wf).start (ix2 r k) idx 1 + (rowScatter N R C wf).window (ix2 r k) 1).toNat = k.val
        rw [hs1, hw1]; simp
  · -- the landing point is outside the operand: then the word cannot be a row p < N
    rename_i h
    constructor
    · intro hf; exact absurd hf (by simp)
    · rintro ⟨hp, rfl⟩
      exfalso
      apply h
      intro a
      match a with
      | ⟨0, _⟩ =>
        show 0 ≤ (rowScatter N R C wf).start (ix2 r k) idx 0 + (rowScatter N R C wf).window (ix2 r k) 0 ∧
          (rowScatter N R C wf).start (ix2 r k) idx 0 + (rowScatter N R C wf).window (ix2 r k) 0 < (N : ℤ)
        rw [hs0, hw0, hp]
        have := p.isLt
        constructor <;> omega
      | ⟨1, _⟩ =>
        show 0 ≤ (rowScatter N R C wf).start (ix2 r k) idx 1 + (rowScatter N R C wf).window (ix2 r k) 1 ∧
          (rowScatter N R C wf).start (ix2 r k) idx 1 + (rowScatter N R C wf).window (ix2 r k) 1 < (C : ℤ)
        rw [hs1, hw1]
        have := k.isLt
        constructor <;> omega

/-- THE ROW SCATTER-ADD READ AT (p, k): the operand there plus the sum, over the rows whose index word is p, of the
    update at column k. -/
theorem scatterAdd_row_apply {N R C w : Nat} (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (p : Fin N) (k : Fin C) :
    Ideal.hostScatterAdd (rowScatter N R C wf) x idx upd (ix2 p k)
      = x (ix2 p k) + ∑ r ∈ Finset.univ.filter (fun r : Fin R => (idx (ix2 r (⟨0, Nat.one_pos⟩ : Fin 1))).toInt = (p.val : ℤ)),
          upd (ix2 r k) := by
  unfold Ideal.hostScatterAdd
  congr 1
  symm
  -- the update elements landing on (p, k) are exactly the (r, k) with row r's word equal to p
  refine Finset.sum_bij (fun r _ => ix2 r k) ?_ ?_ ?_ ?_
  · intro r hr
    rw [Finset.mem_filter] at hr ⊢
    exact ⟨Finset.mem_univ _, (rowScatter_resultIdx wf idx r k p k).mpr ⟨hr.2, rfl⟩⟩
  · intro r₁ _ r₂ _ h
    exact congrFun h 0
  · intro j hj
    obtain ⟨a, b, rfl⟩ : ∃ (a : Fin R) (b : Fin C), j = ix2 a b := ⟨j 0, j 1, eq_ix2 j⟩
    rw [Finset.mem_filter] at hj
    have hj2 := (rowScatter_resultIdx wf idx a b p k).mp hj.2
    refine ⟨a, ?_, ?_⟩
    · rw [Finset.mem_filter]; exact ⟨Finset.mem_univ _, hj2.1⟩
    · rw [hj2.2]
  · intro r _; rfl

end Cert.LibScatter

end
-- ==== Proof.HostScatter.lean ====
/-
  The scatter-add of the 256-wide edge rows onto zeros, read at an index: per node and column, the sum over the
  edges whose index word names the node.
-/
import proofs.«409458_j13194139533628_3_alg».proof.Proof.Spec
import proofs.«409458_j13194139533628_3_alg».proof.Proof.HostFn
import proofs.«409458_j13194139533628_3_alg».proof.Proof.LibScatter
import Idealize.ShloMosaic.Lib.ValueIdx

noncomputable section

open scoped BigOperators

namespace Cert.KernelIdeal.HostScatter

open Idealize.ShloMosaic Idealize.ShloMosaic.ValueIdx Cert.Spec

/-- The program's scatter record is the row scatter's. -/
private theorem scatter_eq_rowScatter :
    Cert.KernelIdeal.scatter_S100000x256_S600000x1_S600000x256_1_0_0_1
      = Cert.LibScatter.rowScatter 100000 600000 256
          Cert.KernelIdeal.Facts₀.scatter_S100000x256_S600000x1_S600000x256_1_0_0_1_wf := rfl

/-- The scatter-add onto zeros read at (p, k): the zero operand contributes nothing, the index column read at row e is
    the edge's index word, and for a word in range "the word is p" is "the edge's node is p". -/
theorem scat256_apply (ix : IArr SE) (h : InRange ix) (U : Arr SE2F) (p : Fin 100000) (k : Fin 256) :
    HostFn.scat256 ix U (ix2 p k) = ∑ e ∈ Finset.univ.filter (fun e : Fin 600000 => node ix e = p), U (ix2 e k) := by
  unfold HostFn.scat256 Host.scatterAdd
  rw [Ideal.hostScatterAdd_def, scatter_eq_rowScatter, Cert.LibScatter.scatterAdd_row_apply]
  have hz : broadcastInDim S100000x256 ![] Cert.KernelIdeal.Facts₀.bcast_S_S100000x256
      (constant (F := Ideal) S_ .f32 0x00000000#32) (ix2 p k) = 0 := by
    unfold broadcastInDim
    rw [constant_apply]
    simp [Ideal.ofBits, Ideal.ieee]
  rw [hz, zero_add]
  refine Finset.sum_congr (Finset.filter_congr fun e _ => ?_) (fun _ _ => rfl)
  have hcol : broadcastInDim S600000x1 ![0] Cert.KernelIdeal.Facts₀.bcast_S600000_S600000x1_0 ix
      (ix2 e (⟨0, Nat.one_pos⟩ : Fin 1)) = ix (ix1 e) := by
    unfold broadcastInDim
    refine congrArg ix (funext fun a => ?_)
    match a with
    | ⟨0, _⟩ => rfl
  rw [hcol]
  obtain ⟨h0, h1⟩ := h e
  unfold node
  rw [Fin.ext_iff]
  simp only []
  omega

end Cert.KernelIdeal.HostScatter

end
-- ==== Proof.HostStats.lean ====
/-
  The batch statistics the host recovers from the partial-sum tiles, read at a feature: the sum of the tiles over
  the blocks and their 8 rows, over the count literal; and the cut-off difference of the two means.
-/
import proofs.«409458_j13194139533628_3_alg».proof.Proof.Spec
import proofs.«409458_j13194139533628_3_alg».proof.Proof.HostFn
import Idealize.ShloMosaic.Lib.ValueIdx
import Idealize.ShloMosaic.PureOps.Ideal.Laws

noncomputable section

open scoped BigOperators

namespace Cert.KernelIdeal.HostStats

open Idealize.ShloMosaic Idealize.ShloMosaic.ValueIdx Cert.Spec

/-- Dropping the block and row axes of a [B, 8, 128] index leaves its feature coordinate: the dropped index is the
    feature `q` exactly when the third coordinate is. -/
private theorem drop_iff {B : ℕ} (h : Shape.ReducesTo ⟨3, ![B, 8, 128]⟩ [0, 1] ⟨1, ![128]⟩)
    (i : (⟨3, ![B, 8, 128]⟩ : Shape).Idx) (q : Fin 128) :
    h.drop i = ix1 q ↔ (i 2 : ℕ) = q := by
  have hv : (h.drop i 0 : ℕ) = i 2 := rfl
  constructor
  · intro e; rw [← hv, e]
  · intro e; funext d
    match d with
    | ⟨0, _⟩ => exact Fin.ext (by rw [← e]; exact hv)

/-- The sum over the indices of a [B, 8, 128] array that drop to the feature `q` is the double sum over the blocks and
    their 8 rows at that feature: (b, r) ↦ (b, r, q) is a bijection onto those indices. -/
private theorem sum_two_axes {B : ℕ} (h : Shape.ReducesTo ⟨3, ![B, 8, 128]⟩ [0, 1] ⟨1, ![128]⟩)
    (P : (⟨3, ![B, 8, 128]⟩ : Shape).Idx → EReal) (q : Fin 128) :
    ∑ i ∈ Finset.univ.filter (fun i => h.drop i = ix1 q), P i = ∑ b : Fin B, ∑ r : Fin 8, P (ix3 b r q) := by
  rw [← Finset.sum_product' (Finset.univ : Finset (Fin B)) (Finset.univ : Finset (Fin 8)) (fun b r => P (ix3 b r q))]
  symm
  refine Finset.sum_bij' (fun x _ => ix3 x.1 x.2 q) (fun i _ => (i 0, i 1)) ?_ ?_ ?_ ?_ ?_
  · intro x _; simp only [Finset.mem_filter, Finset.mem_univ, true_and]; exact (drop_iff h _ q).2 rfl
  · intro i _; simp
  · intro x _; rfl
  · intro i hi
    have hq : (i 2 : ℕ) = q := (drop_iff h i q).1 (Finset.mem_filter.1 hi).2
    have : i 2 = q := Fin.ext hq
    conv_rhs => rw [eq_ix3 i]
    rw [this]; rfl
  · intro x _; rfl

/-- The edge mean at a feature: the initial zero plus the sum of the tiles that drop to the feature, over the count. -/
theorem meanE_apply (P : Arr SPE) (q : Fin 128) :
    HostFn.meanE P (ix1 q) = Ideal.div (∑ b : Fin 250, ∑ r : Fin 8, P (ix3 b r q)) cntE := by
  unfold cntE
  show Ideal.div (Ideal.hostReduceAdd _ P (Ideal.ofBits .f32 0x00000000#32) (ix1 q))
      (Ideal.ofBits .f32 0x49127C00#32) = _
  unfold Ideal.hostReduceAdd
  rw [sum_two_axes, Ideal.ofBits_zero_f32, zero_add]

/-- The edge variance at a feature: the difference of the two means, cut off at the zero constant. -/
theorem varE_apply (P Q : Arr SPE) (q : Fin 128) :
    HostFn.varE P Q (ix1 q) = max (HostFn.meanE Q (ix1 q) - HostFn.meanE P (ix1 q) * HostFn.meanE P (ix1 q)) 0 := by
  show max (HostFn.meanE Q (ix1 q) - HostFn.meanE P (ix1 q) * HostFn.meanE P (ix1 q))
      (Ideal.ofBits .f32 0x00000000#32) = _
  rw [Ideal.ofBits_zero_f32]

/-- The node mean at a feature, as the edge mean with 50 blocks. -/
theorem meanN_apply (P : Arr SPN) (q : Fin 128) :
    HostFn.meanN P (ix1 q) = Ideal.div (∑ b : Fin 50, ∑ r : Fin 8, P (ix3 b r q)) cntN := by
  unfold cntN
  show Ideal.div (Ideal.hostReduceAdd _ P (Ideal.ofBits .f32 0x00000000#32) (ix1 q))
      (Ideal.ofBits .f32 0x47C35000#32) = _
  unfold Ideal.hostReduceAdd
  rw [sum_two_axes, Ideal.ofBits_zero_f32, zero_add]

/-- The node variance at a feature. -/
theorem varN_apply (P Q : Arr SPN) (q : Fin 128) :
    HostFn.varN P Q (ix1 q) = max (HostFn.meanN Q (ix1 q) - HostFn.meanN P (ix1 q) * HostFn.meanN P (ix1 q)) 0 := by
  show max (HostFn.meanN Q (ix1 q) - HostFn.meanN P (ix1 q) * HostFn.meanN P (ix1 q))
      (Ideal.ofBits .f32 0x00000000#32) = _
  rw [Ideal.ofBits_zero_f32]

end Cert.KernelIdeal.HostStats

end
-- ==== Proof.MathSums.lean ====
/-
  The per-block partial sums of a column, one tile of 8 rows per block with the block's sum in row 0 and zeros
  below, add up over the blocks and rows to the column's sum: the rows are the blocks laid end to end.
-/
import proofs.«409458_j13194139533628_3_alg».proof.Proof.Spec

noncomputable section

open scoped BigOperators

namespace Cert.MathSums

open Idealize.ShloMosaic Idealize.ShloMosaic.ValueIdx Cert.Spec

/-- A tile of 8 rows carrying a value in row 0 and zeros below sums to that value. -/
private theorem sum_row0 (S : EReal) : ∑ r : Fin 8, (if r.val = 0 then S else 0) = S := by
  rw [Finset.sum_eq_single (0 : Fin 8)]
  · exact if_pos rfl
  · intro r _ hr
    have hv : r.val ≠ 0 := fun h => hr (Fin.ext h)
    exact if_neg hv
  · intro h
    exact absurd (Finset.mem_univ _) h

/-- Summing block by block, each block a run of n consecutive rows, is summing over all m * n rows:
    the pair (block, offset) ↦ n * block + offset is a bijection onto the rows. -/
private theorem sum_blocks {m n N : ℕ} (h : m * n = N) (f : Fin N → EReal)
    (row : Fin m → Fin n → Fin N) (hrow : ∀ b t, (row b t).val = n * b.val + t.val) :
    ∑ b : Fin m, ∑ t : Fin n, f (row b t) = ∑ e : Fin N, f e := by
  subst h
  rw [← Fintype.sum_prod_type' (fun b t => f (row b t))]
  refine Fintype.sum_equiv finProdFinEquiv _ _ (fun p => ?_)
  congr 1
  apply Fin.ext
  rw [hrow]
  show n * p.1.val + p.2.val = p.2.val + n * p.1.val
  exact Nat.add_comm _ _

theorem partialE_sum (x : Fin 600000 → Fin 128 → EReal) (q : Fin 128) :
    ∑ b : Fin 250, ∑ r : Fin 8, partialE x b r q = ∑ e : Fin 600000, x e q := by
  have h1 : ∀ b : Fin 250, ∑ r : Fin 8, partialE x b r q = ∑ t : Fin 2400, x (rowE b t) q := by
    intro b
    unfold partialE
    exact sum_row0 _
  rw [Finset.sum_congr rfl (fun b _ => h1 b)]
  exact sum_blocks (by norm_num) (fun e => x e q) rowE (fun _ _ => rfl)

theorem partialN_sum (x : Fin 100000 → Fin 128 → EReal) (q : Fin 128) :
    ∑ b : Fin 50, ∑ r : Fin 8, partialN x b r q = ∑ p : Fin 100000, x p q := by
  have h1 : ∀ b : Fin 50, ∑ r : Fin 8, partialN x b r q = ∑ t : Fin 2000, x (rowN b t) q := by
    intro b
    unfold partialN
    exact sum_row0 _
  rw [Finset.sum_congr rfl (fun b _ => h1 b)]
  exact sum_blocks (by norm_num) (fun e => x e q) rowN (fun _ _ => rfl)

end Cert.MathSums

end
-- ==== Proof.KValue.lean ====
/-
  The kernel's two results at an index, in the vocabulary of the specification: with every index word a node index
  the gathered rows are the rows at the edge's endpoints, the scattered pair is (num | den), and the statistics read
  off the partial sums are the column's mean and the mean of its squares.
-/
import proofs.«409458_j13194139533628_3_alg».proof.Proof.KOut
import proofs.«409458_j13194139533628_3_alg».proof.Proof.HostGather
import proofs.«409458_j13194139533628_3_alg».proof.Proof.HostScatter
import proofs.«409458_j13194139533628_3_alg».proof.Proof.HostStats
import proofs.«409458_j13194139533628_3_alg».proof.Proof.MathSums

noncomputable section

open scoped BigOperators

namespace Cert.KernelIdeal.KValue

open Idealize.ShloMosaic Idealize.ShloMosaic.ValueIdx Cert.Spec

variable (X : Arr SNF) (EF : Arr SEF) (src dst : IArr SE)
  (Wes : Arr SFF) (bes : Arr SF) (Wed : Arr SFF) (bed : Arr SF) (Wee : Arr SFF) (bee : Arr SF)
  (Wnd : Arr SFF) (bnd : Arr SF) (Wns : Arr SFF) (bns : Arr SF) (ge bge gn bgn : Arr SF)

/-! ## The linear maps at an index -/

/-- A linear map's array at (p, q) is the coordinate formula. -/
private theorem lin_apply (W : Arr SFF) (b : Arr SF) (p : Fin 100000) (q : Fin 128) :
    RegionSpec.lin X W b (ix2 p q) = linN X W b p q := rfl

/-- The left half of the side-by-side pair is the first map. -/
private theorem lin2_colL (W₁ : Arr SFF) (b₁ : Arr SF) (W₂ : Arr SFF) (b₂ : Arr SF) (p : Fin 100000) (q : Fin 128) :
    RegionSpec.lin2 X W₁ b₁ W₂ b₂ (ix2 p (colL q)) = linN X W₁ b₁ p q := by
  have h : ((ix2 p (colL q) : SN2F.Idx) 1).val < 128 := q.isLt
  show (if h : ((ix2 p (colL q) : SN2F.Idx) 1).val < 128 then _ else _) = _
  rw [dif_pos h]
  rfl

/-- The right half of the side-by-side pair is the second map. -/
private theorem lin2_colR (W₁ : Arr SFF) (b₁ : Arr SF) (W₂ : Arr SFF) (b₂ : Arr SF) (p : Fin 100000) (q : Fin 128) :
    RegionSpec.lin2 X W₁ b₁ W₂ b₂ (ix2 p (colR q)) = linN X W₂ b₂ p q := by
  have h : ¬ ((ix2 p (colR q) : SN2F.Idx) 1).val < 128 := by
    show ¬ (128 + q.val < 128)
    omega
  show (if h : ((ix2 p (colR q) : SN2F.Idx) 1).val < 128 then _ else _) = _
  rw [dif_neg h]
  have hq : (⟨((ix2 p (colR q) : SN2F.Idx) 1).val - 128, by have := q.isLt; show 128 + q.val - 128 < 128; omega⟩ : Fin 128) = q :=
    Fin.ext (show 128 + q.val - 128 = q.val from Nat.add_sub_cancel_left 128 q.val)
  exact congrArg (linN X W₂ b₂ p) hq

/-! ## The edge update -/

/-- With the gathered rows those of the edge's endpoints, the region's eu is the specification's. -/
private theorem euG_eq (hs : InRange src) (hd : InRange dst) (e : Fin 600000) (q : Fin 128) :
    RegionSpec.euG EF Wee bee (KOut.g1 X src Wes bes) (KOut.g2 X dst Wed bed Wnd bnd) e q
      = Spec.eu X EF src dst Wes bes Wed bed Wee bee e q := by
  unfold RegionSpec.euG Spec.eu KOut.g1 KOut.g2
  rw [HostGather.take128_apply _ _ hs, HostGather.take256_apply _ _ hd, lin_apply, lin2_colL]

/-- The kernel's eu is the specification's. -/
theorem eu_apply (hs : InRange src) (hd : InRange dst) (e : Fin 600000) (q : Fin 128) :
    KOut.eu X EF src dst Wes bes Wed bed Wee bee Wnd bnd (ix2 e q) = Spec.eu X EF src dst Wes bes Wed bed Wee bee e q :=
  euG_eq X EF src dst Wes bes Wed bed Wee bee Wnd bnd hs hd e q

/-! ## The edge statistics -/

/-- The mean recovered from the partial sums of eu is the column's mean. -/
private theorem meanE_eq (hs : InRange src) (hd : InRange dst) (q : Fin 128) :
    HostFn.meanE (KOut.psE X EF src dst Wes bes Wed bed Wee bee Wnd bnd) (ix1 q)
      = meanOf cntE (fun e' => Spec.eu X EF src dst Wes bes Wed bed Wee bee e' q) := by
  rw [HostStats.meanE_apply]
  unfold meanOf
  have h : ∀ (b : Fin 250) (r : Fin 8), KOut.psE X EF src dst Wes bes Wed bed Wee bee Wnd bnd (ix3 b r q)
      = partialE (RegionSpec.euG EF Wee bee (KOut.g1 X src Wes bes) (KOut.g2 X dst Wed bed Wnd bnd)) b r q :=
    fun _ _ => rfl
  rw [Finset.sum_congr rfl (fun b _ => Finset.sum_congr rfl (fun r _ => h b r)), MathSums.partialE_sum,
    Finset.sum_congr rfl (fun e _ => euG_eq X EF src dst Wes bes Wed bed Wee bee Wnd bnd hs hd e q)]

/-- The mean recovered from the partial sums of eu² is the mean of the column's squares. -/
private theorem meanSqE_eq (hs : InRange src) (hd : InRange dst) (q : Fin 128) :
    HostFn.meanE (KOut.psqE X EF src dst Wes bes Wed bed Wee bee Wnd bnd) (ix1 q)
      = Ideal.div (∑ e' : Fin 600000, Spec.eu X EF src dst Wes bes Wed bed Wee bee e' q
          * Spec.eu X EF src dst Wes bes Wed bed Wee bee e' q) cntE := by
  rw [HostStats.meanE_apply]
  have h : ∀ (b : Fin 250) (r : Fin 8), KOut.psqE X EF src dst Wes bes Wed bed Wee bee Wnd bnd (ix3 b r q)
      = partialE (fun e q => RegionSpec.euG EF Wee bee (KOut.g1 X src Wes bes) (KOut.g2 X dst Wed bed Wnd bnd) e q
          * RegionSpec.euG EF Wee bee (KOut.g1 X src Wes bes) (KOut.g2 X dst Wed bed Wnd bnd) e q) b r q :=
    fun _ _ => rfl
  rw [Finset.sum_congr rfl (fun b _ => Finset.sum_congr rfl (fun r _ => h b r)), MathSums.partialE_sum]
  refine congrArg (fun s => Ideal.div s cntE) (Finset.sum_congr rfl (fun e _ => ?_))
  show RegionSpec.euG EF Wee bee (KOut.g1 X src Wes bes) (KOut.g2 X dst Wed bed Wnd bnd) e q
      * RegionSpec.euG EF Wee bee (KOut.g1 X src Wes bes) (KOut.g2 X dst Wed bed Wnd bnd) e q = _
  rw [euG_eq X EF src dst Wes bes Wed bed Wee bee Wnd bnd hs hd e q]

/-- The variance recovered from the two families of partial sums is the column's. -/
private theorem varE_eq (hs : InRange src) (hd : InRange dst) (q : Fin 128) :
    HostFn.varE (KOut.psE X EF src dst Wes bes Wed bed Wee bee Wnd bnd)
        (KOut.psqE X EF src dst Wes bes Wed bed Wee bee Wnd bnd) (ix1 q)
      = varSq cntE (fun e' => Spec.eu X EF src dst Wes bes Wed bed Wee bee e' q) := by
  rw [HostStats.varE_apply, meanE_eq X EF src dst Wes bes Wed bed Wee bee Wnd bnd hs hd q,
    meanSqE_eq X EF src dst Wes bes Wed bed Wee bee Wnd bnd hs hd q]
  rfl

theorem edgeOut_apply (hs : InRange src) (hd : InRange dst) (e : Fin 600000) (q : Fin 128) :
    KOut.edgeOut X EF src dst Wes bes Wed bed Wee bee Wnd bnd ge bge (ix2 e q)
      = bn (Spec.eu X EF src dst Wes bes Wed bed Wee bee e q)
          (meanOf cntE fun e' => Spec.eu X EF src dst Wes bes Wed bed Wee bee e' q)
          (varSq cntE fun e' => Spec.eu X EF src dst Wes bes Wed bed Wee bee e' q)
          (ge (ix1 q)) (bge (ix1 q)) (EF (ix2 e q)) := by
  show bn (KOut.eu X EF src dst Wes bes Wed bed Wee bee Wnd bnd (ix2 e q))
      (HostFn.meanE (KOut.psE X EF src dst Wes bes Wed bed Wee bee Wnd bnd) (ix1 q))
      (HostFn.varE (KOut.psE X EF src dst Wes bes Wed bed Wee bee Wnd bnd)
        (KOut.psqE X EF src dst Wes bes Wed bed Wee bee Wnd bnd) (ix1 q))
      (ge (ix1 q)) (bge (ix1 q)) (EF (ix2 e q)) = _
  rw [eu_apply X EF src dst Wes bes Wed bed Wee bee Wnd bnd hs hd e q,
    meanE_eq X EF src dst Wes bes Wed bed Wee bee Wnd bnd hs hd q,
    varE_eq X EF src dst Wes bes Wed bed Wee bee Wnd bnd hs hd q]

/-! ## The scattered pair -/

/-- The left half of the pair at an edge row: the gathered n_dst row times the gate. -/
private theorem gateNum_colL (hs : InRange src) (hd : InRange dst) (e : Fin 600000) (q : Fin 128) :
    RegionSpec.gateNum EF Wee bee (KOut.g1 X src Wes bes) (KOut.g2 X dst Wed bed Wnd bnd) (ix2 e (colL q))
      = linN X Wnd bnd (node dst e) q * gate X EF src dst Wes bes Wed bed Wee bee e q := by
  have h : ((ix2 e (colL q) : SE2F.Idx) 1).val < 128 := q.isLt
  show (if h : ((ix2 e (colL q) : SE2F.Idx) 1).val < 128 then _ else _) = _
  rw [dif_pos h]
  show KOut.g2 X dst Wed bed Wnd bnd (ix2 e (colR q))
      * silu (RegionSpec.euG EF Wee bee (KOut.g1 X src Wes bes) (KOut.g2 X dst Wed bed Wnd bnd) e q) = _
  rw [euG_eq X EF src dst Wes bes Wed bed Wee bee Wnd bnd hs hd e q]
  unfold KOut.g2
  rw [HostGather.take256_apply _ _ hd, lin2_colR]
  rfl

/-- The right half of the pair at an edge row: the gate. -/
private theorem gateNum_colR (hs : InRange src) (hd : InRange dst) (e : Fin 600000) (q : Fin 128) :
    RegionSpec.gateNum EF Wee bee (KOut.g1 X src Wes bes) (KOut.g2 X dst Wed bed Wnd bnd) (ix2 e (colR q))
      = gate X EF src dst Wes bes Wed bed Wee bee e q := by
  have h : ¬ ((ix2 e (colR q) : SE2F.Idx) 1).val < 128 := by
    show ¬ (128 + q.val < 128)
    omega
  show (if h : ((ix2 e (colR q) : SE2F.Idx) 1).val < 128 then _ else _) = _
  rw [dif_neg h]
  have hq : (⟨((ix2 e (colR q) : SE2F.Idx) 1).val - 128, by have := q.isLt; show 128 + q.val - 128 < 128; omega⟩ : Fin 128) = q :=
    Fin.ext (show 128 + q.val - 128 = q.val from Nat.add_sub_cancel_left 128 q.val)
  have h2 : RegionSpec.euG EF Wee bee (KOut.g1 X src Wes bes) (KOut.g2 X dst Wed bed Wnd bnd) e
        ⟨((ix2 e (colR q) : SE2F.Idx) 1).val - 128, by have := q.isLt; show 128 + q.val - 128 < 128; omega⟩
      = Spec.eu X EF src dst Wes bes Wed bed Wee bee e q := by
    rw [hq]
    exact euG_eq X EF src dst Wes bes Wed bed Wee bee Wnd bnd hs hd e q
  exact congrArg silu h2

/-- The left half of the scattered pair is num. -/
private theorem cSum_colL (hs : InRange src) (hd : InRange dst) (p : Fin 100000) (q : Fin 128) :
    KOut.cSum X EF src dst Wes bes Wed bed Wee bee Wnd bnd (ix2 p (colL q))
      = num X EF src dst Wes bes Wed bed Wee bee Wnd bnd p q := by
  unfold KOut.cSum num
  rw [HostScatter.scat256_apply _ hd]
  exact Finset.sum_congr rfl (fun e _ => gateNum_colL X EF src dst Wes bes Wed bed Wee bee Wnd bnd hs hd e q)

/-- The right half of the scattered pair is den. -/
private theorem cSum_colR (hs : InRange src) (hd : InRange dst) (p : Fin 100000) (q : Fin 128) :
    KOut.cSum X EF src dst Wes bes Wed bed Wee bee Wnd bnd (ix2 p (colR q))
      = den X EF src dst Wes bes Wed bed Wee bee p q := by
  unfold KOut.cSum den
  rw [HostScatter.scat256_apply _ hd]
  exact Finset.sum_congr rfl (fun e _ => gateNum_colR X EF src dst Wes bes Wed bed Wee bee Wnd bnd hs hd e q)

/-! ## The node update -/

/-- With the pair (num | den), the region's nfu is the specification's. -/
private theorem nfuC_eq (hs : InRange src) (hd : InRange dst) (p : Fin 100000) (q : Fin 128) :
    RegionSpec.nfuC (KOut.cSum X EF src dst Wes bes Wed bed Wee bee Wnd bnd) (RegionSpec.lin X Wns bns) p q
      = Spec.nfu X EF src dst Wes bes Wed bed Wee bee Wnd bnd Wns bns p q := by
  unfold RegionSpec.nfuC Spec.nfu
  rw [cSum_colL X EF src dst Wes bes Wed bed Wee bee Wnd bnd hs hd p q,
    cSum_colR X EF src dst Wes bes Wed bed Wee bee Wnd bnd hs hd p q, lin_apply]

/-- The kernel's nfu is the specification's. -/
theorem nfu_apply (hs : InRange src) (hd : InRange dst) (p : Fin 100000) (q : Fin 128) :
    KOut.nfu X EF src dst Wes bes Wed bed Wee bee Wnd bnd Wns bns (ix2 p q)
      = Spec.nfu X EF src dst Wes bes Wed bed Wee bee Wnd bnd Wns bns p q :=
  nfuC_eq X EF src dst Wes bes Wed bed Wee bee Wnd bnd Wns bns hs hd p q

/-! ## The node statistics -/

/-- The mean recovered from the partial sums of nfu is the column's mean. -/
private theorem meanN_eq (hs : InRange src) (hd : InRange dst) (q : Fin 128) :
    HostFn.meanN (KOut.psN X EF src dst Wes bes Wed bed Wee bee Wnd bnd Wns bns) (ix1 q)
      = meanOf cntN (fun p' => Spec.nfu X EF src dst Wes bes Wed bed Wee bee Wnd bnd Wns bns p' q) := by
  rw [HostStats.meanN_apply]
  unfold meanOf
  have h : ∀ (b : Fin 50) (r : Fin 8), KOut.psN X EF src dst Wes bes Wed bed Wee bee Wnd bnd Wns bns (ix3 b r q)
      = partialN (RegionSpec.nfuC (KOut.cSum X EF src dst Wes bes Wed bed Wee bee Wnd bnd) (RegionSpec.lin X Wns bns)) b r q :=
    fun _ _ => rfl
  rw [Finset.sum_congr rfl (fun b _ => Finset.sum_congr rfl (fun r _ => h b r)), MathSums.partialN_sum,
    Finset.sum_congr rfl (fun p _ => nfuC_eq X EF src dst Wes bes Wed bed Wee bee Wnd bnd Wns bns hs hd p q)]

/-- The mean recovered from the partial sums of nfu² is the mean of the column's squares. -/
private theorem meanSqN_eq (hs : InRange src) (hd : InRange dst) (q : Fin 128) :
    HostFn.meanN (KOut.psqN X EF src dst Wes bes Wed bed Wee bee Wnd bnd Wns bns) (ix1 q)
      = Ideal.div (∑ p' : Fin 100000, Spec.nfu X EF src dst Wes bes Wed bed Wee bee Wnd bnd Wns bns p' q
          * Spec.nfu X EF src dst Wes bes Wed bed Wee bee Wnd bnd Wns bns p' q) cntN := by
  rw [HostStats.meanN_apply]
  have h : ∀ (b : Fin 50) (r : Fin 8), KOut.psqN X EF src dst Wes bes Wed bed Wee bee Wnd bnd Wns bns (ix3 b r q)
      = partialN (fun p q => RegionSpec.nfuC (KOut.cSum X EF src dst Wes bes Wed bed Wee bee Wnd bnd) (RegionSpec.lin X Wns bns) p q
          * RegionSpec.nfuC (KOut.cSum X EF src dst Wes bes Wed bed Wee bee Wnd bnd) (RegionSpec.lin X Wns bns) p q) b r q :=
    fun _ _ => rfl
  rw [Finset.sum_congr rfl (fun b _ => Finset.sum_congr rfl (fun r _ => h b r)), MathSums.partialN_sum]
  refine congrArg (fun s => Ideal.div s cntN) (Finset.sum_congr rfl (fun p _ => ?_))
  show RegionSpec.nfuC (KOut.cSum X EF src dst Wes bes Wed bed Wee bee Wnd bnd) (RegionSpec.lin X Wns bns) p q
      * RegionSpec.nfuC (KOut.cSum X EF src dst Wes bes Wed bed Wee bee Wnd bnd) (RegionSpec.lin X Wns bns) p q = _
  rw [nfuC_eq X EF src dst Wes bes Wed bed Wee bee Wnd bnd Wns bns hs hd p q]

/-- The variance recovered from the two families of partial sums is the column's. -/
private theorem varN_eq (hs : InRange src) (hd : InRange dst) (q : Fin 128) :
    HostFn.varN (KOut.psN X EF src dst Wes bes Wed bed Wee bee Wnd bnd Wns bns)
        (KOut.psqN X EF src dst Wes bes Wed bed Wee bee Wnd bnd Wns bns) (ix1 q)
      = varSq cntN (fun p' => Spec.nfu X EF src dst Wes bes Wed bed Wee bee Wnd bnd Wns bns p' q) := by
  rw [HostStats.varN_apply, meanN_eq X EF src dst Wes bes Wed bed Wee bee Wnd bnd Wns bns hs hd q,
    meanSqN_eq X EF src dst Wes bes Wed bed Wee bee Wnd bnd Wns bns hs hd q]
  rfl

theorem nodeOut_apply (hs : InRange src) (hd : InRange dst) (p : Fin 100000) (q : Fin 128) :
    KOut.nodeOut X EF src dst Wes bes Wed bed Wee bee Wnd bnd Wns bns gn bgn (ix2 p q)
      = bn (Spec.nfu X EF src dst Wes bes Wed bed Wee bee Wnd bnd Wns bns p q)
          (meanOf cntN fun p' => Spec.nfu X EF src dst Wes bes Wed bed Wee bee Wnd bnd Wns bns p' q)
          (varSq cntN fun p' => Spec.nfu X EF src dst Wes bes Wed bed Wee bee Wnd bnd Wns bns p' q)
          (gn (ix1 q)) (bgn (ix1 q)) (X (ix2 p q)) := by
  show bn (KOut.nfu X EF src dst Wes bes Wed bed Wee bee Wnd bnd Wns bns (ix2 p q))
      (HostFn.meanN (KOut.psN X EF src dst Wes bes Wed bed Wee bee Wnd bnd Wns bns) (ix1 q))
      (HostFn.varN (KOut.psN X EF src dst Wes bes Wed bed Wee bee Wnd bnd Wns bns)
        (KOut.psqN X EF src dst Wes bes Wed bed Wee bee Wnd bnd Wns bns) (ix1 q))
      (gn (ix1 q)) (bgn (ix1 q)) (X (ix2 p q)) = _
  rw [nfu_apply X EF src dst Wes bes Wed bed Wee bee Wnd bnd Wns bns hs hd p q,
    meanN_eq X EF src dst Wes bes Wed bed Wee bee Wnd bnd Wns bns hs hd q,
    varN_eq X EF src dst Wes bes Wed bed Wee bee Wnd bnd Wns bns hs hd q]

end Cert.KernelIdeal.KValue

end
-- ==== Proof.RefEdge.lean ====
/-
  The reference's edge side read at an index: its edge update is the specification's eu (the rows at the edge's
  endpoints are read by wrapped, clamped index words, which for node indices are the words themselves), and its edge
  result is the normalisation of eu by the column mean and the mean squared deviation, silu, plus the residual.
-/
import proofs.«409458_j13194139533628_3_alg».proof.Proof.Gen.ReferenceIdeal.Read
import proofs.«409458_j13194139533628_3_alg».proof.Proof.Spec
import proofs.«409458_j13194139533628_3_alg».proof.Proof.LibGather
import Idealize.ShloMosaic.Lib.ValueIdx
import Idealize.ShloMosaic.PureOps.Ideal.Laws

noncomputable section

open scoped BigOperators

namespace Cert.ReferenceIdeal.RefEdge

open Idealize.ShloMosaic Idealize.ShloMosaic.ValueIdx Cert.Spec Cert.ReferenceIdeal

variable (X : Arr SNF) (EF : Arr SEF) (src dst : IArr SE)
  (Wes : Arr SFF) (bes : Arr SF) (Wed : Arr SFF) (bed : Arr SF) (Wee : Arr SFF) (bee : Arr SF)
  (Wnd : Arr SFF) (bnd : Arr SF) (Wns : Arr SFF) (bns : Arr SF) (ge bge gn bgn : Arr SF)

/-! ## The index maps of the operations, at coordinates -/

private theorem lidx0 (p : Fin 100000) (q k : Fin 128) : Read.lidx_main_v0 (ix2 p q) k = ix2 p k :=
  funext fun a => Fin.ext (by match a with | ⟨0, _⟩ => rfl | ⟨1, _⟩ => rfl)
private theorem ridx0 (p : Fin 100000) (q k : Fin 128) : Read.ridx_main_v0 (ix2 p q) k = ix2 k q :=
  funext fun a => Fin.ext (by match a with | ⟨0, _⟩ => rfl | ⟨1, _⟩ => rfl)
private theorem bidx0 (p : Fin 100000) (q : Fin 128) : Read.idx_main_v1 (Read.idx_main_v2 (ix2 p q)) = ix1 q :=
  funext fun a => Fin.ext (by match a with | ⟨0, _⟩ => rfl)
private theorem lidx4 (p : Fin 100000) (q k : Fin 128) : Read.lidx_main_v4 (ix2 p q) k = ix2 p k :=
  funext fun a => Fin.ext (by match a with | ⟨0, _⟩ => rfl | ⟨1, _⟩ => rfl)
private theorem ridx4 (p : Fin 100000) (q k : Fin 128) : Read.ridx_main_v4 (ix2 p q) k = ix2 k q :=
  funext fun a => Fin.ext (by match a with | ⟨0, _⟩ => rfl | ⟨1, _⟩ => rfl)
private theorem bidx4 (p : Fin 100000) (q : Fin 128) : Read.idx_main_v5 (Read.idx_main_v6 (ix2 p q)) = ix1 q :=
  funext fun a => Fin.ext (by match a with | ⟨0, _⟩ => rfl)
private theorem lidx23 (e : Fin 600000) (q k : Fin 128) : Read.lidx_main_v23 (ix2 e q) k = ix2 e k :=
  funext fun a => Fin.ext (by match a with | ⟨0, _⟩ => rfl | ⟨1, _⟩ => rfl)
private theorem ridx23 (e : Fin 600000) (q k : Fin 128) : Read.ridx_main_v23 (ix2 e q) k = ix2 k q :=
  funext fun a => Fin.ext (by match a with | ⟨0, _⟩ => rfl | ⟨1, _⟩ => rfl)
private theorem bidx23 (e : Fin 600000) (q : Fin 128) : Read.idx_main_v24 (Read.idx_main_v25 (ix2 e q)) = ix1 q :=
  funext fun a => Fin.ext (by match a with | ⟨0, _⟩ => rfl)
private theorem idx55 (q : Fin 128) (k : Fin 600000) : Read.idx_main_v55 (ix1 q) k = ix2 k q :=
  funext fun a => Fin.ext (by match a with | ⟨0, _⟩ => rfl | ⟨1, _⟩ => rfl)
private theorem idx62 (q : Fin 128) (k : Fin 600000) : Read.idx_main_v62 (ix1 q) k = ix2 k q :=
  funext fun a => Fin.ext (by match a with | ⟨0, _⟩ => rfl | ⟨1, _⟩ => rfl)
private theorem bidx58 (e : Fin 600000) (q : Fin 128) : Read.idx_main_v58 (Read.idx_main_v59 (ix2 e q)) = ix1 q :=
  funext fun a => Fin.ext (by match a with | ⟨0, _⟩ => rfl)
private theorem bidx65 (e : Fin 600000) (q : Fin 128) : Read.idx_main_v65 (Read.idx_main_v66 (ix2 e q)) = ix1 q :=
  funext fun a => Fin.ext (by match a with | ⟨0, _⟩ => rfl)
private theorem bidx71 (e : Fin 600000) (q : Fin 128) : Read.idx_main_v71 (Read.idx_main_v72 (ix2 e q)) = ix1 q :=
  funext fun a => Fin.ext (by match a with | ⟨0, _⟩ => rfl)
private theorem bidx74 (e : Fin 600000) (q : Fin 128) : Read.idx_main_v74 (Read.idx_main_v75 (ix2 e q)) = ix1 q :=
  funext fun a => Fin.ext (by match a with | ⟨0, _⟩ => rfl)
private theorem bidx77 (e : Fin 600000) (q : Fin 128) : Read.idx_main_v77 (Read.idx_main_v78 (ix2 e q)) = ix1 q :=
  funext fun a => Fin.ext (by match a with | ⟨0, _⟩ => rfl)

/-! ## The two node-side linear maps the edge update gathers from -/

private theorem esrc_apply (p : Fin 100000) (q : Fin 128) :
    Read.val_main_v3 (F := Ideal) X Wes bes (ix2 p q) = linN X Wes bes p q := by
  rw [Read.val_main_v3_apply, Read.val_main_v0_apply, Read.val_main_v2_apply, Read.val_main_v1_apply, bidx0]
  simp only [lidx0, ridx0, Ideal.addf_def]
  rfl

private theorem edst_apply (p : Fin 100000) (q : Fin 128) :
    Read.val_main_v7 (F := Ideal) X Wed bed (ix2 p q) = linN X Wed bed p q := by
  rw [Read.val_main_v7_apply, Read.val_main_v4_apply, Read.val_main_v6_apply, Read.val_main_v5_apply, bidx4]
  simp only [lidx4, ridx4, Ideal.addf_def]
  rfl

/-! ## The index words: a node index is not negative, so the wrap-around select returns the word itself -/

private theorem notNeg (ix : IArr SE) (h : InRange ix) (e : Fin 600000) :
    IntOp.cmpi .slt (ix (ix1 e)) 0#32 = 0#1 := by
  have h0 : ¬ (ix (ix1 e)).toInt < (0#32 : BitVec 32).toInt := by
    have hz : (0#32 : BitVec 32).toInt = 0 := by decide
    rw [hz]
    exact not_lt.mpr (h e).1
  show BitVec.ofBool ((ix (ix1 e)).slt 0#32) = 0#1
  rw [show (ix (ix1 e)).slt 0#32 = false from decide_eq_false h0]
  rfl

private theorem wrap_src (ix : IArr SE) (h : InRange ix) (e : Fin 600000) :
    Read.val_main_v13 (F := Ideal) ix (ix2 e (⟨0, Nat.one_pos⟩ : Fin 1)) = ix (ix1 e) := by
  have hi : Read.idx_main_v13 (ix2 e (⟨0, Nat.one_pos⟩ : Fin 1)) = ix1 e :=
    funext fun a => Fin.ext (by match a with | ⟨0, _⟩ => rfl)
  rw [Read.val_main_v13_apply, hi, Read.val_main_v12_apply, Read.val_main_v9_apply, Read.val_main_v8_apply,
    Read.val_main_c_apply, notNeg ix h e, select_zero]

private theorem wrap_dst (ix : IArr SE) (h : InRange ix) (e : Fin 600000) :
    Read.val_main_v20 (F := Ideal) ix (ix2 e (⟨0, Nat.one_pos⟩ : Fin 1)) = ix (ix1 e) := by
  have hi : Read.idx_main_v20 (ix2 e (⟨0, Nat.one_pos⟩ : Fin 1)) = ix1 e :=
    funext fun a => Fin.ext (by match a with | ⟨0, _⟩ => rfl)
  rw [Read.val_main_v20_apply, hi, Read.val_main_v19_apply, Read.val_main_v16_apply, Read.val_main_v15_apply,
    Read.val_main_c_1_apply, notNeg ix h e, select_zero]

/-! ## The row gather -/

/-- The reference's gather dimension numbers are the row gather's. -/
private theorem gatherRec_eq :
    gather_S100000x128_S600000x1_S600000x128_1_0_n_n_0_1_1128
      = LibGather.rowGather 100000 600000 128 Gen.gather_S100000x128_S600000x1_S600000x128_1_0_n_n_0_1_1128_wf := rfl

/-- A row gather whose index column holds, at row e, the word ix[e]: row e of the result is the operand's row node ix e. -/
private theorem gather_at {α : Type} (x : S100000x128.Idx → α) (col : IVec S600000x1 32) (ix : IArr SE)
    (e : Fin 600000) (q : Fin 128) (h : col (ix2 e (⟨0, Nat.one_pos⟩ : Fin 1)) = ix (ix1 e)) :
    Host.gather gather_S100000x128_S600000x1_S600000x128_1_0_n_n_0_1_1128 x col (ix2 e q) = x (ix2 (node ix e) q) := by
  rw [gatherRec_eq, LibGather.gather_row_apply (by decide)]
  refine congrArg (fun p => x (ix2 p q)) (Fin.ext ?_)
  show min (col (ix2 e (⟨0, Nat.one_pos⟩ : Fin 1))).toInt.toNat (100000 - 1) = min (ix (ix1 e)).toInt.toNat 99999
  rw [h]

private theorem gsrc_apply (hs : InRange src) (e : Fin 600000) (q : Fin 128) :
    Read.val_main_v14 (F := Ideal) X src Wes bes (ix2 e q) = linN X Wes bes (node src e) q := by
  unfold Read.val_main_v14
  rw [gather_at _ _ src e q (wrap_src src hs e), esrc_apply]

private theorem gdst_apply (hd : InRange dst) (e : Fin 600000) (q : Fin 128) :
    Read.val_main_v21 (F := Ideal) X dst Wed bed (ix2 e q) = linN X Wed bed (node dst e) q := by
  unfold Read.val_main_v21
  rw [gather_at _ _ dst e q (wrap_dst dst hd e), edst_apply]

/-! ## The edge update -/

theorem eu_apply (hs : InRange src) (hd : InRange dst) (e : Fin 600000) (q : Fin 128) :
    Read.val_main_v27 (F := Ideal) X EF src dst Wes bes Wed bed Wee bee (ix2 e q) = Spec.eu X EF src dst Wes bes Wed bed Wee bee e q := by
  rw [Read.val_main_v27_apply, Read.val_main_v26_apply, Read.val_main_v22_apply, Read.val_main_v23_apply,
    Read.val_main_v25_apply, Read.val_main_v24_apply, bidx23, gsrc_apply X src Wes bes hs, gdst_apply X dst Wed bed hd]
  simp only [lidx23, ridx23, Ideal.addf_def]
  rfl

/-! ## The column statistics -/

private theorem mean_apply (hs : InRange src) (hd : InRange dst) (q : Fin 128) :
    Read.val_main_v57 (F := Ideal) X EF src dst Wes bes Wed bed Wee bee (ix1 q)
      = meanOf cntE fun e' => Spec.eu X EF src dst Wes bes Wed bed Wee bee e' q := by
  rw [Read.val_main_v57_apply, Read.val_main_v55_apply, Read.val_main_v56_apply, Read.val_main_cst_8_apply,
    Read.val_main_cst_7_apply]
  simp only [idx55, eu_apply X EF src dst Wes bes Wed bed Wee bee hs hd, Ideal.hostDivf_def, Ideal.ofBits_def,
    Ideal.ofBits_zero_f32, zero_add]
  rfl

private theorem dev_apply (hs : InRange src) (hd : InRange dst) (e : Fin 600000) (q : Fin 128) :
    Read.val_main_v60 (F := Ideal) X EF src dst Wes bes Wed bed Wee bee (ix2 e q)
      = Spec.eu X EF src dst Wes bes Wed bed Wee bee e q - meanOf cntE fun e' => Spec.eu X EF src dst Wes bes Wed bed Wee bee e' q := by
  rw [Read.val_main_v60_apply, Read.val_main_v59_apply, Read.val_main_v58_apply, bidx58,
    mean_apply X EF src dst Wes bes Wed bed Wee bee hs hd, eu_apply X EF src dst Wes bes Wed bed Wee bee hs hd]
  rfl

private theorem var_apply (hs : InRange src) (hd : InRange dst) (q : Fin 128) :
    Read.val_main_v64 (F := Ideal) X EF src dst Wes bes Wed bed Wee bee (ix1 q)
      = varDev cntE fun e' => Spec.eu X EF src dst Wes bes Wed bed Wee bee e' q := by
  rw [Read.val_main_v64_apply, Read.val_main_v62_apply, Read.val_main_v63_apply, Read.val_main_cst_10_apply,
    Read.val_main_cst_9_apply]
  simp only [idx62, Read.val_main_v61_apply, dev_apply X EF src dst Wes bes Wed bed Wee bee hs hd, Ideal.mulf_def,
    Ideal.hostDivf_def, Ideal.ofBits_def, Ideal.ofBits_zero_f32, zero_add]
  rfl

/-! ## The normalised value and the edge result -/

private theorem pre_apply (hs : InRange src) (hd : InRange dst) (e : Fin 600000) (q : Fin 128) :
    Read.val_main_v79 (F := Ideal) X EF src dst Wes bes Wed bed Wee bee ge bge (ix2 e q)
      = (Spec.eu X EF src dst Wes bes Wed bed Wee bee e q - meanOf cntE fun e' => Spec.eu X EF src dst Wes bes Wed bed Wee bee e' q)
          * Ideal.rsqrt ((varDev cntE fun e' => Spec.eu X EF src dst Wes bes Wed bed Wee bee e' q) + eps5) * ge (ix1 q) + bge (ix1 q) := by
  rw [Read.val_main_v79_apply, Read.val_main_v76_apply, Read.val_main_v73_apply, Read.val_main_v67_apply,
    Read.val_main_v66_apply, Read.val_main_v65_apply, bidx65, Read.val_main_v72_apply, Read.val_main_v71_apply, bidx71,
    Read.val_main_v70_apply, Read.val_main_v69_apply, Read.val_main_v68_apply, Read.val_main_cst_11_apply,
    Read.val_main_v75_apply, Read.val_main_v74_apply, bidx74, Read.val_main_v78_apply, Read.val_main_v77_apply, bidx77,
    mean_apply X EF src dst Wes bes Wed bed Wee bee hs hd, var_apply X EF src dst Wes bes Wed bed Wee bee hs hd, eu_apply X EF src dst Wes bes Wed bed Wee bee hs hd]
  rfl

/-- The word 0x3F800000 is the number one. -/
private theorem ofBits_one : Ideal.ofBits .f32 0x3F800000#32 = 1 := by
  simp [Ideal.ofBits, Ideal.ieee, -EReal.coe_mul]; norm_num

theorem edge_apply (hs : InRange src) (hd : InRange dst) (e : Fin 600000) (q : Fin 128) :
    Read.val_main_v81 (F := Ideal) X EF src dst Wes bes Wed bed Wee bee ge bge (ix2 e q)
      = bn (Spec.eu X EF src dst Wes bes Wed bed Wee bee e q)
          (meanOf cntE fun e' => Spec.eu X EF src dst Wes bes Wed bed Wee bee e' q)
          (varDev cntE fun e' => Spec.eu X EF src dst Wes bes Wed bed Wee bee e' q)
          (ge (ix1 q)) (bge (ix1 q)) (EF (ix2 e q)) := by
  rw [Read.val_main_v81_apply, Read.val_main_v80_apply, Read.val_main_call1_v5_apply, Read.val_main_call1_v4_apply,
    Read.val_main_call1_cst_0_apply, Read.val_main_call1_v3_apply, Read.val_main_call1_v2_apply,
    Read.val_main_call1_cst_apply, Read.val_main_call1_v1_apply, Read.val_main_call1_v0_apply,
    pre_apply X EF src dst Wes bes Wed bed Wee bee ge bge hs hd]
  simp only [Ideal.ofBits_def, ofBits_one, Ideal.addf_def, Ideal.mulf_def, Ideal.hostDivf_def, Ideal.hostUnary_exp_def,
    Ideal.hostNegf_def, Ideal.negf_def]
  rfl

end Cert.ReferenceIdeal.RefEdge

end
-- ==== Proof.RefNode.lean ====
/-
  The reference's node side read at an index: the two scatter-adds onto zeros are num and den, the node update is
  the specification's nfu, and the node result is its normalisation by the column mean and the mean squared
  deviation, silu, plus the residual.
-/
import proofs.«409458_j13194139533628_3_alg».proof.Proof.Gen.ReferenceIdeal.Read
import proofs.«409458_j13194139533628_3_alg».proof.Proof.Spec
import proofs.«409458_j13194139533628_3_alg».proof.Proof.LibGather
import proofs.«409458_j13194139533628_3_alg».proof.Proof.LibScatter
import proofs.«409458_j13194139533628_3_alg».proof.Proof.RefEdge
import Idealize.ShloMosaic.Lib.ValueIdx
import Idealize.ShloMosaic.Lib.IdealHost
import Idealize.ShloMosaic.PureOps.Ideal.Laws

noncomputable section

open scoped BigOperators

namespace Cert.ReferenceIdeal.RefNode

open Idealize.ShloMosaic Idealize.ShloMosaic.ValueIdx Cert.Spec Cert.ReferenceIdeal

variable (X : Arr SNF) (EF : Arr SEF) (src dst : IArr SE)
  (Wes : Arr SFF) (bes : Arr SF) (Wed : Arr SFF) (bed : Arr SF) (Wee : Arr SFF) (bee : Arr SF)
  (Wnd : Arr SFF) (bnd : Arr SF) (Wns : Arr SFF) (bns : Arr SF) (ge bge gn bgn : Arr SF)

/-! ## The printed dimension records are the row gather and the row scatter -/

private theorem gather_eq :
    gather_S100000x128_S600000x1_S600000x128_1_0_n_n_0_1_1128
      = LibGather.rowGather 100000 600000 128 Facts₀.gather_S100000x128_S600000x1_S600000x128_1_0_n_n_0_1_1128_wf := rfl

private theorem scatter_eq :
    scatter_S100000x128_S600000x1_S600000x128_1_0_0_1
      = LibScatter.rowScatter 100000 600000 128 Facts₀.scatter_S100000x128_S600000x1_S600000x128_1_0_0_1_wf := rfl

/-! ## Index words -/

/-- For a word that is a node index, "the word read signed is p" says "the node it names is p". -/
private theorem toInt_eq_iff (hd : InRange dst) (e : Fin 600000) (p : Fin 100000) :
    (dst (ix1 e)).toInt = (p.val : ℤ) ↔ node dst e = p := by
  have h := hd e
  have hp := p.isLt
  rw [Fin.ext_iff]
  show _ ↔ min (dst (ix1 e)).toInt.toNat 99999 = p.val
  omega

/-- A word that is not negative is not below zero in the signed order. -/
private theorem not_slt_zero (hd : InRange dst) (e : Fin 600000) : IntOp.cmpi .slt (dst (ix1 e)) 0#32 = 0#1 := by
  have hn : ¬ (dst (ix1 e)).toInt < 0 := not_lt.mpr (hd e).1
  simp [IntOp.cmpi, BitVec.slt, hn]

/-- The wrapped destination column at row e is the index word itself: a node index is not negative, so the wrap
    (add the node count to a negative word) leaves it. -/
private theorem wrapped_apply (hd : InRange dst) (e : Fin 600000) :
    Read.val_main_v38 (F := Ideal) dst (ix2 e (⟨0, Nat.one_pos⟩ : Fin 1)) = dst (ix1 e) := by
  have hi : Read.idx_main_v38 (ix2 e (⟨0, Nat.one_pos⟩ : Fin 1)) = ix1 e :=
    funext fun a => Fin.ext (by match a with | ⟨0, _⟩ => rfl)
  rw [Read.val_main_v38_apply, hi, Read.val_main_v37_apply, Read.val_main_v34_apply, Read.val_main_v33_apply,
    Read.val_main_c_3_apply, not_slt_zero dst hd e, select_zero]

/-- The scatters' index column at row e is the destination word of edge e. -/
private theorem col42_apply (e : Fin 600000) :
    Read.val_main_v42 (F := Ideal) dst (ix2 e (⟨0, Nat.one_pos⟩ : Fin 1)) = dst (ix1 e) := by
  rw [Read.val_main_v42_apply]
  exact congrArg dst (funext fun a => Fin.ext (by match a with | ⟨0, _⟩ => rfl))

private theorem col45_apply (e : Fin 600000) :
    Read.val_main_v45 (F := Ideal) dst (ix2 e (⟨0, Nat.one_pos⟩ : Fin 1)) = dst (ix1 e) := by
  rw [Read.val_main_v45_apply]
  exact congrArg dst (funext fun a => Fin.ext (by match a with | ⟨0, _⟩ => rfl))

/-! ## The linear maps of the node features -/

/-- n_dst = X·W_nd + b_nd at (p, q). -/
private theorem ndst_lin (p : Fin 100000) (q : Fin 128) :
    Read.val_main_v32 (F := Ideal) X Wnd bnd (ix2 p q) = linN X Wnd bnd p q := by
  have h1 : ∀ k : Fin 128, Read.lidx_main_v29 (ix2 p q) k = ix2 p k := fun k =>
    funext fun a => Fin.ext (by match a with | ⟨0, _⟩ => rfl | ⟨1, _⟩ => rfl)
  have h2 : ∀ k : Fin 128, Read.ridx_main_v29 (ix2 p q) k = ix2 k q := fun k =>
    funext fun a => Fin.ext (by match a with | ⟨0, _⟩ => rfl | ⟨1, _⟩ => rfl)
  have h3 : Read.idx_main_v30 (Read.idx_main_v31 (ix2 p q)) = ix1 q :=
    funext fun a => Fin.ext (by match a with | ⟨0, _⟩ => rfl)
  rw [Read.val_main_v32_apply, Read.val_main_v29_apply, Read.val_main_v31_apply, Read.val_main_v30_apply]
  simp only [h1, h2, h3, Ideal.addf_def]
  rfl

/-- n_ns = X·W_ns + b_ns at (p, q). -/
private theorem nself_lin (p : Fin 100000) (q : Fin 128) :
    Read.val_main_v53 (F := Ideal) X Wns bns (ix2 p q) = linN X Wns bns p q := by
  have h1 : ∀ k : Fin 128, Read.lidx_main_v50 (ix2 p q) k = ix2 p k := fun k =>
    funext fun a => Fin.ext (by match a with | ⟨0, _⟩ => rfl | ⟨1, _⟩ => rfl)
  have h2 : ∀ k : Fin 128, Read.ridx_main_v50 (ix2 p q) k = ix2 k q := fun k =>
    funext fun a => Fin.ext (by match a with | ⟨0, _⟩ => rfl | ⟨1, _⟩ => rfl)
  have h3 : Read.idx_main_v51 (Read.idx_main_v52 (ix2 p q)) = ix1 q :=
    funext fun a => Fin.ext (by match a with | ⟨0, _⟩ => rfl)
  rw [Read.val_main_v53_apply, Read.val_main_v50_apply, Read.val_main_v52_apply, Read.val_main_v51_apply]
  simp only [h1, h2, h3, Ideal.addf_def]
  rfl

/-- The gathered n_dst row of edge e is n_dst at the edge's destination node. -/
private theorem ndst_apply (hd : InRange dst) (e : Fin 600000) (q : Fin 128) :
    Read.val_main_v39 (F := Ideal) X dst Wnd bnd (ix2 e q) = linN X Wnd bnd (node dst e) q := by
  unfold Read.val_main_v39
  rw [gather_eq, LibGather.gather_row_apply (by decide), ndst_lin X Wnd bnd]
  refine congrArg (fun n => linN X Wnd bnd n q) (Fin.ext ?_)
  show min (Read.val_main_v38 (F := Ideal) dst (ix2 e (⟨0, Nat.one_pos⟩ : Fin 1))).toInt.toNat (100000 - 1)
    = min (dst (ix1 e)).toInt.toNat 99999
  rw [wrapped_apply dst hd e]

/-! ## The gate -/

/-- The gate: silu of the edge update. -/
private theorem gate_apply (hs : InRange src) (hd : InRange dst) (e : Fin 600000) (q : Fin 128) :
    Read.val_main_v28 (F := Ideal) X EF src dst Wes bes Wed bed Wee bee (ix2 e q) = Spec.gate X EF src dst Wes bes Wed bed Wee bee e q := by
  rw [Read.val_main_v28_apply, Read.val_main_call0_v5_apply, Read.val_main_call0_v4_apply, Read.val_main_call0_cst_0_apply,
    Read.val_main_call0_v3_apply, Read.val_main_call0_v2_apply, Read.val_main_call0_cst_apply, Read.val_main_call0_v1_apply,
    Read.val_main_call0_v0_apply, RefEdge.eu_apply X EF src dst Wes bes Wed bed Wee bee hs hd e q]
  simp only [Ideal.mulf_def, Ideal.hostDivf_def, Ideal.addf_def, Ideal.hostUnary_exp_def, Ideal.hostNegf_def, Ideal.negf_def,
    Ideal.ofBits_def, Ideal.ofBits_one_f32]
  rfl

/-! ## The two scatter-adds onto zeros -/

/-- The printed row scatter-add onto an operand, read at (p, q): the operand there plus the sum, over the rows whose
    index word is p, of the update at column q. -/
private theorem scatter_apply (x : Arr SNF) (idx : (⟨2, ![600000, 1]⟩ : Shape).Idx → BitVec 32) (upd : Arr SEF)
    (p : Fin 100000) (q : Fin 128) :
    Host.scatterAdd (F := Ideal) (φ := .f32) scatter_S100000x128_S600000x1_S600000x128_1_0_0_1 x idx upd (ix2 p q)
      = x (ix2 p q) + ∑ r ∈ Finset.univ.filter (fun r : Fin 600000 =>
          (idx (ix2 r (⟨0, Nat.one_pos⟩ : Fin 1))).toInt = (p.val : ℤ)), upd (ix2 r q) := by
  unfold Host.scatterAdd
  rw [Ideal.hostScatterAdd_def, scatter_eq]
  exact LibScatter.scatterAdd_row_apply _ x idx upd p q

/-- The reference's num (the scatter-add of n_dst at the destination times the gate) is the specification's. -/
private theorem num_apply (hs : InRange src) (hd : InRange dst) (p : Fin 100000) (q : Fin 128) :
    Read.val_main_v43 (F := Ideal) X EF src dst Wes bes Wed bed Wee bee Wnd bnd (ix2 p q) = Spec.num X EF src dst Wes bes Wed bed Wee bee Wnd bnd p q := by
  unfold Read.val_main_v43
  rw [scatter_apply, Read.val_main_v41_apply, Read.val_main_cst_apply,
    Ideal.ofBits_def, Ideal.ofBits_zero_f32, zero_add]
  unfold Spec.num
  have hf : (Finset.univ.filter fun r : Fin 600000 =>
        (Read.val_main_v42 (F := Ideal) dst (ix2 r (⟨0, Nat.one_pos⟩ : Fin 1))).toInt = (p.val : ℤ))
      = Finset.univ.filter fun e : Fin 600000 => node dst e = p :=
    Finset.filter_congr fun e _ => by rw [col42_apply dst e]; exact toInt_eq_iff dst hd e p
  rw [hf]
  refine Finset.sum_congr rfl fun e _ => ?_
  rw [Read.val_main_v40_apply, ndst_apply X dst Wnd bnd hd e q, gate_apply X EF src dst Wes bes Wed bed Wee bee hs hd e q]
  rfl

/-- The reference's den (the scatter-add of the gates) is the specification's. -/
theorem den_apply (hs : InRange src) (hd : InRange dst) (p : Fin 100000) (q : Fin 128) :
    Read.val_main_v46 (F := Ideal) X EF src dst Wes bes Wed bed Wee bee (ix2 p q) = Spec.den X EF src dst Wes bes Wed bed Wee bee p q := by
  unfold Read.val_main_v46
  rw [scatter_apply, Read.val_main_v44_apply, Read.val_main_cst_5_apply,
    Ideal.ofBits_def, Ideal.ofBits_zero_f32, zero_add]
  unfold Spec.den
  have hf : (Finset.univ.filter fun r : Fin 600000 =>
        (Read.val_main_v45 (F := Ideal) dst (ix2 r (⟨0, Nat.one_pos⟩ : Fin 1))).toInt = (p.val : ℤ))
      = Finset.univ.filter fun e : Fin 600000 => node dst e = p :=
    Finset.filter_congr fun e _ => by rw [col45_apply dst e]; exact toInt_eq_iff dst hd e p
  rw [hf]
  exact Finset.sum_congr rfl fun e _ => gate_apply X EF src dst Wes bes Wed bed Wee bee hs hd e q

/-! ## The node update -/

theorem nfu_apply (hs : InRange src) (hd : InRange dst) (p : Fin 100000) (q : Fin 128) :
    Read.val_main_v54 (F := Ideal) X EF src dst Wes bes Wed bed Wee bee Wnd bnd Wns bns (ix2 p q) = Spec.nfu X EF src dst Wes bes Wed bed Wee bee Wnd bnd Wns bns p q := by
  rw [Read.val_main_v54_apply, Read.val_main_v49_apply, Read.val_main_v48_apply, Read.val_main_v47_apply, Read.val_main_cst_6_apply,
    nself_lin X Wns bns p q, num_apply X EF src dst Wes bes Wed bed Wee bee Wnd bnd hs hd p q, den_apply X EF src dst Wes bes Wed bed Wee bee hs hd p q]
  simp only [Ideal.addf_def, Ideal.hostDivf_def, Ideal.ofBits_def]
  rfl

/-! ## The batch statistics of the node update -/

/-- The column mean of the node update. -/
private theorem mean_apply (hs : InRange src) (hd : InRange dst) (q : Fin 128) :
    Read.val_main_v84 (F := Ideal) X EF src dst Wes bes Wed bed Wee bee Wnd bnd Wns bns (ix1 q)
      = meanOf cntN fun p' => Spec.nfu X EF src dst Wes bes Wed bed Wee bee Wnd bnd Wns bns p' q := by
  rw [Read.val_main_v84_apply, Read.val_main_v82_apply, Read.val_main_v83_apply, Read.val_main_cst_13_apply,
    Read.val_main_cst_12_apply]
  simp only [Ideal.hostDivf_def, Ideal.ofBits_def, Ideal.ofBits_zero_f32, zero_add]
  unfold meanOf
  refine congrArg₂ Ideal.div (Finset.sum_congr rfl fun k _ => ?_) rfl
  have hk : Read.idx_main_v82 (ix1 q) k = ix2 k q :=
    funext fun a => Fin.ext (by match a with | ⟨0, _⟩ => rfl | ⟨1, _⟩ => rfl)
  rw [hk]
  exact nfu_apply X EF src dst Wes bes Wed bed Wee bee Wnd bnd Wns bns hs hd k q

/-- The column mean of the squared deviations of the node update. -/
private theorem var_apply (hs : InRange src) (hd : InRange dst) (q : Fin 128) :
    Read.val_main_v91 (F := Ideal) X EF src dst Wes bes Wed bed Wee bee Wnd bnd Wns bns (ix1 q)
      = varDev cntN fun p' => Spec.nfu X EF src dst Wes bes Wed bed Wee bee Wnd bnd Wns bns p' q := by
  rw [Read.val_main_v91_apply, Read.val_main_v89_apply, Read.val_main_v90_apply, Read.val_main_cst_15_apply,
    Read.val_main_cst_14_apply]
  simp only [Ideal.hostDivf_def, Ideal.ofBits_def, Ideal.ofBits_zero_f32, zero_add]
  unfold varDev
  refine congrArg₂ Ideal.div (Finset.sum_congr rfl fun k _ => ?_) rfl
  have hk : Read.idx_main_v89 (ix1 q) k = ix2 k q :=
    funext fun a => Fin.ext (by match a with | ⟨0, _⟩ => rfl | ⟨1, _⟩ => rfl)
  have hb : Read.idx_main_v85 (Read.idx_main_v86 (ix2 k q)) = ix1 q :=
    funext fun a => Fin.ext (by match a with | ⟨0, _⟩ => rfl)
  rw [hk, Read.val_main_v88_apply, Read.val_main_v87_apply, Read.val_main_v86_apply, Read.val_main_v85_apply, hb,
    nfu_apply X EF src dst Wes bes Wed bed Wee bee Wnd bnd Wns bns hs hd k q, mean_apply X EF src dst Wes bes Wed bed Wee bee Wnd bnd Wns bns hs hd q]
  simp only [Ideal.mulf_def, Ideal.subf_def]

/-! ## The node result -/

theorem node_apply (hs : InRange src) (hd : InRange dst) (p : Fin 100000) (q : Fin 128) :
    Read.val_main_v108 (F := Ideal) X EF src dst Wes bes Wed bed Wee bee Wnd bnd Wns bns gn bgn (ix2 p q)
      = bn (Spec.nfu X EF src dst Wes bes Wed bed Wee bee Wnd bnd Wns bns p q)
          (meanOf cntN fun p' => Spec.nfu X EF src dst Wes bes Wed bed Wee bee Wnd bnd Wns bns p' q)
          (varDev cntN fun p' => Spec.nfu X EF src dst Wes bes Wed bed Wee bee Wnd bnd Wns bns p' q)
          (gn (ix1 q)) (bgn (ix1 q)) (X (ix2 p q)) := by
  have hm : Read.idx_main_v92 (Read.idx_main_v93 (ix2 p q)) = ix1 q :=
    funext fun a => Fin.ext (by match a with | ⟨0, _⟩ => rfl)
  have hr : Read.idx_main_v98 (Read.idx_main_v99 (ix2 p q)) = ix1 q :=
    funext fun a => Fin.ext (by match a with | ⟨0, _⟩ => rfl)
  have hg : Read.idx_main_v101 (Read.idx_main_v102 (ix2 p q)) = ix1 q :=
    funext fun a => Fin.ext (by match a with | ⟨0, _⟩ => rfl)
  have hb : Read.idx_main_v104 (Read.idx_main_v105 (ix2 p q)) = ix1 q :=
    funext fun a => Fin.ext (by match a with | ⟨0, _⟩ => rfl)
  -- the normalised, scaled and shifted node update
  have h106 : Read.val_main_v106 (F := Ideal) X EF src dst Wes bes Wed bed Wee bee Wnd bnd Wns bns gn bgn (ix2 p q)
      = (Spec.nfu X EF src dst Wes bes Wed bed Wee bee Wnd bnd Wns bns p q
            - meanOf cntN fun p' => Spec.nfu X EF src dst Wes bes Wed bed Wee bee Wnd bnd Wns bns p' q)
          * Ideal.rsqrt ((varDev cntN fun p' => Spec.nfu X EF src dst Wes bes Wed bed Wee bee Wnd bnd Wns bns p' q) + eps5)
          * gn (ix1 q) + bgn (ix1 q) := by
    rw [Read.val_main_v106_apply, Read.val_main_v103_apply, Read.val_main_v100_apply, Read.val_main_v94_apply,
      Read.val_main_v93_apply, Read.val_main_v92_apply, hm, Read.val_main_v99_apply, Read.val_main_v98_apply, hr,
      Read.val_main_v97_apply, Read.val_main_v96_apply, Read.val_main_v95_apply, Read.val_main_cst_16_apply,
      Read.val_main_v102_apply, Read.val_main_v101_apply, hg, Read.val_main_v105_apply, Read.val_main_v104_apply, hb,
      nfu_apply X EF src dst Wes bes Wed bed Wee bee Wnd bnd Wns bns hs hd p q, mean_apply X EF src dst Wes bes Wed bed Wee bee Wnd bnd Wns bns hs hd q, var_apply X EF src dst Wes bes Wed bed Wee bee Wnd bnd Wns bns hs hd q]
    simp only [Ideal.addf_def, Ideal.mulf_def, Ideal.subf_def, Ideal.hostUnary_rsqrt_def, Ideal.ofBits_def]
    rfl
  rw [Read.val_main_v108_apply, Read.val_main_v107_apply, Read.val_main_call2_v5_apply, Read.val_main_call2_v4_apply,
    Read.val_main_call2_cst_0_apply, Read.val_main_call2_v3_apply, Read.val_main_call2_v2_apply, Read.val_main_call2_cst_apply,
    Read.val_main_call2_v1_apply, Read.val_main_call2_v0_apply, h106]
  simp only [Ideal.addf_def, Ideal.mulf_def, Ideal.hostDivf_def, Ideal.hostUnary_exp_def, Ideal.hostNegf_def, Ideal.negf_def,
    Ideal.ofBits_def, Ideal.ofBits_one_f32]
  rfl

end Cert.ReferenceIdeal.RefNode

end
-- ==== Proof.PreDecode.lean ====
/-
  What the precondition says of the arguments: every float argument the proof leans on holds real numbers, the
  edge endpoints are node indices, and no divisor den + ε₆ of the node update vanishes.
-/
import proofs.«409458_j13194139533628_3_alg».proof.Pre_finite_inputs
import proofs.«409458_j13194139533628_3_alg».proof.Proof.Gen.Pre_finite_inputs
import proofs.«409458_j13194139533628_3_alg».proof.Proof.Spec
import proofs.«409458_j13194139533628_3_alg».proof.Proof.LibGather
import proofs.«409458_j13194139533628_3_alg».proof.Proof.LibScatter
import Idealize.ShloMosaic.Lib.ValueIdx
import Idealize.ShloMosaic.Lib.ReduceAll
import Idealize.ShloMosaic.Lib.StableHlo.Predicate
import Idealize.ShloMosaic.PureOps.Ideal.Laws
import Idealize.ShloMosaic.Lib.IdealHost

noncomputable section

open scoped BigOperators

namespace Cert.PreDecode

open Idealize.ShloMosaic Idealize.ShloMosaic.ValueIdx Cert.Spec

/-! ## The float conjuncts: |x| < +∞ everywhere says every entry is a real number -/

local instance : Subsingleton Cert.Pre_finite_inputs.S_.Idx := ⟨fun a b => funext fun d => d.elim0⟩

private theorem inf_bits : Ideal.ofBits .f32 0x7F800000#32 = ⊤ := by simp [Ideal.ofBits, Ideal.ieee]

private theorem isReal_of_abs_lt (x : EReal) (h : Ideal.cmp .olt (max x (-x)) (Ideal.ofBits .f32 0x7F800000#32) = 1#1) : IsReal x := by
  rw [inf_bits] at h
  unfold Ideal.cmp at h
  rw [StableHlo.Predicate.ofBool_eq_one_iff] at h
  simp only [decide_eq_true_eq] at h
  induction x using EReal.rec with
  | bot => simp at h
  | coe r => exact ⟨r, rfl⟩
  | top => simp at h

set_option maxHeartbeats 400000 in
private theorem allReal_of_all {s : Shape} {axes : List (Fin s.rank)} (A : Arr s)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi (cmpf (F := Ideal) .olt (Host.absf (φ := .f32) A)
        (broadcastInDim s ![] hb (constant (F := Ideal) Cert.Pre_finite_inputs.S_ .f32 0x7F800000#32)))
      (constantI Cert.Pre_finite_inputs.S_ 1 1#1) hr hu ix0 = 1#1) : AllReal A := by
  intro i
  have e := Host.reduce_andi_all _ _ hr hu ix0 h i
  exact isReal_of_abs_lt _ e

/-! ## The index conjuncts: 0 ≤ w < 100000 everywhere, read signed -/

open Cert.Pre_finite_inputs in
set_option maxHeartbeats 400000 in
private theorem inRange_of_all (ix : IArr SE) (hb : S_.BroadcastsInDim S600000 (![] : Fin 0 → Fin S600000.rank))
    (hr : S600000.ReducesTo [0] S_) (hu : 0 < S_.numel)
    (h : Host.reduce IntOp.andi
        (andi (cmpi .sge ix (broadcastInDim S600000 ![] hb (constantI S_ 32 0#32)))
          (cmpi .slt ix (broadcastInDim S600000 ![] hb (constantI S_ 32 100000#32))))
        (constantI S_ 1 1#1) hr hu ix0 = 1#1) : InRange ix := by
  intro e
  have t := Host.reduce_andi_all _ _ hr hu ix0 h (ix1 e)
  obtain ⟨t0, t1⟩ := IntOp.andi_eq_one.1
    (show IntOp.andi (IntOp.cmpi .sge (ix (ix1 e)) 0#32) (IntOp.cmpi .slt (ix (ix1 e)) 100000#32) = 1#1 from t)
  unfold IntOp.cmpi at t0 t1
  rw [StableHlo.Predicate.ofBool_eq_one_iff] at t0 t1
  simp only [BitVec.slt, BitVec.sle, decide_eq_true_eq] at t0 t1
  have z : (0#32 : BitVec 32).toInt = 0 := by decide
  have c : (100000#32 : BitVec 32).toInt = 100000 := by decide
  rw [z] at t0; rw [c] at t1
  exact ⟨t0, t1⟩

open Cert.Pre_finite_inputs in
set_option maxHeartbeats 400000 in
/-- For an index word in range the wrapped word (n added to a negative one) is the word itself. -/
private theorem wrap_apply (ix : IArr SE) (hix : InRange ix) (hb : S_.BroadcastsInDim S600000 (![] : Fin 0 → Fin S600000.rank))
    (e : Fin 600000) :
    select (cmpi .slt ix (broadcastInDim S600000 ![] hb (constantI S_ 32 0#32)))
      (addi ix (broadcastInDim S600000 ![] hb (constantI S_ 32 100000#32))) ix (ix1 e) = ix (ix1 e) := by
  have t0 := (hix e).1
  show Scalar.select (IntOp.cmpi .slt (ix (ix1 e)) 0#32) _ (ix (ix1 e)) = _
  have hc : IntOp.cmpi .slt (ix (ix1 e)) 0#32 = 0#1 := by
    apply eq_zero_of_ne_one
    intro hc
    unfold IntOp.cmpi at hc
    rw [StableHlo.Predicate.ofBool_eq_one_iff] at hc
    simp only [BitVec.slt, decide_eq_true_eq] at hc
    have z : (0#32 : BitVec 32).toInt = 0 := by decide
    rw [z] at hc
    omega
  rw [hc, select_zero]

/-! ## The precondition's own den term, read at an index: it is the specification's den -/

open Cert.Pre_finite_inputs in
private theorem lhsN_0 (i : S100000x128.Idx) (k : dot_S100000x128_S128x128_S100000x128_1_0_0_1_n_n.contr.Idx) : (dot_S100000x128_S128x128_S100000x128_1_0_0_1_n_n.lhsIdx i k 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl
open Cert.Pre_finite_inputs in
private theorem lhsN_1 (i : S100000x128.Idx) (k : dot_S100000x128_S128x128_S100000x128_1_0_0_1_n_n.contr.Idx) : (dot_S100000x128_S128x128_S100000x128_1_0_0_1_n_n.lhsIdx i k 1).val = (k ⟨0, by decide⟩).val :=
  dot_S100000x128_S128x128_S100000x128_1_0_0_1_n_n.lhsIdx_val_of_single rfl i k
open Cert.Pre_finite_inputs in
private theorem rhsN_0 (i : S100000x128.Idx) (k : dot_S100000x128_S128x128_S100000x128_1_0_0_1_n_n.contr.Idx) : (dot_S100000x128_S128x128_S100000x128_1_0_0_1_n_n.rhsIdx i k 0).val = (k ⟨0, by decide⟩).val :=
  dot_S100000x128_S128x128_S100000x128_1_0_0_1_n_n.rhsIdx_val_of_single rfl i k
open Cert.Pre_finite_inputs in
private theorem rhsN_1 (i : S100000x128.Idx) (k : dot_S100000x128_S128x128_S100000x128_1_0_0_1_n_n.contr.Idx) : (dot_S100000x128_S128x128_S100000x128_1_0_0_1_n_n.rhsIdx i k 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

open Cert.Pre_finite_inputs in
set_option maxHeartbeats 400000 in
/-- The product of a [100000, 128] array with a [128, 128] one, read at (p, q): the sum over the contracted coordinate. -/
private theorem dotN_apply (A : Arr SNF) (W : Arr SFF) (p : Fin 100000) (q : Fin 128) :
    Host.dotGeneral (F := Ideal) (φ₁ := .f32) (φ₂ := .f32) dot_S100000x128_S128x128_S100000x128_1_0_0_1_n_n none A W (ix2 p q)
      = ∑ k : Fin 128, A (ix2 p k) * W (ix2 k q) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 p q) ((contrEquiv1 dot_S100000x128_S128x128_S100000x128_1_0_0_1_n_n 128 rfl rfl).symm k) = ix2 p k := funext fun a => Fin.ext (by
    match a with
    | ⟨0, _⟩ => exact lhsN_0 _ _
    | ⟨1, _⟩ => exact (lhsN_1 _ _).trans hk)
  have er : dot_S100000x128_S128x128_S100000x128_1_0_0_1_n_n.rhsIdx (ix2 p q) ((contrEquiv1 dot_S100000x128_S128x128_S100000x128_1_0_0_1_n_n 128 rfl rfl).symm k) = ix2 k q := funext fun a => Fin.ext (by
    match a with
    | ⟨0, _⟩ => exact (rhsN_0 _ _).trans hk
    | ⟨1, _⟩ => exact rhsN_1 _ _)
  rw [el, er]

open Cert.Pre_finite_inputs in
private theorem lhsE_0 (i : S600000x128.Idx) (k : dot_S600000x128_S128x128_S600000x128_1_0_0_1_n_n.contr.Idx) : (dot_S600000x128_S128x128_S600000x128_1_0_0_1_n_n.lhsIdx i k 0).val = (i 0).val := by
  unfold DotDims.lhsIdx
  rw [dif_neg (show ¬(0 : Fin S600000x128.rank) ∈ dot_S600000x128_S128x128_S600000x128_1_0_0_1_n_n.lhsBatch by decide),
    dif_pos (show (0 : Fin S600000x128.rank) ∈ dot_S600000x128_S128x128_S600000x128_1_0_0_1_n_n.lhsNonContracting by decide)]
  rfl
open Cert.Pre_finite_inputs in
private theorem lhsE_1 (i : S600000x128.Idx) (k : dot_S600000x128_S128x128_S600000x128_1_0_0_1_n_n.contr.Idx) : (dot_S600000x128_S128x128_S600000x128_1_0_0_1_n_n.lhsIdx i k 1).val = (k ⟨0, by decide⟩).val :=
  dot_S600000x128_S128x128_S600000x128_1_0_0_1_n_n.lhsIdx_val_of_single rfl i k
open Cert.Pre_finite_inputs in
private theorem rhsE_0 (i : S600000x128.Idx) (k : dot_S600000x128_S128x128_S600000x128_1_0_0_1_n_n.contr.Idx) : (dot_S600000x128_S128x128_S600000x128_1_0_0_1_n_n.rhsIdx i k 0).val = (k ⟨0, by decide⟩).val :=
  dot_S600000x128_S128x128_S600000x128_1_0_0_1_n_n.rhsIdx_val_of_single rfl i k
open Cert.Pre_finite_inputs in
private theorem rhsE_1 (i : S600000x128.Idx) (k : dot_S600000x128_S128x128_S600000x128_1_0_0_1_n_n.contr.Idx) : (dot_S600000x128_S128x128_S600000x128_1_0_0_1_n_n.rhsIdx i k 1).val = (i 1).val := by
  unfold DotDims.rhsIdx
  rw [dif_neg (show ¬(1 : Fin S128x128.rank) ∈ dot_S600000x128_S128x128_S600000x128_1_0_0_1_n_n.rhsBatch by decide),
    dif_pos (show (1 : Fin S128x128.rank) ∈ dot_S600000x128_S128x128_S600000x128_1_0_0_1_n_n.rhsNonContracting by decide)]
  rfl

open Cert.Pre_finite_inputs in
set_option maxHeartbeats 400000 in
/-- The product of a [600000, 128] array with a [128, 128] one, read at (p, q): the sum over the contracted coordinate. -/
private theorem dotE_apply (A : Arr SEF) (W : Arr SFF) (p : Fin 600000) (q : Fin 128) :
    Host.dotGeneral (F := Ideal) (φ₁ := .f32) (φ₂ := .f32) dot_S600000x128_S128x128_S600000x128_1_0_0_1_n_n none A W (ix2 p q)
      = ∑ k : Fin 128, A (ix2 p k) * W (ix2 k q) := by
  simp only [Host.dotGeneral]
  rw [Ideal.dotGeneral_apply, ← Equiv.sum_comp (contrEquiv1 dot_S600000x128_S128x128_S600000x128_1_0_0_1_n_n 128 rfl rfl).symm]
  refine Finset.sum_congr rfl fun k _ => ?_
  have hk := contrEquiv1_symm_val dot_S600000x128_S128x128_S600000x128_1_0_0_1_n_n 128 rfl rfl k
  have el : dot_S600000x128_S128x128_S600000x128_1_0_0_1_n_n.lhsIdx (ix2 p q) ((contrEquiv1 dot_S600000x128_S128x128_S600000x128_1_0_0_1_n_n 128 rfl rfl).symm k) = ix2 p k := funext fun a => Fin.ext (by
    match a with
    | ⟨0, _⟩ => exact lhsE_0 _ _
    | ⟨1, _⟩ => exact (lhsE_1 _ _).trans hk)
  have er : dot_S600000x128_S128x128_S600000x128_1_0_0_1_n_n.rhsIdx (ix2 p q) ((contrEquiv1 dot_S600000x128_S128x128_S600000x128_1_0_0_1_n_n 128 rfl rfl).symm k) = ix2 k q := funext fun a => Fin.ext (by
    match a with
    | ⟨0, _⟩ => exact (rhsE_0 _ _).trans hk
    | ⟨1, _⟩ => exact rhsE_1 _ _)
  rw [el, er]

/-- A [128] row laid along the second axis of an [n, 128] rectangle reads, at (p, q), the row at q. -/
private theorem bias_apply {n : Nat} (h1 : (⟨1, ![128]⟩ : Shape).BroadcastsInDim ⟨2, ![1, 128]⟩ ![1])
    (h2 : (⟨2, ![1, 128]⟩ : Shape).BroadcastsInDim ⟨2, ![n, 128]⟩ ![0, 1]) (b : Arr SF) (p : Fin n) (q : Fin 128) :
    broadcastInDim ⟨2, ![n, 128]⟩ ![0, 1] h2 (broadcastInDim ⟨2, ![1, 128]⟩ ![1] h1 b) (ix2 p q) = b (ix1 q) := by
  have hi : ix2 p q = StableHlo.Predicate.ij p q := funext fun a => by
    match a with
    | ⟨0, _⟩ => rfl
    | ⟨1, _⟩ => rfl
  have hj : ix1 q = Shape.Idx.ofFin q := funext fun a => by
    match a with
    | ⟨0, _⟩ => rfl
  rw [hi, hj]
  exact StableHlo.Predicate.bcast_cols h1 h2 b p q

/-- An [n] column of words as an [n, 1] array reads, at (e, 0), the word at e. -/
private theorem col_apply {n w : Nat} (h1 : (⟨1, ![n]⟩ : Shape).BroadcastsInDim ⟨2, ![n, 1]⟩ ![0])
    (v : IVec ⟨1, ![n]⟩ w) (e : Fin n) :
    broadcastInDim ⟨2, ![n, 1]⟩ ![0] h1 v (ix2 e (⟨0, Nat.one_pos⟩ : Fin 1)) = v (ix1 e) := by
  have hi : ix2 e (⟨0, Nat.one_pos⟩ : Fin 1) = StableHlo.Predicate.ixP e := funext fun a => by
    match a with
    | ⟨0, _⟩ => rfl
    | ⟨1, _⟩ => rfl
  have hj : ix1 e = Shape.Idx.ofFin e := funext fun a => by
    match a with
    | ⟨0, _⟩ => rfl
  rw [hi, hj]
  exact StableHlo.Predicate.bcast_col1 h1 v e

open Cert.Pre_finite_inputs in
set_option maxHeartbeats 400000 in
/-- The node linear map of the precondition, read at (p, q). -/
private theorem linN_apply (X : Arr SNF) (W : Arr SFF) (b : Arr SF) (p : Fin 100000) (q : Fin 128) :
    (addf (F := Ideal) (φ := .f32) (Host.dotGeneral (F := Ideal) (φ₁ := .f32) (φ₂ := .f32) dot_S100000x128_S128x128_S100000x128_1_0_0_1_n_n none X W)
        (broadcastInDim S100000x128 ![0, 1] Facts.bcast_S1x128_S100000x128_0_1 (broadcastInDim S1x128 ![1] Facts.bcast_S128_S1x128_1 b))) (ix2 p q) = linN X W b p q := by
  rw [addf_apply, dotN_apply, bias_apply]
  rfl

open Cert.Pre_finite_inputs in
set_option maxHeartbeats 400000 in
/-- The edge linear map of the precondition, read at (e, q). -/
private theorem linE_apply (EF : Arr SEF) (Wee : Arr SFF) (bee : Arr SF) (e : Fin 600000) (q : Fin 128) :
    (addf (F := Ideal) (φ := .f32) (Host.dotGeneral (F := Ideal) (φ₁ := .f32) (φ₂ := .f32) dot_S600000x128_S128x128_S600000x128_1_0_0_1_n_n none EF Wee)
        (broadcastInDim S600000x128 ![0, 1] Facts.bcast_S1x128_S600000x128_0_1 (broadcastInDim S1x128 ![1] Facts.bcast_S128_S1x128_1 bee))) (ix2 e q) = linE EF Wee bee e q := by
  rw [addf_apply, dotE_apply, bias_apply]
  rfl

open Cert.Pre_finite_inputs in
set_option maxHeartbeats 400000 in
/-- The gather of node rows at the wrapped index words of an in-range index array reads row node(e). -/
private theorem gather_apply (v : Arr SNF) (ix : IArr SE) (hix : InRange ix) (e : Fin 600000) (q : Fin 128) :
    Host.gather gather_S100000x128_S600000x1_S600000x128_1_0_n_n_0_1_1128 v (broadcastInDim S600000x1 ![0] Facts.bcast_S600000_S600000x1_0
        (select (cmpi .slt ix (broadcastInDim S600000 ![] Facts.bcast_S_S600000 (constantI S_ 32 0#32)))
          (addi ix (broadcastInDim S600000 ![] Facts.bcast_S_S600000 (constantI S_ 32 100000#32))) ix)) (ix2 e q) = v (ix2 (node ix e) q) := by
  have hg := LibGather.gather_row_apply (N := 100000) (R := 600000) (C := 128) (by decide)
    Facts.gather_S100000x128_S600000x1_S600000x128_1_0_n_n_0_1_1128_wf v (broadcastInDim S600000x1 ![0] Facts.bcast_S600000_S600000x1_0
        (select (cmpi .slt ix (broadcastInDim S600000 ![] Facts.bcast_S_S600000 (constantI S_ 32 0#32)))
          (addi ix (broadcastInDim S600000 ![] Facts.bcast_S_S600000 (constantI S_ 32 100000#32))) ix)) e q
  refine hg.trans (congrArg (fun r => v (ix2 r q)) (Fin.ext ?_))
  show min ((broadcastInDim S600000x1 ![0] Facts.bcast_S600000_S600000x1_0
        (select (cmpi .slt ix (broadcastInDim S600000 ![] Facts.bcast_S_S600000 (constantI S_ 32 0#32)))
          (addi ix (broadcastInDim S600000 ![] Facts.bcast_S_S600000 (constantI S_ 32 100000#32))) ix)) (ix2 e (⟨0, Nat.one_pos⟩ : Fin 1))).toInt.toNat (100000 - 1)
    = min (ix (ix1 e)).toInt.toNat 99999
  rw [col_apply, wrap_apply ix hix]

private theorem one_bits : Ideal.ofBits .f32 0x3F800000#32 = 1 := Ideal.ofBits_one_f32

open Cert.Pre_finite_inputs in
set_option maxHeartbeats 400000 in
/-- x · (1 / (1 + exp(−x))) written out over an edge array, read at an index, is silu. -/
private theorem silu_apply (z : Arr SEF) (i : SEF.Idx) :
    mulf (F := Ideal) (φ := .f32) z (Host.divf (F := Ideal) (φ := .f32) (broadcastInDim S600000x128 ![] Facts.bcast_S_S600000x128 (constant (F := Ideal) S_ .f32 0x3F800000#32))
      (addf (F := Ideal) (φ := .f32) (broadcastInDim S600000x128 ![] Facts.bcast_S_S600000x128 (constant (F := Ideal) S_ .f32 0x3F800000#32)) (Host.exp (F := Ideal) (φ := .f32) (Host.negf (F := Ideal) (φ := .f32) z)))) i = silu (z i) := by
  show z i * Ideal.div (Ideal.ofBits .f32 0x3F800000#32) (Ideal.ofBits .f32 0x3F800000#32 + Ideal.exp (-(z i))) = _
  rw [one_bits]
  rfl

open Cert.Pre_finite_inputs in
set_option maxHeartbeats 400000 in
/-- The precondition's edge update, read at (e, q). -/
private theorem eu_apply (X : Arr SNF) (EF : Arr SEF) (src dst : IArr SE) (Wes : Arr SFF) (bes : Arr SF) (Wed : Arr SFF) (bed : Arr SF) (Wee : Arr SFF) (bee : Arr SF) (hs : InRange src) (hd : InRange dst) (e : Fin 600000) (q : Fin 128) :
    (addf (F := Ideal) (φ := .f32) (addf (F := Ideal) (φ := .f32) (Host.dotGeneral (F := Ideal) (φ₁ := .f32) (φ₂ := .f32) dot_S600000x128_S128x128_S600000x128_1_0_0_1_n_n none EF Wee)
        (broadcastInDim S600000x128 ![0, 1] Facts.bcast_S1x128_S600000x128_0_1 (broadcastInDim S1x128 ![1] Facts.bcast_S128_S1x128_1 bee)))
      (addf (F := Ideal) (φ := .f32) (Host.gather gather_S100000x128_S600000x1_S600000x128_1_0_n_n_0_1_1128 (addf (F := Ideal) (φ := .f32) (Host.dotGeneral (F := Ideal) (φ₁ := .f32) (φ₂ := .f32) dot_S100000x128_S128x128_S100000x128_1_0_0_1_n_n none X Wes)
        (broadcastInDim S100000x128 ![0, 1] Facts.bcast_S1x128_S100000x128_0_1 (broadcastInDim S1x128 ![1] Facts.bcast_S128_S1x128_1 bes))) (broadcastInDim S600000x1 ![0] Facts.bcast_S600000_S600000x1_0
        (select (cmpi .slt src (broadcastInDim S600000 ![] Facts.bcast_S_S600000 (constantI S_ 32 0#32)))
          (addi src (broadcastInDim S600000 ![] Facts.bcast_S_S600000 (constantI S_ 32 100000#32))) src)))
        (Host.gather gather_S100000x128_S600000x1_S600000x128_1_0_n_n_0_1_1128 (addf (F := Ideal) (φ := .f32) (Host.dotGeneral (F := Ideal) (φ₁ := .f32) (φ₂ := .f32) dot_S100000x128_S128x128_S100000x128_1_0_0_1_n_n none X Wed)
        (broadcastInDim S100000x128 ![0, 1] Facts.bcast_S1x128_S100000x128_0_1 (broadcastInDim S1x128 ![1] Facts.bcast_S128_S1x128_1 bed))) (broadcastInDim S600000x1 ![0] Facts.bcast_S600000_S600000x1_0
        (select (cmpi .slt dst (broadcastInDim S600000 ![] Facts.bcast_S_S600000 (constantI S_ 32 0#32)))
          (addi dst (broadcastInDim S600000 ![] Facts.bcast_S_S600000 (constantI S_ 32 100000#32))) dst))))) (ix2 e q) = eu X EF src dst Wes bes Wed bed Wee bee e q := by
  rw [addf_apply, linE_apply, addf_apply, gather_apply _ src hs, gather_apply _ dst hd, linN_apply, linN_apply]
  rfl

open Cert.Pre_finite_inputs in
set_option maxHeartbeats 400000 in
/-- The precondition's gate, read at (e, q). -/
private theorem gate_apply (X : Arr SNF) (EF : Arr SEF) (src dst : IArr SE) (Wes : Arr SFF) (bes : Arr SF) (Wed : Arr SFF) (bed : Arr SF) (Wee : Arr SFF) (bee : Arr SF) (hs : InRange src) (hd : InRange dst) (e : Fin 600000) (q : Fin 128) :
    (mulf (F := Ideal) (φ := .f32) (addf (F := Ideal) (φ := .f32) (addf (F := Ideal) (φ := .f32) (Host.dotGeneral (F := Ideal) (φ₁ := .f32) (φ₂ := .f32) dot_S600000x128_S128x128_S600000x128_1_0_0_1_n_n none EF Wee)
        (broadcastInDim S600000x128 ![0, 1] Facts.bcast_S1x128_S600000x128_0_1 (broadcastInDim S1x128 ![1] Facts.bcast_S128_S1x128_1 bee)))
      (addf (F := Ideal) (φ := .f32) (Host.gather gather_S100000x128_S600000x1_S600000x128_1_0_n_n_0_1_1128 (addf (F := Ideal) (φ := .f32) (Host.dotGeneral (F := Ideal) (φ₁ := .f32) (φ₂ := .f32) dot_S100000x128_S128x128_S100000x128_1_0_0_1_n_n none X Wes)
        (broadcastInDim S100000x128 ![0, 1] Facts.bcast_S1x128_S100000x128_0_1 (broadcastInDim S1x128 ![1] Facts.bcast_S128_S1x128_1 bes))) (broadcastInDim S600000x1 ![0] Facts.bcast_S600000_S600000x1_0
        (select (cmpi .slt src (broadcastInDim S600000 ![] Facts.bcast_S_S600000 (constantI S_ 32 0#32)))
          (addi src (broadcastInDim S600000 ![] Facts.bcast_S_S600000 (constantI S_ 32 100000#32))) src)))
        (Host.gather gather_S100000x128_S600000x1_S600000x128_1_0_n_n_0_1_1128 (addf (F := Ideal) (φ := .f32) (Host.dotGeneral (F := Ideal) (φ₁ := .f32) (φ₂ := .f32) dot_S100000x128_S128x128_S100000x128_1_0_0_1_n_n none X Wed)
        (broadcastInDim S100000x128 ![0, 1] Facts.bcast_S1x128_S100000x128_0_1 (broadcastInDim S1x128 ![1] Facts.bcast_S128_S1x128_1 bed))) (broadcastInDim S600000x1 ![0] Facts.bcast_S600000_S600000x1_0
        (select (cmpi .slt dst (broadcastInDim S600000 ![] Facts.bcast_S_S600000 (constantI S_ 32 0#32)))
          (addi dst (broadcastInDim S600000 ![] Facts.bcast_S_S600000 (constantI S_ 32 100000#32))) dst))))) (Host.divf (F := Ideal) (φ := .f32) (broadcastInDim S600000x128 ![] Facts.bcast_S_S600000x128 (constant (F := Ideal) S_ .f32 0x3F800000#32))
      (addf (F := Ideal) (φ := .f32) (broadcastInDim S600000x128 ![] Facts.bcast_S_S600000x128 (constant (F := Ideal) S_ .f32 0x3F800000#32)) (Host.exp (F := Ideal) (φ := .f32) (Host.negf (F := Ideal) (φ := .f32) (addf (F := Ideal) (φ := .f32) (addf (F := Ideal) (φ := .f32) (Host.dotGeneral (F := Ideal) (φ₁ := .f32) (φ₂ := .f32) dot_S600000x128_S128x128_S600000x128_1_0_0_1_n_n none EF Wee)
        (broadcastInDim S600000x128 ![0, 1] Facts.bcast_S1x128_S600000x128_0_1 (broadcastInDim S1x128 ![1] Facts.bcast_S128_S1x128_1 bee)))
      (addf (F := Ideal) (φ := .f32) (Host.gather gather_S100000x128_S600000x1_S600000x128_1_0_n_n_0_1_1128 (addf (F := Ideal) (φ := .f32) (Host.dotGeneral (F := Ideal) (φ₁ := .f32) (φ₂ := .f32) dot_S100000x128_S128x128_S100000x128_1_0_0_1_n_n none X Wes)
        (broadcastInDim S100000x128 ![0, 1] Facts.bcast_S1x128_S100000x128_0_1 (broadcastInDim S1x128 ![1] Facts.bcast_S128_S1x128_1 bes))) (broadcastInDim S600000x1 ![0] Facts.bcast_S600000_S600000x1_0
        (select (cmpi .slt src (broadcastInDim S600000 ![] Facts.bcast_S_S600000 (constantI S_ 32 0#32)))
          (addi src (broadcastInDim S600000 ![] Facts.bcast_S_S600000 (constantI S_ 32 100000#32))) src)))
        (Host.gather gather_S100000x128_S600000x1_S600000x128_1_0_n_n_0_1_1128 (addf (F := Ideal) (φ := .f32) (Host.dotGeneral (F := Ideal) (φ₁ := .f32) (φ₂ := .f32) dot_S100000x128_S128x128_S100000x128_1_0_0_1_n_n none X Wed)
        (broadcastInDim S100000x128 ![0, 1] Facts.bcast_S1x128_S100000x128_0_1 (broadcastInDim S1x128 ![1] Facts.bcast_S128_S1x128_1 bed))) (broadcastInDim S600000x1 ![0] Facts.bcast_S600000_S600000x1_0
        (select (cmpi .slt dst (broadcastInDim S600000 ![] Facts.bcast_S_S600000 (constantI S_ 32 0#32)))
          (addi dst (broadcastInDim S600000 ![] Facts.bcast_S_S600000 (constantI S_ 32 100000#32))) dst)))))))))) (ix2 e q) = gate X EF src dst Wes bes Wed bed Wee bee e q := by
  rw [silu_apply, eu_apply X EF src dst Wes bes Wed bed Wee bee hs hd]
  rfl

open Cert.Pre_finite_inputs in
private theorem scatter_rec : scatter_S100000x128_S600000x1_S600000x128_1_0_0_1 = LibScatter.rowScatter 100000 600000 128 Facts.scatter_S100000x128_S600000x1_S600000x128_1_0_0_1_wf := rfl

open Cert.Pre_finite_inputs in
set_option maxHeartbeats 200000 in
/-- Any edge array scatter-added onto zeros at an in-range dst, read at (p, q): the sum over the edges into p. -/
private theorem scatter_apply (G : Arr SEF) (dst : IArr SE) (hd : InRange dst) (p : Fin 100000) (q : Fin 128) :
    Host.scatterAdd (F := Ideal) (φ := .f32) scatter_S100000x128_S600000x1_S600000x128_1_0_0_1 (broadcastInDim S100000x128 ![] Facts.bcast_S_S100000x128 (constant (F := Ideal) S_ .f32 0x00000000#32)) (broadcastInDim S600000x1 ![0] Facts.bcast_S600000_S600000x1_0 dst) G (ix2 p q)
      = ∑ e ∈ Finset.univ.filter (fun e : Fin 600000 => node dst e = p), G (ix2 e q) := by
  have hsc := LibScatter.scatterAdd_row_apply (N := 100000) (R := 600000) (C := 128) Facts.scatter_S100000x128_S600000x1_S600000x128_1_0_0_1_wf
    (broadcastInDim S100000x128 ![] Facts.bcast_S_S100000x128 (constant (F := Ideal) S_ .f32 0x00000000#32)) (broadcastInDim S600000x1 ![0] Facts.bcast_S600000_S600000x1_0 dst) G p q
  have h1 : Host.scatterAdd (F := Ideal) (φ := .f32) scatter_S100000x128_S600000x1_S600000x128_1_0_0_1 (broadcastInDim S100000x128 ![] Facts.bcast_S_S100000x128 (constant (F := Ideal) S_ .f32 0x00000000#32)) (broadcastInDim S600000x1 ![0] Facts.bcast_S600000_S600000x1_0 dst) G
      = Ideal.hostScatterAdd scatter_S100000x128_S600000x1_S600000x128_1_0_0_1 (broadcastInDim S100000x128 ![] Facts.bcast_S_S100000x128 (constant (F := Ideal) S_ .f32 0x00000000#32)) (broadcastInDim S600000x1 ![0] Facts.bcast_S600000_S600000x1_0 dst) G := rfl
  rw [h1, scatter_rec, hsc]
  have h0 : (broadcastInDim S100000x128 ![] Facts.bcast_S_S100000x128 (constant (F := Ideal) S_ .f32 0x00000000#32)) (ix2 p q) = 0 := Ideal.ofBits_zero_f32
  rw [h0, zero_add]
  refine Finset.sum_congr (Finset.filter_congr fun e _ => ?_) (fun _ _ => rfl)
  rw [col_apply]
  have he := hd e
  constructor
  · intro h
    apply Fin.ext
    show min (dst (ix1 e)).toInt.toNat 99999 = p.val
    omega
  · intro h
    have hv : min (dst (ix1 e)).toInt.toNat 99999 = p.val := congrArg Fin.val h
    omega

open Cert.Pre_finite_inputs in
set_option maxHeartbeats 400000 in
/-- The precondition's den (the gate scatter-added onto zeros at dst), read at (p, q). -/
private theorem den_apply (X : Arr SNF) (EF : Arr SEF) (src dst : IArr SE) (Wes : Arr SFF) (bes : Arr SF) (Wed : Arr SFF) (bed : Arr SF) (Wee : Arr SFF) (bee : Arr SF) (hs : InRange src) (hd : InRange dst) (p : Fin 100000) (q : Fin 128) :
    (Host.scatterAdd (F := Ideal) (φ := .f32) scatter_S100000x128_S600000x1_S600000x128_1_0_0_1 (broadcastInDim S100000x128 ![] Facts.bcast_S_S100000x128 (constant (F := Ideal) S_ .f32 0x00000000#32)) (broadcastInDim S600000x1 ![0] Facts.bcast_S600000_S600000x1_0 dst) (mulf (F := Ideal) (φ := .f32) (addf (F := Ideal) (φ := .f32) (addf (F := Ideal) (φ := .f32) (Host.dotGeneral (F := Ideal) (φ₁ := .f32) (φ₂ := .f32) dot_S600000x128_S128x128_S600000x128_1_0_0_1_n_n none EF Wee)
        (broadcastInDim S600000x128 ![0, 1] Facts.bcast_S1x128_S600000x128_0_1 (broadcastInDim S1x128 ![1] Facts.bcast_S128_S1x128_1 bee)))
      (addf (F := Ideal) (φ := .f32) (Host.gather gather_S100000x128_S600000x1_S600000x128_1_0_n_n_0_1_1128 (addf (F := Ideal) (φ := .f32) (Host.dotGeneral (F := Ideal) (φ₁ := .f32) (φ₂ := .f32) dot_S100000x128_S128x128_S100000x128_1_0_0_1_n_n none X Wes)
        (broadcastInDim S100000x128 ![0, 1] Facts.bcast_S1x128_S100000x128_0_1 (broadcastInDim S1x128 ![1] Facts.bcast_S128_S1x128_1 bes))) (broadcastInDim S600000x1 ![0] Facts.bcast_S600000_S600000x1_0
        (select (cmpi .slt src (broadcastInDim S600000 ![] Facts.bcast_S_S600000 (constantI S_ 32 0#32)))
          (addi src (broadcastInDim S600000 ![] Facts.bcast_S_S600000 (constantI S_ 32 100000#32))) src)))
        (Host.gather gather_S100000x128_S600000x1_S600000x128_1_0_n_n_0_1_1128 (addf (F := Ideal) (φ := .f32) (Host.dotGeneral (F := Ideal) (φ₁ := .f32) (φ₂ := .f32) dot_S100000x128_S128x128_S100000x128_1_0_0_1_n_n none X Wed)
        (broadcastInDim S100000x128 ![0, 1] Facts.bcast_S1x128_S100000x128_0_1 (broadcastInDim S1x128 ![1] Facts.bcast_S128_S1x128_1 bed))) (broadcastInDim S600000x1 ![0] Facts.bcast_S600000_S600000x1_0
        (select (cmpi .slt dst (broadcastInDim S600000 ![] Facts.bcast_S_S600000 (constantI S_ 32 0#32)))
          (addi dst (broadcastInDim S600000 ![] Facts.bcast_S_S600000 (constantI S_ 32 100000#32))) dst))))) (Host.divf (F := Ideal) (φ := .f32) (broadcastInDim S600000x128 ![] Facts.bcast_S_S600000x128 (constant (F := Ideal) S_ .f32 0x3F800000#32))
      (addf (F := Ideal) (φ := .f32) (broadcastInDim S600000x128 ![] Facts.bcast_S_S600000x128 (constant (F := Ideal) S_ .f32 0x3F800000#32)) (Host.exp (F := Ideal) (φ := .f32) (Host.negf (F := Ideal) (φ := .f32) (addf (F := Ideal) (φ := .f32) (addf (F := Ideal) (φ := .f32) (Host.dotGeneral (F := Ideal) (φ₁ := .f32) (φ₂ := .f32) dot_S600000x128_S128x128_S600000x128_1_0_0_1_n_n none EF Wee)
        (broadcastInDim S600000x128 ![0, 1] Facts.bcast_S1x128_S600000x128_0_1 (broadcastInDim S1x128 ![1] Facts.bcast_S128_S1x128_1 bee)))
      (addf (F := Ideal) (φ := .f32) (Host.gather gather_S100000x128_S600000x1_S600000x128_1_0_n_n_0_1_1128 (addf (F := Ideal) (φ := .f32) (Host.dotGeneral (F := Ideal) (φ₁ := .f32) (φ₂ := .f32) dot_S100000x128_S128x128_S100000x128_1_0_0_1_n_n none X Wes)
        (broadcastInDim S100000x128 ![0, 1] Facts.bcast_S1x128_S100000x128_0_1 (broadcastInDim S1x128 ![1] Facts.bcast_S128_S1x128_1 bes))) (broadcastInDim S600000x1 ![0] Facts.bcast_S600000_S600000x1_0
        (select (cmpi .slt src (broadcastInDim S600000 ![] Facts.bcast_S_S600000 (constantI S_ 32 0#32)))
          (addi src (broadcastInDim S600000 ![] Facts.bcast_S_S600000 (constantI S_ 32 100000#32))) src)))
        (Host.gather gather_S100000x128_S600000x1_S600000x128_1_0_n_n_0_1_1128 (addf (F := Ideal) (φ := .f32) (Host.dotGeneral (F := Ideal) (φ₁ := .f32) (φ₂ := .f32) dot_S100000x128_S128x128_S100000x128_1_0_0_1_n_n none X Wed)
        (broadcastInDim S100000x128 ![0, 1] Facts.bcast_S1x128_S100000x128_0_1 (broadcastInDim S1x128 ![1] Facts.bcast_S128_S1x128_1 bed))) (broadcastInDim S600000x1 ![0] Facts.bcast_S600000_S600000x1_0
        (select (cmpi .slt dst (broadcastInDim S600000 ![] Facts.bcast_S_S600000 (constantI S_ 32 0#32)))
          (addi dst (broadcastInDim S600000 ![] Facts.bcast_S_S600000 (constantI S_ 32 100000#32))) dst))))))))))) (ix2 p q) = den X EF src dst Wes bes Wed bed Wee bee p q := by
  rw [scatter_apply _ dst hd]
  unfold den
  exact Finset.sum_congr rfl (fun e _ => gate_apply X EF src dst Wes bes Wed bed Wee bee hs hd e q)

/-- The compare NE of a + ε₆ against zero, true: a + ε₆ is not zero. -/
private theorem ne_of_cmp (a : EReal)
    (h : Ideal.cmp .une (a + Ideal.ofBits .f32 0x358637BD#32) (Ideal.ofBits .f32 0x00000000#32) = 1#1) : a + eps6 ≠ 0 := by
  rw [Ideal.ofBits_zero_f32] at h
  unfold Ideal.cmp at h
  rw [StableHlo.Predicate.ofBool_eq_one_iff] at h
  simp only [decide_eq_true_eq] at h
  exact h

/-! ## The precondition decoded -/

private theorem andi_ix0 (a b : IVec Cert.Pre_finite_inputs.S_ 1) (h : andi a b ix0 = 1#1) : a ix0 = 1#1 ∧ b ix0 = 1#1 :=
  IntOp.andi_eq_one.1 h

variable (X : Arr SNF) (EF : Arr SEF) (src dst : IArr SE)
  (Wes : Arr SFF) (bes : Arr SF) (Wed : Arr SFF) (bed : Arr SF) (Wee : Arr SFF) (bee : Arr SF)
  (Wnd : Arr SFF) (bnd : Arr SF) (Wns : Arr SFF) (bns : Arr SF) (ge bge gn bgn : Arr SF)

set_option maxHeartbeats 400000 in
theorem decode
    (h : Cert.Pre_finite_inputs.fn (F := Ideal) X EF src dst Wes bes Wed bed Wee bee Wnd bnd Wns bns ge bge gn bgn = fun _ => 1#1) :
    AllReal X ∧ AllReal EF ∧ AllReal Wes ∧ AllReal bes ∧ AllReal Wed ∧ AllReal bed ∧ AllReal Wee ∧ AllReal bee
      ∧ AllReal Wnd ∧ AllReal bnd ∧ AllReal Wns ∧ AllReal bns ∧ InRange src ∧ InRange dst
      ∧ ∀ (p : Fin 100000) (q : Fin 128), den X EF src dst Wes bes Wed bed Wee bee p q + eps6 ≠ 0 := by
  have e := congrFun h ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, Cert.Pre_finite_inputs.fn_part7] at e
  have h19 := (andi_ix0 _ _ e).2
  replace e := (andi_ix0 _ _ e).1
  have h18 := (andi_ix0 _ _ e).2
  replace e := (andi_ix0 _ _ e).1
  have h17 := (andi_ix0 _ _ e).2
  replace e := (andi_ix0 _ _ e).1
  have h16 := (andi_ix0 _ _ e).2
  replace e := (andi_ix0 _ _ e).1
  have h15 := (andi_ix0 _ _ e).2
  replace e := (andi_ix0 _ _ e).1
  have h14 := (andi_ix0 _ _ e).2
  replace e := (andi_ix0 _ _ e).1
  have h13 := (andi_ix0 _ _ e).2
  replace e := (andi_ix0 _ _ e).1
  have h12 := (andi_ix0 _ _ e).2
  replace e := (andi_ix0 _ _ e).1
  have h11 := (andi_ix0 _ _ e).2
  replace e := (andi_ix0 _ _ e).1
  have h10 := (andi_ix0 _ _ e).2
  replace e := (andi_ix0 _ _ e).1
  have h9 := (andi_ix0 _ _ e).2
  replace e := (andi_ix0 _ _ e).1
  have h8 := (andi_ix0 _ _ e).2
  replace e := (andi_ix0 _ _ e).1
  have h7 := (andi_ix0 _ _ e).2
  replace e := (andi_ix0 _ _ e).1
  have h6 := (andi_ix0 _ _ e).2
  replace e := (andi_ix0 _ _ e).1
  have h5 := (andi_ix0 _ _ e).2
  replace e := (andi_ix0 _ _ e).1
  have h4 := (andi_ix0 _ _ e).2
  replace e := (andi_ix0 _ _ e).1
  have h3 := (andi_ix0 _ _ e).2
  replace e := (andi_ix0 _ _ e).1
  obtain ⟨h1, h2⟩ := andi_ix0 _ _ e
  clear e h
  have hs : InRange src := inRange_of_all src _ _ _ h17
  have hd : InRange dst := inRange_of_all dst _ _ _ h18
  refine ⟨allReal_of_all X _ _ _ h1, allReal_of_all EF _ _ _ h2, allReal_of_all Wes _ _ _ h3, allReal_of_all bes _ _ _ h4,
    allReal_of_all Wed _ _ _ h5, allReal_of_all bed _ _ _ h6, allReal_of_all Wee _ _ _ h7, allReal_of_all bee _ _ _ h8,
    allReal_of_all Wnd _ _ _ h9, allReal_of_all bnd _ _ _ h10, allReal_of_all Wns _ _ _ h11, allReal_of_all bns _ _ _ h12,
    hs, hd, ?_⟩
  clear h1 h2 h3 h4 h5 h6 h7 h8 h9 h10 h11 h12 h13 h14 h15 h16 h17 h18
  intro p q
  have t := Host.reduce_andi_all _ _ _ _ ix0 h19 (ix2 p q)
  clear h19
  rw [cmpf_apply, addf_apply, den_apply X EF src dst Wes bes Wed bed Wee bee hs hd p q] at t
  exact ne_of_cmp _ t

end Cert.PreDecode

end
-- ==== Proof.MathVar.lean ====
/-
  Over real data the mean of the squares minus the squared mean is the mean of the squared deviations, and it is
  not negative, so cutting it off at zero changes nothing: (1/n)Σx² − ((1/n)Σx)² = (1/n)Σ(x − (1/n)Σx)² ≥ 0.
  The count literals are the row counts 600000 and 100000.
-/
import proofs.«409458_j13194139533628_3_alg».proof.Proof.Spec

noncomputable section

open scoped BigOperators

namespace Cert.MathVar

open Idealize.ShloMosaic Idealize.ShloMosaic.ValueIdx Cert.Spec

/-- Sign 0, exponent 146, significand 2^23 + 1211392 = 9600000: 9600000 · 2^(146 − 127 − 23) = 600000. -/
theorem cntE_eq : cntE = ((600000 : ℝ) : EReal) := by
  unfold cntE
  simp [Ideal.ofBits, Ideal.ieee, -EReal.coe_mul]; norm_num

/-- Sign 0, exponent 143, significand 2^23 + 4411392 = 12800000: 12800000 · 2^(143 − 127 − 23) = 100000. -/
theorem cntN_eq : cntN = ((100000 : ℝ) : EReal) := by
  unfold cntN
  simp [Ideal.ofBits, Ideal.ieee, -EReal.coe_mul]; norm_num

/-- The inclusion of the reals in the extended reals carries finite sums to finite sums. -/
private theorem coe_sum {ι : Type} (s : Finset ι) (y : ι → ℝ) :
    ((∑ r ∈ s, y r : ℝ) : EReal) = ∑ r ∈ s, (y r : EReal) := by
  classical
  induction s using Finset.induction_on with
  | empty => simp
  | insert a s ha ih => rw [Finset.sum_insert ha, Finset.sum_insert ha, EReal.coe_add, ih]

/-- Over the reals, with n the number of terms: (1/n)Σy² − ((1/n)Σy)² = (1/n)Σ(y − (1/n)Σy)².
    Expanding the square, Σ(y − μ)² = Σy² − 2μΣy + nμ², and μ = (1/n)Σy. -/
private theorem real_var {ι : Type} [Fintype ι] (n : ℝ) (hn : n ≠ 0) (hcard : (Fintype.card ι : ℝ) = n)
    (y : ι → ℝ) :
    (∑ r, y r * y r) * (1 / n) - ((∑ r, y r) * (1 / n)) * ((∑ r, y r) * (1 / n))
      = (∑ r, (y r - (∑ r, y r) * (1 / n)) * (y r - (∑ r, y r) * (1 / n))) * (1 / n) := by
  set μ : ℝ := (∑ r, y r) * (1 / n) with hμ
  have h1 : ∑ r, (y r - μ) * (y r - μ) = (∑ r, y r * y r) - 2 * μ * (∑ r, y r) + n * (μ * μ) := by
    have h2 : ∀ r, (y r - μ) * (y r - μ) = y r * y r - 2 * μ * y r + μ * μ := fun r => by ring
    simp only [h2]
    rw [Finset.sum_add_distrib, Finset.sum_sub_distrib, ← Finset.mul_sum, Finset.sum_const, Finset.card_univ,
      nsmul_eq_mul, hcard]
  rw [h1, hμ]
  field_simp
  ring

/-- The two variances agree on real data when the count is the number of rows. -/
private theorem var_core {ι : Type} [Fintype ι] (n : ℝ) (hn : 0 < n) (hcard : (Fintype.card ι : ℝ) = n)
    (x : ι → EReal) (hx : ∀ r, IsReal (x r)) : varSq (n : EReal) x = varDev (n : EReal) x := by
  have hx' : ∀ r, ∃ t : ℝ, x r = (t : EReal) := hx
  choose y hy using hx'
  have hxy : x = fun r => (y r : EReal) := funext hy
  subst hxy
  have hn0 : n ≠ 0 := ne_of_gt hn
  unfold varSq varDev meanOf
  simp only [Ideal.div_coe hn0]
  simp only [← EReal.coe_mul, ← coe_sum, ← EReal.coe_sub]
  rw [real_var n hn0 hcard y]
  apply max_eq_left
  have h0 : (0 : ℝ) ≤ (∑ r, (y r - (∑ r, y r) * (1 / n)) * (y r - (∑ r, y r) * (1 / n))) * (1 / n) :=
    mul_nonneg (Finset.sum_nonneg fun r _ => mul_self_nonneg _) (by positivity)
  exact_mod_cast h0

theorem varSq_eq_varDev_E (x : Fin 600000 → EReal) (hx : ∀ e, IsReal (x e)) : varSq cntE x = varDev cntE x := by
  rw [cntE_eq]
  exact var_core 600000 (by norm_num) (by rw [Fintype.card_fin]; norm_num) x hx

theorem varSq_eq_varDev_N (x : Fin 100000 → EReal) (hx : ∀ p, IsReal (x p)) : varSq cntN x = varDev cntN x := by
  rw [cntN_eq]
  exact var_core 100000 (by norm_num) (by rw [Fintype.card_fin]; norm_num) x hx

end Cert.MathVar

end
-- ==== Proof.MathReal.lean ====
/-
  The edge update and the node update are real numbers when the arguments are and no divisor den + ε₆ vanishes:
  sums and products of reals are real, e^{-x} is a positive real so 1 + e^{-x} is a nonzero divisor, and a quotient
  of reals by a nonzero real is real.
-/
import proofs.«409458_j13194139533628_3_alg».proof.Proof.Spec

noncomputable section

open scoped BigOperators

namespace Cert.MathReal

open Idealize.ShloMosaic Idealize.ShloMosaic.ValueIdx Cert.Spec

/-! ## Closure of the reals inside the extended reals -/

private theorem isReal_coe (r : ℝ) : IsReal (r : EReal) := ⟨r, rfl⟩

private theorem isReal_zero : IsReal 0 := ⟨0, rfl⟩

private theorem isReal_add {x y : EReal} (hx : IsReal x) (hy : IsReal y) : IsReal (x + y) := by
  obtain ⟨a, rfl⟩ := hx
  obtain ⟨b, rfl⟩ := hy
  exact ⟨a + b, (EReal.coe_add a b).symm⟩

private theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals is real. -/
private theorem isReal_sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact isReal_add (h a (Finset.mem_insert_self a s)) (ih (fun i hi => h i (Finset.mem_insert_of_mem hi)))

/-- A quotient of a real by a nonzero real is real: it is the product with the reciprocal. -/
private theorem isReal_div {x y : EReal} (hx : IsReal x) (hy : IsReal y) (h0 : y ≠ 0) : IsReal (Ideal.div x y) := by
  obtain ⟨d, rfl⟩ := hy
  have hd : d ≠ 0 := by
    intro h
    exact h0 (by rw [h, EReal.coe_zero])
  rw [Ideal.div_coe hd]
  exact isReal_mul hx (isReal_coe _)

/-- silu of a real is real: 1 + e^{-r} is a positive real, so the divisor is nonzero. -/
private theorem isReal_silu {x : EReal} (hx : IsReal x) : IsReal (silu x) := by
  obtain ⟨r, rfl⟩ := hx
  have h : (1 : EReal) + Ideal.exp (-(r : EReal)) = ((1 + Real.exp (-r) : ℝ) : EReal) := by
    rw [← EReal.coe_neg, Ideal.exp_coe, ← EReal.coe_one, ← EReal.coe_add]
  have hne : ((1 + Real.exp (-r) : ℝ) : EReal) ≠ 0 := by
    have hpos : (0 : ℝ) < 1 + Real.exp (-r) := by positivity
    exact_mod_cast hpos.ne'
  unfold silu
  rw [h]
  exact isReal_mul (isReal_coe r) (isReal_div ⟨1, rfl⟩ (isReal_coe _) hne)

/-- A binary word whose exponent field is not all ones denotes a real number. -/
private theorem isReal_ieee (e m : Nat) {w : Nat} (b : BitVec w) (h : (b.extractLsb' m e).toNat ≠ 2 ^ e - 1) :
    IsReal (Ideal.ieee e m b) := by
  unfold Ideal.ieee
  simp only []
  rw [if_neg h]
  split_ifs <;> exact ⟨_, rfl⟩

/-- ε₆ is a real number: its exponent field is 107, not 255. -/
private theorem isReal_eps6 : IsReal eps6 := by
  show IsReal (Ideal.ieee 8 23 (0x358637BD#32 : BitVec 32))
  exact isReal_ieee 8 23 (0x358637BD#32 : BitVec 32) (by decide)

/-! ## The linear maps -/

private theorem isReal_linN {X : Arr SNF} {W : Arr SFF} {b : Arr SF} (hX : AllReal X) (hW : AllReal W) (hb : AllReal b)
    (p : Fin 100000) (q : Fin 128) : IsReal (linN X W b p q) := by
  unfold linN
  exact isReal_add (isReal_sum _ _ (fun k _ => isReal_mul (hX _) (hW _))) (hb _)

private theorem isReal_linE {X : Arr SEF} {W : Arr SFF} {b : Arr SF} (hX : AllReal X) (hW : AllReal W) (hb : AllReal b)
    (e : Fin 600000) (q : Fin 128) : IsReal (linE X W b e q) := by
  unfold linE
  exact isReal_add (isReal_sum _ _ (fun k _ => isReal_mul (hX _) (hW _))) (hb _)

section FromArguments

variable (X : Arr SNF) (EF : Arr SEF) (src dst : IArr SE)
  (Wes : Arr SFF) (bes : Arr SF) (Wed : Arr SFF) (bed : Arr SF) (Wee : Arr SFF) (bee : Arr SF)
  (Wnd : Arr SFF) (bnd : Arr SF) (Wns : Arr SFF) (bns : Arr SF)

theorem isReal_eu (hX : AllReal X) (hEF : AllReal EF) (hWes : AllReal Wes) (hbes : AllReal bes) (hWed : AllReal Wed)
    (hbed : AllReal bed) (hWee : AllReal Wee) (hbee : AllReal bee) (e : Fin 600000) (q : Fin 128) :
    IsReal (eu X EF src dst Wes bes Wed bed Wee bee e q) := by
  unfold eu
  exact isReal_add (isReal_linE hEF hWee hbee e q)
    (isReal_add (isReal_linN hX hWes hbes _ q) (isReal_linN hX hWed hbed _ q))

theorem isReal_nfu (hX : AllReal X) (hEF : AllReal EF) (hWes : AllReal Wes) (hbes : AllReal bes) (hWed : AllReal Wed)
    (hbed : AllReal bed) (hWee : AllReal Wee) (hbee : AllReal bee) (hWnd : AllReal Wnd) (hbnd : AllReal bnd)
    (hWns : AllReal Wns) (hbns : AllReal bns)
    (hden : ∀ (p : Fin 100000) (q : Fin 128), den X EF src dst Wes bes Wed bed Wee bee p q + eps6 ≠ 0)
    (p : Fin 100000) (q : Fin 128) :
    IsReal (nfu X EF src dst Wes bes Wed bed Wee bee Wnd bnd Wns bns p q) := by
  have hgate : ∀ (e : Fin 600000) (q : Fin 128), IsReal (gate X EF src dst Wes bes Wed bed Wee bee e q) := by
    intro e q
    unfold gate
    exact isReal_silu (isReal_eu X EF src dst Wes bes Wed bed Wee bee hX hEF hWes hbes hWed hbed hWee hbee e q)
  have hnum : IsReal (num X EF src dst Wes bes Wed bed Wee bee Wnd bnd p q) := by
    unfold num
    exact isReal_sum _ _ (fun e _ => isReal_mul (isReal_linN hX hWnd hbnd _ q) (hgate e q))
  have hd : IsReal (den X EF src dst Wes bes Wed bed Wee bee p q + eps6) := by
    refine isReal_add ?_ isReal_eps6
    unfold den
    exact isReal_sum _ _ (fun e _ => hgate e q)
  unfold nfu
  exact isReal_add (isReal_linN hX hWns hbns p q) (isReal_div hnum hd (hden p q))

end FromArguments

end Cert.MathReal

end
-- ==== Proof.lean ====
/-
  The certificate of a graph-network layer: node projections, an edge update gated by silu, the gated messages summed
  onto their destination nodes, a node update with the quotient num / (den + ε₆), and a batch normalisation, silu and
  residual on both the edge and the node features.

  The kernel computes it in five pipelined regions with host gathers, one scatter-add and the batch statistics
  between them; the reference is plain array code.  Over the extended reals the two agree on every input the
  precondition admits: finite float arguments, edge endpoints that are node indices, and no vanishing divisor
  den + ε₆.  Up to the normalisation both programs are the same sums and products, regrouped (the kernel gathers
  e_dst and n_dst side by side, scatters (n_dst·gate | gate) in one pass, and takes the column sums blockwise).
  The variances differ in form: the kernel takes the mean of the squares minus the squared mean, cut off at zero,
  the reference the mean of the squared deviations; they are equal where the normalised columns are real numbers,
  which is what the precondition secures (the quotient is the only place a non-real value could enter).

  The three frames are the generated ones (the reference's is its generated run with the results dropped); the
  idealization rewrote nothing, so its conjunct is trivial; the equivalence is assembled here from the kernel's run
  with its results named, the reference's run, and the index-by-index readings of both.
-/
import proofs.«409458_j13194139533628_3_alg».proof.Defs
import proofs.«409458_j13194139533628_3_alg».proof.Proof.Gen.Kernel
import proofs.«409458_j13194139533628_3_alg».proof.Proof.Gen.Kernel.Skeleton
import proofs.«409458_j13194139533628_3_alg».proof.Proof.Gen.Kernel.Launch
import proofs.«409458_j13194139533628_3_alg».proof.Proof.Gen.Kernel.Points
import proofs.«409458_j13194139533628_3_alg».proof.Proof.Gen.Kernel.Frame
import proofs.«409458_j13194139533628_3_alg».proof.Proof.Gen.KernelIdeal
import proofs.«409458_j13194139533628_3_alg».proof.Proof.Gen.KernelIdeal.Skeleton
import proofs.«409458_j13194139533628_3_alg».proof.Proof.Gen.KernelIdeal.Launch
import proofs.«409458_j13194139533628_3_alg».proof.Proof.Gen.KernelIdeal.Points
import proofs.«409458_j13194139533628_3_alg».proof.Proof.Gen.KernelIdeal.Frame
import proofs.«409458_j13194139533628_3_alg».proof.Proof.Gen.ReferenceIdeal
import proofs.«409458_j13194139533628_3_alg».proof.Proof.Gen.ReferenceIdeal.Run
import proofs.«409458_j13194139533628_3_alg».proof.Proof.Gen.ReferenceIdeal.Read
import proofs.«409458_j13194139533628_3_alg».proof.Proof.Gen.Pre_finite_inputs
import proofs.«409458_j13194139533628_3_alg».proof.Proof.KChain
import proofs.«409458_j13194139533628_3_alg».proof.Proof.KValue
import proofs.«409458_j13194139533628_3_alg».proof.Proof.RefEdge
import proofs.«409458_j13194139533628_3_alg».proof.Proof.RefNode
import proofs.«409458_j13194139533628_3_alg».proof.Proof.PreDecode
import proofs.«409458_j13194139533628_3_alg».proof.Proof.MathVar
import proofs.«409458_j13194139533628_3_alg».proof.Proof.MathReal
import Idealize.ShloMosaic.Adequacy
import Idealize.ShloMosaic.Init

noncomputable section

namespace Cert.Proof

open Idealize.ShloMosaic Idealize.ShloMosaic.ValueIdx Idealize.SL.Sem Cert.Spec

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The edge results agree: the same eu, the same mean, and the two forms of the variance equal on real columns. -/
theorem edge_eq (X : Arr SNF) (EF : Arr SEF) (src dst : IArr SE) (Wes : Arr SFF) (bes : Arr SF) (Wed : Arr SFF) (bed : Arr SF)
    (Wee : Arr SFF) (bee : Arr SF) (Wnd : Arr SFF) (bnd : Arr SF) (Wns : Arr SFF) (bns : Arr SF) (ge bge gn bgn : Arr SF)
    (h : Cert.Pre_finite_inputs.fn (F := Ideal) X EF src dst Wes bes Wed bed Wee bee Wnd bnd Wns bns ge bge gn bgn = fun _ => 1#1) :
    Cert.ReferenceIdeal.Read.val_main_v81 (F := Ideal) X EF src dst Wes bes Wed bed Wee bee ge bge
      = Cert.KernelIdeal.KOut.edgeOut X EF src dst Wes bes Wed bed Wee bee Wnd bnd ge bge := by
  obtain ⟨hX, hEF, hWes, hbes, hWed, hbed, hWee, hbee, -, -, -, -, hs, hd, -⟩ :=
    Cert.PreDecode.decode X EF src dst Wes bes Wed bed Wee bee Wnd bnd Wns bns ge bge gn bgn h
  funext i
  obtain ⟨e, q, rfl⟩ : ∃ (e : Fin 600000) (q : Fin 128), i = ix2 e q := ⟨i 0, i 1, eq_ix2 i⟩
  rw [Cert.ReferenceIdeal.RefEdge.edge_apply X EF src dst Wes bes Wed bed Wee bee ge bge hs hd e q,
    Cert.KernelIdeal.KValue.edgeOut_apply X EF src dst Wes bes Wed bed Wee bee Wnd bnd ge bge hs hd e q,
    Cert.MathVar.varSq_eq_varDev_E _ (fun e' => Cert.MathReal.isReal_eu X EF src dst Wes bes Wed bed Wee bee hX hEF hWes hbes hWed hbed hWee hbee e' q)]

/-- The node results agree likewise; the node update is real because no divisor den + ε₆ vanishes. -/
theorem node_eq (X : Arr SNF) (EF : Arr SEF) (src dst : IArr SE) (Wes : Arr SFF) (bes : Arr SF) (Wed : Arr SFF) (bed : Arr SF)
    (Wee : Arr SFF) (bee : Arr SF) (Wnd : Arr SFF) (bnd : Arr SF) (Wns : Arr SFF) (bns : Arr SF) (ge bge gn bgn : Arr SF)
    (h : Cert.Pre_finite_inputs.fn (F := Ideal) X EF src dst Wes bes Wed bed Wee bee Wnd bnd Wns bns ge bge gn bgn = fun _ => 1#1) :
    Cert.ReferenceIdeal.Read.val_main_v108 (F := Ideal) X EF src dst Wes bes Wed bed Wee bee Wnd bnd Wns bns gn bgn
      = Cert.KernelIdeal.KOut.nodeOut X EF src dst Wes bes Wed bed Wee bee Wnd bnd Wns bns gn bgn := by
  obtain ⟨hX, hEF, hWes, hbes, hWed, hbed, hWee, hbee, hWnd, hbnd, hWns, hbns, hs, hd, hden⟩ :=
    Cert.PreDecode.decode X EF src dst Wes bes Wed bed Wee bee Wnd bnd Wns bns ge bge gn bgn h
  funext i
  obtain ⟨p, q, rfl⟩ : ∃ (p : Fin 100000) (q : Fin 128), i = ix2 p q := ⟨i 0, i 1, eq_ix2 i⟩
  rw [Cert.ReferenceIdeal.RefNode.node_apply X EF src dst Wes bes Wed bed Wee bee Wnd bnd Wns bns gn bgn hs hd p q,
    Cert.KernelIdeal.KValue.nodeOut_apply X EF src dst Wes bes Wed bed Wee bee Wnd bnd Wns bns gn bgn hs hd p q,
    Cert.MathVar.varSq_eq_varDev_N _ (fun p' => Cert.MathReal.isReal_nfu X EF src dst Wes bes Wed bed Wee bee Wnd bnd Wns bns
      hX hEF hWes hbes hWed hbed hWee hbee hWnd hbnd hWns hbns hden p' q)]

/-- The node results agree when the reference is run on arguments equal to the kernel's. -/
theorem node_eq' (X' : Arr SNF) (EF' : Arr SEF) (src' dst' : IArr SE) (Wes' : Arr SFF) (bes' : Arr SF) (Wed' : Arr SFF) (bed' : Arr SF)
    (Wee' : Arr SFF) (bee' : Arr SF) (Wnd' : Arr SFF) (bnd' : Arr SF) (Wns' : Arr SFF) (bns' : Arr SF) (gn' bgn' : Arr SF)
    (X : Arr SNF) (EF : Arr SEF) (src dst : IArr SE) (Wes : Arr SFF) (bes : Arr SF) (Wed : Arr SFF) (bed : Arr SF)
    (Wee : Arr SFF) (bee : Arr SF) (Wnd : Arr SFF) (bnd : Arr SF) (Wns : Arr SFF) (bns : Arr SF) (ge bge gn bgn : Arr SF)
    (e0 : X' = X) (e1 : EF' = EF) (e2 : src' = src) (e3 : dst' = dst) (e4 : Wes' = Wes) (e5 : bes' = bes) (e6 : Wed' = Wed)
    (e7 : bed' = bed) (e8 : Wee' = Wee) (e9 : bee' = bee) (e10 : Wnd' = Wnd) (e11 : bnd' = bnd) (e12 : Wns' = Wns) (e13 : bns' = bns)
    (e16 : gn' = gn) (e17 : bgn' = bgn)
    (h : Cert.Pre_finite_inputs.fn (F := Ideal) X EF src dst Wes bes Wed bed Wee bee Wnd bnd Wns bns ge bge gn bgn = fun _ => 1#1) :
    Cert.ReferenceIdeal.Read.val_main_v108 (F := Ideal) X' EF' src' dst' Wes' bes' Wed' bed' Wee' bee' Wnd' bnd' Wns' bns' gn' bgn'
      = Cert.KernelIdeal.KOut.nodeOut X EF src dst Wes bes Wed bed Wee bee Wnd bnd Wns bns gn bgn := by
  subst e0 e1 e2 e3 e4 e5 e6 e7 e8 e9 e10 e11 e12 e13 e16 e17
  exact node_eq _ _ _ _ _ _ _ _ _ _ _ _ _ _ ge bge _ _ h

/-- The edge results agree when the reference is run on arguments equal to the kernel's. -/
theorem edge_eq' (X' : Arr SNF) (EF' : Arr SEF) (src' dst' : IArr SE) (Wes' : Arr SFF) (bes' : Arr SF) (Wed' : Arr SFF) (bed' : Arr SF)
    (Wee' : Arr SFF) (bee' : Arr SF) (ge' bge' : Arr SF)
    (X : Arr SNF) (EF : Arr SEF) (src dst : IArr SE) (Wes : Arr SFF) (bes : Arr SF) (Wed : Arr SFF) (bed : Arr SF)
    (Wee : Arr SFF) (bee : Arr SF) (Wnd : Arr SFF) (bnd : Arr SF) (Wns : Arr SFF) (bns : Arr SF) (ge bge gn bgn : Arr SF)
    (e0 : X' = X) (e1 : EF' = EF) (e2 : src' = src) (e3 : dst' = dst) (e4 : Wes' = Wes) (e5 : bes' = bes) (e6 : Wed' = Wed)
    (e7 : bed' = bed) (e8 : Wee' = Wee) (e9 : bee' = bee) (e14 : ge' = ge) (e15 : bge' = bge)
    (h : Cert.Pre_finite_inputs.fn (F := Ideal) X EF src dst Wes bes Wed bed Wee bee Wnd bnd Wns bns ge bge gn bgn = fun _ => 1#1) :
    Cert.ReferenceIdeal.Read.val_main_v81 (F := Ideal) X' EF' src' dst' Wes' bes' Wed' bed' Wee' bee' ge' bge'
      = Cert.KernelIdeal.KOut.edgeOut X EF src dst Wes bes Wed bed Wee bee Wnd bnd ge bge := by
  subst e0 e1 e2 e3 e4 e5 e6 e7 e8 e9 e14 e15
  exact edge_eq _ _ _ _ _ _ _ _ _ _ Wnd bnd Wns bns _ _ gn bgn h

set_option maxHeartbeats 1600000 in
theorem algebraic : Cert.algebraic_KernelIdeal_ReferenceIdeal := by
  intro m ρ m' ρ' hpre hagree
  refine ⟨_, _, Cert.KernelIdeal.Chain.run m ρ, ?_⟩
  refine (θ_run Cert.ReferenceIdeal.defs _ _).mono (fun r h c => ?_) (Cert.ReferenceIdeal.Value.run (F := Ideal) m' ρ')
  obtain ⟨a0, a1, a2, a3, a4, a5, a6, a7, a8, a9, a10, a11, a12, a13, a14, a15, a16, a17⟩ := hagree c
  exact ⟨(h c).1.trans ((Cert.ReferenceIdeal.Read.val_main_v108_eq m' c).trans
      (node_eq' _ _ _ _ _ _ _ _ _ _ _ _ _ _ _ _ _ _ _ _ _ _ _ _ _ _ _ _ _ _ _ _ _ _
        a0 a1 a2 a3 a4 a5 a6 a7 a8 a9 a10 a11 a12 a13 a16 a17 (hpre c))),
    (h c).2.1.trans ((Cert.ReferenceIdeal.Read.val_main_v81_eq m' c).trans
      (edge_eq' _ _ _ _ _ _ _ _ _ _ _ _ _ _ _ _ _ _ _ _ _ _ _ _ _ _ _ _ _ _
        a0 a1 a2 a3 a4 a5 a6 a7 a8 a9 a14 a15 (hpre c))),
    (h c).2.2⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
